-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S4096x2x1 : Shape := ⟨3, ![4096, 2, 1]⟩
abbrev S4096x2 : Shape := ⟨2, ![4096, 2]⟩
abbrev S4096x2x2 : Shape := ⟨3, ![4096, 2, 2]⟩
abbrev S4096x1x2 : Shape := ⟨3, ![4096, 1, 2]⟩
abbrev S4096x1 : Shape := ⟨2, ![4096, 1]⟩
abbrev S1024x2x1 : Shape := ⟨3, ![1024, 2, 1]⟩
abbrev S1024x2 : Shape := ⟨2, ![1024, 2]⟩
abbrev S1024x2x2 : Shape := ⟨3, ![1024, 2, 2]⟩
abbrev S1024x1x2 : Shape := ⟨3, ![1024, 1, 2]⟩
abbrev S1024x1 : Shape := ⟨2, ![1024, 1]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S4096x2x1 : S_.BroadcastsInDim S4096x2x1 (![] : Fin 0 → Fin S4096x2x1.rank)
  reducesTo_S4096x2x1_S_d0_1_2 : S4096x2x1.ReducesTo [0, 1, 2] S_
  bcast_S_S4096x2 : S_.BroadcastsInDim S4096x2 (![] : Fin 0 → Fin S4096x2.rank)
  reducesTo_S4096x2_S_d0_1 : S4096x2.ReducesTo [0, 1] S_
  bcast_S_S4096x2x2 : S_.BroadcastsInDim S4096x2x2 (![] : Fin 0 → Fin S4096x2x2.rank)
  reducesTo_S4096x2x2_S_d0_1_2 : S4096x2x2.ReducesTo [0, 1, 2] S_
  bcast_S_S4096x1x2 : S_.BroadcastsInDim S4096x1x2 (![] : Fin 0 → Fin S4096x1x2.rank)
  reducesTo_S4096x1x2_S_d0_1_2 : S4096x1x2.ReducesTo [0, 1, 2] S_
  bcast_S_S4096x1 : S_.BroadcastsInDim S4096x1 (![] : Fin 0 → Fin S4096x1.rank)
  reducesTo_S4096x1_S_d0_1 : S4096x1.ReducesTo [0, 1] S_
  bcast_S_S1024x2x1 : S_.BroadcastsInDim S1024x2x1 (![] : Fin 0 → Fin S1024x2x1.rank)
  reducesTo_S1024x2x1_S_d0_1_2 : S1024x2x1.ReducesTo [0, 1, 2] S_
  bcast_S_S1024x2 : S_.BroadcastsInDim S1024x2 (![] : Fin 0 → Fin S1024x2.rank)
  reducesTo_S1024x2_S_d0_1 : S1024x2.ReducesTo [0, 1] S_
  bcast_S_S1024x2x2 : S_.BroadcastsInDim S1024x2x2 (![] : Fin 0 → Fin S1024x2x2.rank)
  reducesTo_S1024x2x2_S_d0_1_2 : S1024x2x2.ReducesTo [0, 1, 2] S_
  bcast_S_S1024x1x2 : S_.BroadcastsInDim S1024x1x2 (![] : Fin 0 → Fin S1024x1x2.rank)
  reducesTo_S1024x1x2_S_d0_1_2 : S1024x1x2.ReducesTo [0, 1, 2] S_
  bcast_S_S1024x1 : S_.BroadcastsInDim S1024x1 (![] : Fin 0 → Fin S1024x1.rank)
  reducesTo_S1024x1_S_d0_1 : S1024x1.ReducesTo [0, 1] S_

variable [Facts]

def fn_part3 {F : FTy → Type} [FloatOps F] (main_arg11 : FVec F S1024x1x2 .f32) (main_arg12 : FVec F S1024x1 .f32) (main_v48 : IVec S_ 1) (main_v49 : FVec F S1024x2 .f32) (main_v50 : FVec F S1024x2 .f32) : IVec S_ 1 :=
  let main_v51 : IVec S1024x2 1 := cmpf .olt main_v49 main_v50
  let main_c_19 : IVec S_ 1 := constantI S_ 1 1#1
  let main_v52 : IVec S_ 1 := (fun x v => Host.reduce IntOp.andi x v reducesTo_S1024x2_S_d0_1 h_S_) main_v51 main_c_19
  let main_v53 : IVec S_ 1 := andi main_v48 main_v52
  let main_v54 : FVec F S1024x1x2 .f32 := Host.absf main_arg11
  let main_cst_20 : FVec F S_ .f32 := constant S_ .f32 0x7F800000#32
  let main_v55 : FVec F S1024x1x2 .f32 := broadcastInDim S1024x1x2 ![] bcast_S_S1024x1x2 main_cst_20
  let main_v56 : IVec S1024x1x2 1 := cmpf .olt main_v54 main_v55
  let main_c_21 : IVec S_ 1 := constantI S_ 1 1#1
  let main_v57 : IVec S_ 1 := (fun x v => Host.reduce IntOp.andi x v reducesTo_S1024x1x2_S_d0_1_2 h_S_) main_v56 main_c_21
  let main_v58 : IVec S_ 1 := andi main_v53 main_v57
  let main_v59 : FVec F S1024x1 .f32 := Host.absf main_arg12
  let main_cst_22 : FVec F S_ .f32 := constant S_ .f32 0x7F800000#32
  let main_v60 : FVec F S1024x1 .f32 := broadcastInDim S1024x1 ![] bcast_S_S1024x1 main_cst_22
  let main_v61 : IVec S1024x1 1 := cmpf .olt main_v59 main_v60
  let main_c_23 : IVec S_ 1 := constantI S_ 1 1#1
  let main_v62 : IVec S_ 1 := (fun x v => Host.reduce IntOp.andi x v reducesTo_S1024x1_S_d0_1 h_S_) main_v61 main_c_23
  let main_v63 : IVec S_ 1 := andi main_v58 main_v62
  main_v63

def fn_part2 {F : FTy → Type} [FloatOps F] (main_arg7 : FVec F S1024x2x1 .f32) (main_arg8 : FVec F S1024x2 .f32) (main_arg9 : FVec F S1024x2x2 .f32) (main_arg10 : FVec F S1024x2 .f32) (main_arg11 : FVec F S1024x1x2 .f32) (main_arg12 : FVec F S1024x1 .f32) (main_v33 : IVec S_ 1) : IVec S_ 1 :=
  let main_v34 : FVec F S1024x2x1 .f32 := Host.absf main_arg7
  let main_cst_12 : FVec F S_ .f32 := constant S_ .f32 0x7F800000#32
  let main_v35 : FVec F S1024x2x1 .f32 := broadcastInDim S1024x2x1 ![] bcast_S_S1024x2x1 main_cst_12
  let main_v36 : IVec S1024x2x1 1 := cmpf .olt main_v34 main_v35
  let main_c_13 : IVec S_ 1 := constantI S_ 1 1#1
  let main_v37 : IVec S_ 1 := (fun x v => Host.reduce IntOp.andi x v reducesTo_S1024x2x1_S_d0_1_2 h_S_) main_v36 main_c_13
  let main_v38 : IVec S_ 1 := andi main_v33 main_v37
  let main_v39 : FVec F S1024x2 .f32 := Host.absf main_arg8
  let main_cst_14 : FVec F S_ .f32 := constant S_ .f32 0x7F800000#32
  let main_v40 : FVec F S1024x2 .f32 := broadcastInDim S1024x2 ![] bcast_S_S1024x2 main_cst_14
  let main_v41 : IVec S1024x2 1 := cmpf .olt main_v39 main_v40
  let main_c_15 : IVec S_ 1 := constantI S_ 1 1#1
  let main_v42 : IVec S_ 1 := (fun x v => Host.reduce IntOp.andi x v reducesTo_S1024x2_S_d0_1 h_S_) main_v41 main_c_15
  let main_v43 : IVec S_ 1 := andi main_v38 main_v42
  let main_v44 : FVec F S1024x2x2 .f32 := Host.absf main_arg9
  let main_cst_16 : FVec F S_ .f32 := constant S_ .f32 0x7F800000#32
  let main_v45 : FVec F S1024x2x2 .f32 := broadcastInDim S1024x2x2 ![] bcast_S_S1024x2x2 main_cst_16
  let main_v46 : IVec S1024x2x2 1 := cmpf .olt main_v44 main_v45
  let main_c_17 : IVec S_ 1 := constantI S_ 1 1#1
  let main_v47 : IVec S_ 1 := (fun x v => Host.reduce IntOp.andi x v reducesTo_S1024x2x2_S_d0_1_2 h_S_) main_v46 main_c_17
  let main_v48 : IVec S_ 1 := andi main_v43 main_v47
  let main_v49 : FVec F S1024x2 .f32 := Host.absf main_arg10
  let main_cst_18 : FVec F S_ .f32 := constant S_ .f32 0x7F800000#32
  let main_v50 : FVec F S1024x2 .f32 := broadcastInDim S1024x2 ![] bcast_S_S1024x2 main_cst_18
  fn_part3 (F := F) main_arg11 main_arg12 main_v48 main_v49 main_v50

def fn_part1 {F : FTy → Type} [FloatOps F] (main_arg4 : FVec F S4096x2 .f32) (main_arg5 : FVec F S4096x1x2 .f32) (main_arg6 : FVec F S4096x1 .f32) (main_arg7 : FVec F S1024x2x1 .f32) (main_arg8 : FVec F S1024x2 .f32) (main_arg9 : FVec F S1024x2x2 .f32) (main_arg10 : FVec F S1024x2 .f32) (main_arg11 : FVec F S1024x1x2 .f32) (main_arg12 : FVec F S1024x1 .f32) (main_v13 : IVec S_ 1) (main_v16 : IVec S4096x2x2 1) : IVec S_ 1 :=
  let main_c_5 : IVec S_ 1 := constantI S_ 1 1#1
  let main_v17 : IVec S_ 1 := (fun x v => Host.reduce IntOp.andi x v reducesTo_S4096x2x2_S_d0_1_2 h_S_) main_v16 main_c_5
  let main_v18 : IVec S_ 1 := andi main_v13 main_v17
  let main_v19 : FVec F S4096x2 .f32 := Host.absf main_arg4
  let main_cst_6 : FVec F S_ .f32 := constant S_ .f32 0x7F800000#32
  let main_v20 : FVec F S4096x2 .f32 := broadcastInDim S4096x2 ![] bcast_S_S4096x2 main_cst_6
  let main_v21 : IVec S4096x2 1 := cmpf .olt main_v19 main_v20
  let main_c_7 : IVec S_ 1 := constantI S_ 1 1#1
  let main_v22 : IVec S_ 1 := (fun x v => Host.reduce IntOp.andi x v reducesTo_S4096x2_S_d0_1 h_S_) main_v21 main_c_7
  let main_v23 : IVec S_ 1 := andi main_v18 main_v22
  let main_v24 : FVec F S4096x1x2 .f32 := Host.absf main_arg5
  let main_cst_8 : FVec F S_ .f32 := constant S_ .f32 0x7F800000#32
  let main_v25 : FVec F S4096x1x2 .f32 := broadcastInDim S4096x1x2 ![] bcast_S_S4096x1x2 main_cst_8
  let main_v26 : IVec S4096x1x2 1 := cmpf .olt main_v24 main_v25
  let main_c_9 : IVec S_ 1 := constantI S_ 1 1#1
  let main_v27 : IVec S_ 1 := (fun x v => Host.reduce IntOp.andi x v reducesTo_S4096x1x2_S_d0_1_2 h_S_) main_v26 main_c_9
  let main_v28 : IVec S_ 1 := andi main_v23 main_v27
  let main_v29 : FVec F S4096x1 .f32 := Host.absf main_arg6
  let main_cst_10 : FVec F S_ .f32 := constant S_ .f32 0x7F800000#32
  let main_v30 : FVec F S4096x1 .f32 := broadcastInDim S4096x1 ![] bcast_S_S4096x1 main_cst_10
  let main_v31 : IVec S4096x1 1 := cmpf .olt main_v29 main_v30
  let main_c_11 : IVec S_ 1 := constantI S_ 1 1#1
  let main_v32 : IVec S_ 1 := (fun x v => Host.reduce IntOp.andi x v reducesTo_S4096x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S16384x64 .f32) (main_arg1 : FVec F S4096x2x1 .f32) (main_arg2 : FVec F S4096x2 .f32) (main_arg3 : FVec F S4096x2x2 .f32) (main_arg4 : FVec F S4096x2 .f32) (main_arg5 : FVec F S4096x1x2 .f32) (main_arg6 : FVec F S4096x1 .f32) (main_arg7 : FVec F S1024x2x1 .f32) (main_arg8 : FVec F S1024x2 .f32) (main_arg9 : FVec F S1024x2x2 .f32) (main_arg10 : FVec F S1024x2 .f32) (main_arg11 : FVec F S1024x1x2 .f32) (main_arg12 : FVec F S1024x1 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S4096x2x1 .f32 := Host.absf main_arg1
  let main_cst_0 : FVec F S_ .f32 := constant S_ .f32 0x7F800000#32
  let main_v5 : FVec F S4096x2x1 .f32 := broadcastInDim S4096x2x1 ![] bcast_S_S4096x2x1 main_cst_0
  let main_v6 : IVec S4096x2x1 1 := cmpf .olt main_v4 main_v5
  let main_c_1 : IVec S_ 1 := constantI S_ 1 1#1
  let main_v7 : IVec S_ 1 := (fun x v => Host.reduce IntOp.andi x v reducesTo_S4096x2x1_S_d0_1_2 h_S_) main_v6 main_c_1
  let main_v8 : IVec S_ 1 := andi main_v3 main_v7
  let main_v9 : FVec F S4096x2 .f32 := Host.absf main_arg2
  let main_cst_2 : FVec F S_ .f32 := constant S_ .f32 0x7F800000#32
  let main_v10 : FVec F S4096x2 .f32 := broadcastInDim S4096x2 ![] bcast_S_S4096x2 main_cst_2
  let main_v11 : IVec S4096x2 1 := cmpf .olt main_v9 main_v10
  let main_c_3 : IVec S_ 1 := constantI S_ 1 1#1
  let main_v12 : IVec S_ 1 := (fun x v => Host.reduce IntOp.andi x v reducesTo_S4096x2_S_d0_1 h_S_) main_v11 main_c_3
  let main_v13 : IVec S_ 1 := andi main_v8 main_v12
  let main_v14 : FVec F S4096x2x2 .f32 := Host.absf main_arg3
  let main_cst_4 : FVec F S_ .f32 := constant S_ .f32 0x7F800000#32
  let main_v15 : FVec F S4096x2x2 .f32 := broadcastInDim S4096x2x2 ![] bcast_S_S4096x2x2 main_cst_4
  let main_v16 : IVec S4096x2x2 1 := cmpf .olt main_v14 main_v15
  fn_part1 (F := F) main_arg4 main_arg5 main_arg6 main_arg7 main_arg8 main_arg9 main_arg10 main_arg11 main_arg12 main_v13 main_v16
-- ==== Kernel.lean ====
abbrev S16384x64 : Shape := ⟨2, ![16384, 64]⟩
abbrev S4096x2x1 : Shape := ⟨3, ![4096, 2, 1]⟩
abbrev S4096x2 : Shape := ⟨2, ![4096, 2]⟩
abbrev S4096x2x2 : Shape := ⟨3, ![4096, 2, 2]⟩
abbrev S4096x1x2 : Shape := ⟨3, ![4096, 1, 2]⟩
abbrev S4096x1 : Shape := ⟨2, ![4096, 1]⟩
abbrev S1024x2x1 : Shape := ⟨3, ![1024, 2, 1]⟩
abbrev S1024x2 : Shape := ⟨2, ![1024, 2]⟩
abbrev S1024x2x2 : Shape := ⟨3, ![1024, 2, 2]⟩
abbrev S1024x1x2 : Shape := ⟨3, ![1024, 1, 2]⟩
abbrev S1024x1 : Shape := ⟨2, ![1024, 1]⟩
abbrev S64x64x2 : Shape := ⟨3, ![64, 64, 2]⟩
abbrev S2x64x64 : Shape := ⟨3, ![2, 64, 64]⟩
abbrev S64x64x2x2 : Shape := ⟨4, ![64, 64, 2, 2]⟩
abbrev S2x2x64x64 : Shape := ⟨4, ![2, 2, 64, 64]⟩
abbrev S4096 : Shape := ⟨1, ![4096]⟩
abbrev S64x64 : Shape := ⟨2, ![64, 64]⟩
abbrev S64x16x2 : Shape := ⟨3, ![64, 16, 2]⟩
abbrev S2x64x16 : Shape := ⟨3, ![2, 64, 16]⟩
abbrev S64x16x2x2 : Shape := ⟨4, ![64, 16, 2, 2]⟩
abbrev S2x2x64x16 : Shape := ⟨4, ![2, 2, 64, 16]⟩
abbrev S1024 : Shape := ⟨1, ![1024]⟩
abbrev S64x16 : Shape := ⟨2, ![64, 16]⟩
abbrev S16384x16 : Shape := ⟨2, ![16384, 16]⟩
abbrev S512x64 : Shape := ⟨2, ![512, 64]⟩
abbrev S512x16 : Shape := ⟨2, ![512, 16]⟩
abbrev S512x1 : Shape := ⟨2, ![512, 1]⟩
abbrev S1x1x64 : Shape := ⟨3, ![1, 1, 64]⟩
abbrev S64 : Shape := ⟨1, ![64]⟩
abbrev S1x64 : Shape := ⟨2, ![1, 64]⟩
abbrev S1x1x1x64 : Shape := ⟨4, ![1, 1, 1, 64]⟩
abbrev S1x1x16 : Shape := ⟨3, ![1, 1, 16]⟩
abbrev S16 : Shape := ⟨1, ![16]⟩
abbrev S1x16 : Shape := ⟨2, ![1, 16]⟩
abbrev S1x1x1x16 : Shape := ⟨4, ![1, 1, 1, 16]⟩

abbrev nBuf : Space → Nat
  | .hbm => 42
  | .vmem => 16
  | .smem => 0
  | _ => 0

abbrev bufTy : (tb : Table) → Fin (tcTables nBuf tb) → BufTy
  | .hbm, ⟨0, _⟩ => ⟨S16384x64, .f32⟩
  | .hbm, ⟨1, _⟩ => ⟨S4096x2x1, .f32⟩
  | .hbm, ⟨2, _⟩ => ⟨S4096x2, .f32⟩
  | .hbm, ⟨3, _⟩ => ⟨S4096x2x2, .f32⟩
  | .hbm, ⟨4, _⟩ => ⟨S4096x2, .f32⟩
  | .hbm, ⟨5, _⟩ => ⟨S4096x1x2, .f32⟩
  | .hbm, ⟨6, _⟩ => ⟨S4096x1, .f32⟩
  | .hbm, ⟨7, _⟩ => ⟨S1024x2x1, .f32⟩
  | .hbm, ⟨8, _⟩ => ⟨S1024x2, .f32⟩
  | .hbm, ⟨9, _⟩ => ⟨S1024x2x2, .f32⟩
  | .hbm, ⟨10, _⟩ => ⟨S1024x2, .f32⟩
  | .hbm, ⟨11, _⟩ => ⟨S1024x1x2, .f32⟩
  | .hbm, ⟨12, _⟩ => ⟨S1024x1, .f32⟩
  | .hbm, ⟨13, _⟩ => ⟨S4096x2, .f32⟩
  | .hbm, ⟨14, _⟩ => ⟨S64x64x2, .f32⟩
  | .hbm, ⟨15, _⟩ => ⟨S2x64x64, .f32⟩
  | .hbm, ⟨16, _⟩ => ⟨S64x64x2, .f32⟩
  | .hbm, ⟨17, _⟩ => ⟨S2x64x64, .f32⟩
  | .hbm, ⟨18, _⟩ => ⟨S64x64x2x2, .f32⟩
  | .hbm, ⟨19, _⟩ => ⟨S2x2x64x64, .f32⟩
  | .hbm, ⟨20, _⟩ => ⟨S64x64x2, .f32⟩
  | .hbm, ⟨21, _⟩ => ⟨S2x64x64, .f32⟩
  | .hbm, ⟨22, _⟩ => ⟨S4096x2, .f32⟩
  | .hbm, ⟨23, _⟩ => ⟨S64x64x2, .f32⟩
  | .hbm, ⟨24, _⟩ => ⟨S2x64x64, .f32⟩
  | .hbm, ⟨25, _⟩ => ⟨S4096, .f32⟩
  | .hbm, ⟨26, _⟩ => ⟨S64x64, .f32⟩
  | .hbm, ⟨27, _⟩ => ⟨S1024x2, .f32⟩
  | .hbm, ⟨28, _⟩ => ⟨S64x16x2, .f32⟩
  | .hbm, ⟨29, _⟩ => ⟨S2x64x16, .f32⟩
  | .hbm, ⟨30, _⟩ => ⟨S64x16x2, .f32⟩
  | .hbm, ⟨31, _⟩ => ⟨S2x64x16, .f32⟩
  | .hbm, ⟨32, _⟩ => ⟨S64x16x2x2, .f32⟩
  | .hbm, ⟨33, _⟩ => ⟨S2x2x64x16, .f32⟩
  | .hbm, ⟨34, _⟩ => ⟨S64x16x2, .f32⟩
  | .hbm, ⟨35, _⟩ => ⟨S2x64x16, .f32⟩
  | .hbm, ⟨36, _⟩ => ⟨S1024x2, .f32⟩
  | .hbm, ⟨37, _⟩ => ⟨S64x16x2, .f32⟩
  | .hbm, ⟨38, _⟩ => ⟨S2x64x16, .f32⟩
  | .hbm, ⟨39, _⟩ => ⟨S1024, .f32⟩
  | .hbm, ⟨40, _⟩ => ⟨S64x16, .f32⟩
  | .hbm, ⟨41, _⟩ => ⟨S16384x16, .f32⟩
  | .local _ .vmem, ⟨0, _⟩ => ⟨S512x64, .f32⟩
  | .local _ .vmem, ⟨1, _⟩ => ⟨S512x64, .f32⟩
  | .local _ .vmem, ⟨2, _⟩ => ⟨S2x64x64, .f32⟩
  | .local _ .vmem, ⟨3, _⟩ => ⟨S2x64x64, .f32⟩
  | .local _ .vmem, ⟨4, _⟩ => ⟨S2x2x64x64, .f32⟩
  | .local _ .vmem, ⟨5, _⟩ => ⟨S2x64x64, .f32⟩
  | .local _ .vmem, ⟨6, _⟩ => ⟨S2x64x64, .f32⟩
  | .local _ .vmem, ⟨7, _⟩ => ⟨S64x64, .f32⟩
  | .local _ .vmem, ⟨8, _⟩ => ⟨S2x64x16, .f32⟩
  | .local _ .vmem, ⟨9, _⟩ => ⟨S2x64x16, .f32⟩
  | .local _ .vmem, ⟨10, _⟩ => ⟨S2x2x64x16, .f32⟩
  | .local _ .vmem, ⟨11, _⟩ => ⟨S2x64x16, .f32⟩
  | .local _ .vmem, ⟨12, _⟩ => ⟨S2x64x16, .f32⟩
  | .local _ .vmem, ⟨13, _⟩ => ⟨S64x16, .f32⟩
  | .local _ .vmem, ⟨14, _⟩ => ⟨S512x16, .f32⟩
  | .local _ .vmem, ⟨15, _⟩ => ⟨S512x16, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x2x64x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x64x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x64x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S16384x64.size a
  hwx0_0 : ∀ i : grid0.Coords, EltTy.bits .f32 = 32 ∨ (Rect.block (s := S16384x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64x64.size a ≤ S2x64x64.size a
  hwx0_1 : ∀ i : grid0.Coords, EltTy.bits .f32 = 32 ∨ (Rect.block (s := S2x64x64) S2x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64x64.size a ≤ S2x64x64.size a
  hwx0_2 : ∀ i : grid0.Coords, EltTy.bits .f32 = 32 ∨ (Rect.block (s := S2x64x64) S2x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2x64x64.size a ≤ S2x2x64x64.size a
  hwx0_3 : ∀ i : grid0.Coords, EltTy.bits .f32 = 32 ∨ (Rect.block (s := S2x2x64x64) S2x2x64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64x64.size a ≤ S2x64x64.size a
  hwx0_4 : ∀ i : grid0.Coords, EltTy.bits .f32 = 32 ∨ (Rect.block (s := S2x64x64) S2x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x64x64.size a ≤ S2x64x64.size a
  hwx0_5 : ∀ i : grid0.Coords, EltTy.bits .f32 = 32 ∨ (Rect.block (s := S2x64x64) S2x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x64x16.size a ≤ S2x64x16.size a
  hwx0_7 : ∀ i : grid0.Coords, EltTy.bits .f32 = 32 ∨ (Rect.block (s := S2x64x16) S2x64x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x64x16.size a ≤ S2x64x16.size a
  hwx0_8 : ∀ i : grid0.Coords, EltTy.bits .f32 = 32 ∨ (Rect.block (s := S2x64x16) S2x64x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x2x64x16.size a ≤ S2x2x64x16.size a
  hwx0_9 : ∀ i : grid0.Coords, EltTy.bits .f32 = 32 ∨ (Rect.block (s := S2x2x64x16) S2x2x64x16.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x64x16.size a ≤ S2x64x16.size a
  hwx0_10 : ∀ i : grid0.Coords, EltTy.bits .f32 = 32 ∨ (Rect.block (s := S2x64x16) S2x64x16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2x64x16.size a ≤ S2x64x16.size a
  hwx0_11 : ∀ i : grid0.Coords, EltTy.bits .f32 = 32 ∨ (Rect.block (s := S2x64x16) S2x64x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x16.size a ≤ S64x16.size a
  hwx0_12 : ∀ i : grid0.Coords, EltTy.bits .f32 = 32 ∨ (Rect.block (s := S64x16) S64x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x16.size a ≤ S16384x16.size a
  hwx0_13 : ∀ i : grid0.Coords, EltTy.bits .f32 = 32 ∨ (Rect.block (s := S16384x16) S512x16.size (cc0_transform_13 i) (hinb0_13 i)).WholeWords (EltTy.packing .f32)

class Shapes1.Facts₀ : Prop where
  shapeCasts_S4096x2x1_S4096x2 : S4096x2x1.ShapeCasts S4096x2
  shapeCasts_S4096x2_S64x64x2 : S4096x2.ShapeCasts S64x64x2
  transposes_S64x64x2_S2x64x64_2_0_1 : S64x64x2.Transposes [2, 0, 1] S2x64x64
  shapeCasts_S4096x2x2_S64x64x2x2 : S4096x2x2.ShapeCasts S64x64x2x2
  transposes_S64x64x2x2_S2x2x64x64_2_3_0_1 : S64x64x2x2.Transposes [2, 3, 0, 1] S2x2x64x64
  shapeCasts_S4096x1x2_S4096x2 : S4096x1x2.ShapeCasts S4096x2
  shapeCasts_S4096x1_S4096 : S4096x1.ShapeCasts S4096
  shapeCasts_S4096_S64x64 : S4096.ShapeCasts S64x64
  shapeCasts_S1024x2x1_S1024x2 : S1024x2x1.ShapeCasts S1024x2
  shapeCasts_S1024x2_S64x16x2 : S1024x2.ShapeCasts S64x16x2
  transposes_S64x16x2_S2x64x16_2_0_1 : S64x16x2.Transposes [2, 0, 1] S2x64x16
  shapeCasts_S1024x2x2_S64x16x2x2 : S1024x2x2.ShapeCasts S64x16x2x2
  transposes_S64x16x2x2_S2x2x64x16_2_3_0_1 : S64x16x2x2.Transposes [2, 3, 0, 1] S2x2x64x16
  shapeCasts_S1024x1x2_S1024x2 : S1024x1x2.ShapeCasts S1024x2
  shapeCasts_S1024x1_S1024 : S1024x1.ShapeCasts S1024
  shapeCasts_S1024_S64x16 : S1024.ShapeCasts S64x16
  inb_S512x64_S512x64_0_0 : ∀ a, (![0, 0] : Fin 2 → Nat) a + S512x64.size a ≤ S512x64.size a
  h_S512x64 : 0 < S512x64.numel
  inb_S2x64x64_S2x64x64_0_0_0 : ∀ a, (![0, 0, 0] : Fin 3 → Nat) a + S2x64x64.size a ≤ S2x64x64.size a
  h_S2x64x64 : 0 < S2x64x64.numel
  shapeCasts_S2x64x64_S2x64x64 : S2x64x64.ShapeCasts S2x64x64
  inb_S2x2x64x64_S2x2x64x64_0_0_0_0 : ∀ a, (![0, 0, 0, 0] : Fin 4 → Nat) a + S2x2x64x64.size a ≤ S2x2x64x64.size a
  h_S2x2x64x64 : 0 < S2x2x64x64.numel
  shapeCasts_S2x2x64x64_S2x2x64x64 : S2x2x64x64.ShapeCasts S2x2x64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S512x64_o0_0_S512x1 : S512x64.Slices ![0, 0] S512x1
  slices_S2x64x64_o0_0_0_S1x1x64 : S2x64x64.Slices ![0, 0, 0] S1x1x64
  shapeCasts_S1x1x64_S64 : S1x1x64.ShapeCasts S64
  shapeCasts_S64_S1x64 : S64.ShapeCasts S1x64
  slices_S2x64x64_o1_0_0_S1x1x64 : S2x64x64.Slices ![1, 0, 0] S1x1x64
  broadcasts_S512x1_S512x64 : S512x1.Broadcasts S512x64
  broadcasts_S1x64_S512x64 : S1x64.Broadcasts S512x64
  slices_S2x2x64x64_o0_0_0_0_S1x1x1x64 : S2x2x64x64.Slices ![0, 0, 0, 0] S1x1x1x64
  shapeCasts_S1x1x1x64_S64 : S1x1x1x64.ShapeCasts S64
  slices_S2x2x64x64_o0_1_0_0_S1x1x1x64 : S2x2x64x64.Slices ![0, 1, 0, 0] S1x1x1x64
  slices_S2x2x64x64_o1_0_0_0_S1x1x1x64 : S2x2x64x64.Slices ![1, 0, 0, 0] S1x1x1x64
  slices_S2x2x64x64_o1_1_0_0_S1x1x1x64 : S2x2x64x64.Slices ![1, 1, 0, 0] S1x1x1x64
  slices_S64x64_o0_0_S1x64 : S64x64.Slices ![0, 0] S1x64
  shapeCasts_S1x64_S64 : S1x64.ShapeCasts S64
  slices_S512x64_o0_1_S512x1 : S512x64.Slices ![0, 1] S512x1
  slices_S2x64x64_o0_1_0_S1x1x64 : S2x64x64.Slices ![0, 1, 0] S1x1x64
  slices_S2x64x64_o1_1_0_S1x1x64 : S2x64x64.Slices ![1, 1, 0] S1x1x64
  slices_S2x2x64x64_o0_0_1_0_S1x1x1x64 : S2x2x64x64.Slices ![0, 0, 1, 0] S1x1x1x64
  slices_S2x2x64x64_o0_1_1_0_S1x1x1x64 : S2x2x64x64.Slices ![0, 1, 1, 0] S1x1x1x64
  slices_S2x2x64x64_o1_0_1_0_S1x1x1x64 : S2x2x64x64.Slices ![1, 0, 1, 0] S1x1x1x64
  slices_S2x2x64x64_o1_1_1_0_S1x1x1x64 : S2x2x64x64.Slices ![1, 1, 1, 0] S1x1x1x64
  slices_S64x64_o1_0_S1x64 : S64x64.Slices ![1, 0] S1x64
  slices_S512x64_o0_2_S512x1 : S512x64.Slices ![0, 2] S512x1
  slices_S2x64x64_o0_2_0_S1x1x64 : S2x64x64.Slices ![0, 2, 0] S1x1x64
  slices_S2x64x64_o1_2_0_S1x1x64 : S2x64x64.Slices ![1, 2, 0] S1x1x64
  slices_S2x2x64x64_o0_0_2_0_S1x1x1x64 : S2x2x64x64.Slices ![0, 0, 2, 0] S1x1x1x64
  slices_S2x2x64x64_o0_1_2_0_S1x1x1x64 : S2x2x64x64.Slices ![0, 1, 2, 0] S1x1x1x64
  slices_S2x2x64x64_o1_0_2_0_S1x1x1x64 : S2x2x64x64.Slices ![1, 0, 2, 0] S1x1x1x64
  slices_S2x2x64x64_o1_1_2_0_S1x1x1x64 : S2x2x64x64.Slices ![1, 1, 2, 0] S1x1x1x64
  slices_S64x64_o2_0_S1x64 : S64x64.Slices ![2, 0] S1x64
  slices_S512x64_o0_3_S512x1 : S512x64.Slices ![0, 3] S512x1
  slices_S2x64x64_o0_3_0_S1x1x64 : S2x64x64.Slices ![0, 3, 0] S1x1x64
  slices_S2x64x64_o1_3_0_S1x1x64 : S2x64x64.Slices ![1, 3, 0] S1x1x64
  slices_S2x2x64x64_o0_0_3_0_S1x1x1x64 : S2x2x64x64.Slices ![0, 0, 3, 0] S1x1x1x64
  slices_S2x2x64x64_o0_1_3_0_S1x1x1x64 : S2x2x64x64.Slices ![0, 1, 3, 0] S1x1x1x64
  slices_S2x2x64x64_o1_0_3_0_S1x1x1x64 : S2x2x64x64.Slices ![1, 0, 3, 0] S1x1x1x64
  slices_S2x2x64x64_o1_1_3_0_S1x1x1x64 : S2x2x64x64.Slices ![1, 1, 3, 0] S1x1x1x64
  slices_S64x64_o3_0_S1x64 : S64x64.Slices ![3, 0] S1x64
  slices_S512x64_o0_4_S512x1 : S512x64.Slices ![0, 4] S512x1
  slices_S2x64x64_o0_4_0_S1x1x64 : S2x64x64.Slices ![0, 4, 0] S1x1x64
  slices_S2x64x64_o1_4_0_S1x1x64 : S2x64x64.Slices ![1, 4, 0] S1x1x64
  slices_S2x2x64x64_o0_0_4_0_S1x1x1x64 : S2x2x64x64.Slices ![0, 0, 4, 0] S1x1x1x64
  slices_S2x2x64x64_o0_1_4_0_S1x1x1x64 : S2x2x64x64.Slices ![0, 1, 4, 0] S1x1x1x64
  slices_S2x2x64x64_o1_0_4_0_S1x1x1x64 : S2x2x64x64.Slices ![1, 0, 4, 0] S1x1x1x64
  slices_S2x2x64x64_o1_1_4_0_S1x1x1x64 : S2x2x64x64.Slices ![1, 1, 4, 0] S1x1x1x64
  slices_S64x64_o4_0_S1x64 : S64x64.Slices ![4, 0] S1x64
  slices_S512x64_o0_5_S512x1 : S512x64.Slices ![0, 5] S512x1
  slices_S2x64x64_o0_5_0_S1x1x64 : S2x64x64.Slices ![0, 5, 0] S1x1x64
  slices_S2x64x64_o1_5_0_S1x1x64 : S2x64x64.Slices ![1, 5, 0] S1x1x64
  slices_S2x2x64x64_o0_0_5_0_S1x1x1x64 : S2x2x64x64.Slices ![0, 0, 5, 0] S1x1x1x64
  slices_S2x2x64x64_o0_1_5_0_S1x1x1x64 : S2x2x64x64.Slices ![0, 1, 5, 0] S1x1x1x64
  slices_S2x2x64x64_o1_0_5_0_S1x1x1x64 : S2x2x64x64.Slices ![1, 0, 5, 0] S1x1x1x64
  slices_S2x2x64x64_o1_1_5_0_S1x1x1x64 : S2x2x64x64.Slices ![1, 1, 5, 0] S1x1x1x64
  slices_S64x64_o5_0_S1x64 : S64x64.Slices ![5, 0] S1x64
  slices_S512x64_o0_6_S512x1 : S512x64.Slices ![0, 6] S512x1
  slices_S2x64x64_o0_6_0_S1x1x64 : S2x64x64.Slices ![0, 6, 0] S1x1x64
  slices_S2x64x64_o1_6_0_S1x1x64 : S2x64x64.Slices ![1, 6, 0] S1x1x64
  slices_S2x2x64x64_o0_0_6_0_S1x1x1x64 : S2x2x64x64.Slices ![0, 0, 6, 0] S1x1x1x64
  slices_S2x2x64x64_o0_1_6_0_S1x1x1x64 : S2x2x64x64.Slices ![0, 1, 6, 0] S1x1x1x64
  slices_S2x2x64x64_o1_0_6_0_S1x1x1x64 : S2x2x64x64.Slices ![1, 0, 6, 0] S1x1x1x64
  slices_S2x2x64x64_o1_1_6_0_S1x1x1x64 : S2x2x64x64.Slices ![1, 1, 6, 0] S1x1x1x64
  slices_S64x64_o6_0_S1x64 : S64x64.Slices ![6, 0] S1x64
  slices_S512x64_o0_7_S512x1 : S512x64.Slices ![0, 7] S512x1
  slices_S2x64x64_o0_7_0_S1x1x64 : S2x64x64.Slices ![0, 7, 0] S1x1x64
  slices_S2x64x64_o1_7_0_S1x1x64 : S2x64x64.Slices ![1, 7, 0] S1x1x64
  slices_S2x2x64x64_o0_0_7_0_S1x1x1x64 : S2x2x64x64.Slices ![0, 0, 7, 0] S1x1x1x64
  slices_S2x2x64x64_o0_1_7_0_S1x1x1x64 : S2x2x64x64.Slices ![0, 1, 7, 0] S1x1x1x64
  slices_S2x2x64x64_o1_0_7_0_S1x1x1x64 : S2x2x64x64.Slices ![1, 0, 7, 0] S1x1x1x64
  slices_S2x2x64x64_o1_1_7_0_S1x1x1x64 : S2x2x64x64.Slices ![1, 1, 7, 0] S1x1x1x64
  slices_S64x64_o7_0_S1x64 : S64x64.Slices ![7, 0] S1x64
  slices_S512x64_o0_8_S512x1 : S512x64.Slices ![0, 8] S512x1
  slices_S2x64x64_o0_8_0_S1x1x64 : S2x64x64.Slices ![0, 8, 0] S1x1x64
  slices_S2x64x64_o1_8_0_S1x1x64 : S2x64x64.Slices ![1, 8, 0] S1x1x64
  slices_S2x2x64x64_o0_0_8_0_S1x1x1x64 : S2x2x64x64.Slices ![0, 0, 8, 0] S1x1x1x64
  slices_S2x2x64x64_o0_1_8_0_S1x1x1x64 : S2x2x64x64.Slices ![0, 1, 8, 0] S1x1x1x64
  slices_S2x2x64x64_o1_0_8_0_S1x1x1x64 : S2x2x64x64.Slices ![1, 0, 8, 0] S1x1x1x64
  slices_S2x2x64x64_o1_1_8_0_S1x1x1x64 : S2x2x64x64.Slices ![1, 1, 8, 0] S1x1x1x64
  slices_S64x64_o8_0_S1x64 : S64x64.Slices ![8, 0] S1x64
  slices_S512x64_o0_9_S512x1 : S512x64.Slices ![0, 9] S512x1
  slices_S2x64x64_o0_9_0_S1x1x64 : S2x64x64.Slices ![0, 9, 0] S1x1x64
  slices_S2x64x64_o1_9_0_S1x1x64 : S2x64x64.Slices ![1, 9, 0] S1x1x64
  slices_S2x2x64x64_o0_0_9_0_S1x1x1x64 : S2x2x64x64.Slices ![0, 0, 9, 0] S1x1x1x64
  slices_S2x2x64x64_o0_1_9_0_S1x1x1x64 : S2x2x64x64.Slices ![0, 1, 9, 0] S1x1x1x64
  slices_S2x2x64x64_o1_0_9_0_S1x1x1x64 : S2x2x64x64.Slices ![1, 0, 9, 0] S1x1x1x64
  slices_S2x2x64x64_o1_1_9_0_S1x1x1x64 : S2x2x64x64.Slices ![1, 1, 9, 0] S1x1x1x64
  slices_S64x64_o9_0_S1x64 : S64x64.Slices ![9, 0] S1x64
  slices_S512x64_o0_10_S512x1 : S512x64.Slices ![0, 10] S512x1
  slices_S2x64x64_o0_10_0_S1x1x64 : S2x64x64.Slices ![0, 10, 0] S1x1x64
  slices_S2x64x64_o1_10_0_S1x1x64 : S2x64x64.Slices ![1, 10, 0] S1x1x64
  slices_S2x2x64x64_o0_0_10_0_S1x1x1x64 : S2x2x64x64.Slices ![0, 0, 10, 0] S1x1x1x64
  slices_S2x2x64x64_o0_1_10_0_S1x1x1x64 : S2x2x64x64.Slices ![0, 1, 10, 0] S1x1x1x64
  slices_S2x2x64x64_o1_0_10_0_S1x1x1x64 : S2x2x64x64.Slices ![1, 0, 10, 0] S1x1x1x64
  slices_S2x2x64x64_o1_1_10_0_S1x1x1x64 : S2x2x64x64.Slices ![1, 1, 10, 0] S1x1x1x64
  slices_S64x64_o10_0_S1x64 : S64x64.Slices ![10, 0] S1x64
  slices_S512x64_o0_11_S512x1 : S512x64.Slices ![0, 11] S512x1
  slices_S2x64x64_o0_11_0_S1x1x64 : S2x64x64.Slices ![0, 11, 0] S1x1x64
  slices_S2x64x64_o1_11_0_S1x1x64 : S2x64x64.Slices ![1, 11, 0] S1x1x64
  slices_S2x2x64x64_o0_0_11_0_S1x1x1x64 : S2x2x64x64.Slices ![0, 0, 11, 0] S1x1x1x64
  slices_S2x2x64x64_o0_1_11_0_S1x1x1x64 : S2x2x64x64.Slices ![0, 1, 11, 0] S1x1x1x64
  slices_S2x2x64x64_o1_0_11_0_S1x1x1x64 : S2x2x64x64.Slices ![1, 0, 11, 0] S1x1x1x64
  slices_S2x2x64x64_o1_1_11_0_S1x1x1x64 : S2x2x64x64.Slices ![1, 1, 11, 0] S1x1x1x64
  slices_S64x64_o11_0_S1x64 : S64x64.Slices ![11, 0] S1x64
  slices_S512x64_o0_12_S512x1 : S512x64.Slices ![0, 12] S512x1
  slices_S2x64x64_o0_12_0_S1x1x64 : S2x64x64.Slices ![0, 12, 0] S1x1x64
  slices_S2x64x64_o1_12_0_S1x1x64 : S2x64x64.Slices ![1, 12, 0] S1x1x64
  slices_S2x2x64x64_o0_0_12_0_S1x1x1x64 : S2x2x64x64.Slices ![0, 0, 12, 0] S1x1x1x64
  slices_S2x2x64x64_o0_1_12_0_S1x1x1x64 : S2x2x64x64.Slices ![0, 1, 12, 0] S1x1x1x64
  slices_S2x2x64x64_o1_0_12_0_S1x1x1x64 : S2x2x64x64.Slices ![1, 0, 12, 0] S1x1x1x64
  slices_S2x2x64x64_o1_1_12_0_S1x1x1x64 : S2x2x64x64.Slices ![1, 1, 12, 0] S1x1x1x64
  slices_S64x64_o12_0_S1x64 : S64x64.Slices ![12, 0] S1x64
  slices_S512x64_o0_13_S512x1 : S512x64.Slices ![0, 13] S512x1
  slices_S2x64x64_o0_13_0_S1x1x64 : S2x64x64.Slices ![0, 13, 0] S1x1x64
  slices_S2x64x64_o1_13_0_S1x1x64 : S2x64x64.Slices ![1, 13, 0] S1x1x64
  slices_S2x2x64x64_o0_0_13_0_S1x1x1x64 : S2x2x64x64.Slices ![0, 0, 13, 0] S1x1x1x64
  slices_S2x2x64x64_o0_1_13_0_S1x1x1x64 : S2x2x64x64.Slices ![0, 1, 13, 0] S1x1x1x64
  slices_S2x2x64x64_o1_0_13_0_S1x1x1x64 : S2x2x64x64.Slices ![1, 0, 13, 0] S1x1x1x64
  slices_S2x2x64x64_o1_1_13_0_S1x1x1x64 : S2x2x64x64.Slices ![1, 1, 13, 0] S1x1x1x64
  slices_S64x64_o13_0_S1x64 : S64x64.Slices ![13, 0] S1x64
  slices_S512x64_o0_14_S512x1 : S512x64.Slices ![0, 14] S512x1
  slices_S2x64x64_o0_14_0_S1x1x64 : S2x64x64.Slices ![0, 14, 0] S1x1x64
  slices_S2x64x64_o1_14_0_S1x1x64 : S2x64x64.Slices ![1, 14, 0] S1x1x64
  slices_S2x2x64x64_o0_0_14_0_S1x1x1x64 : S2x2x64x64.Slices ![0, 0, 14, 0] S1x1x1x64
  slices_S2x2x64x64_o0_1_14_0_S1x1x1x64 : S2x2x64x64.Slices ![0, 1, 14, 0] S1x1x1x64
  slices_S2x2x64x64_o1_0_14_0_S1x1x1x64 : S2x2x64x64.Slices ![1, 0, 14, 0] S1x1x1x64
  slices_S2x2x64x64_o1_1_14_0_S1x1x1x64 : S2x2x64x64.Slices ![1, 1, 14, 0] S1x1x1x64
  slices_S64x64_o14_0_S1x64 : S64x64.Slices ![14, 0] S1x64
  slices_S512x64_o0_15_S512x1 : S512x64.Slices ![0, 15] S512x1
  slices_S2x64x64_o0_15_0_S1x1x64 : S2x64x64.Slices ![0, 15, 0] S1x1x64
  slices_S2x64x64_o1_15_0_S1x1x64 : S2x64x64.Slices ![1, 15, 0] S1x1x64
  slices_S2x2x64x64_o0_0_15_0_S1x1x1x64 : S2x2x64x64.Slices ![0, 0, 15, 0] S1x1x1x64
  slices_S2x2x64x64_o0_1_15_0_S1x1x1x64 : S2x2x64x64.Slices ![0, 1, 15, 0] S1x1x1x64
  slices_S2x2x64x64_o1_0_15_0_S1x1x1x64 : S2x2x64x64.Slices ![1, 0, 15, 0] S1x1x1x64
  slices_S2x2x64x64_o1_1_15_0_S1x1x1x64 : S2x2x64x64.Slices ![1, 1, 15, 0] S1x1x1x64
  slices_S64x64_o15_0_S1x64 : S64x64.Slices ![15, 0] S1x64
  slices_S512x64_o0_16_S512x1 : S512x64.Slices ![0, 16] S512x1
  slices_S2x64x64_o0_16_0_S1x1x64 : S2x64x64.Slices ![0, 16, 0] S1x1x64
  slices_S2x64x64_o1_16_0_S1x1x64 : S2x64x64.Slices ![1, 16, 0] S1x1x64
  slices_S2x2x64x64_o0_0_16_0_S1x1x1x64 : S2x2x64x64.Slices ![0, 0, 16, 0] S1x1x1x64
  slices_S2x2x64x64_o0_1_16_0_S1x1x1x64 : S2x2x64x64.Slices ![0, 1, 16, 0] S1x1x1x64
  slices_S2x2x64x64_o1_0_16_0_S1x1x1x64 : S2x2x64x64.Slices ![1, 0, 16, 0] S1x1x1x64
  slices_S2x2x64x64_o1_1_16_0_S1x1x1x64 : S2x2x64x64.Slices ![1, 1, 16, 0] S1x1x1x64
  slices_S64x64_o16_0_S1x64 : S64x64.Slices ![16, 0] S1x64
  slices_S512x64_o0_17_S512x1 : S512x64.Slices ![0, 17] S512x1
  slices_S2x64x64_o0_17_0_S1x1x64 : S2x64x64.Slices ![0, 17, 0] S1x1x64
  slices_S2x64x64_o1_17_0_S1x1x64 : S2x64x64.Slices ![1, 17, 0] S1x1x64
  slices_S2x2x64x64_o0_0_17_0_S1x1x1x64 : S2x2x64x64.Slices ![0, 0, 17, 0] S1x1x1x64
  slices_S2x2x64x64_o0_1_17_0_S1x1x1x64 : S2x2x64x64.Slices ![0, 1, 17, 0] S1x1x1x64
  slices_S2x2x64x64_o1_0_17_0_S1x1x1x64 : S2x2x64x64.Slices ![1, 0, 17, 0] S1x1x1x64
  slices_S2x2x64x64_o1_1_17_0_S1x1x1x64 : S2x2x64x64.Slices ![1, 1, 17, 0] S1x1x1x64
  slices_S64x64_o17_0_S1x64 : S64x64.Slices ![17, 0] S1x64
  slices_S512x64_o0_18_S512x1 : S512x64.Slices ![0, 18] S512x1
  slices_S2x64x64_o0_18_0_S1x1x64 : S2x64x64.Slices ![0, 18, 0] S1x1x64
  slices_S2x64x64_o1_18_0_S1x1x64 : S2x64x64.Slices ![1, 18, 0] S1x1x64
  slices_S2x2x64x64_o0_0_18_0_S1x1x1x64 : S2x2x64x64.Slices ![0, 0, 18, 0] S1x1x1x64
  slices_S2x2x64x64_o0_1_18_0_S1x1x1x64 : S2x2x64x64.Slices ![0, 1, 18, 0] S1x1x1x64
  slices_S2x2x64x64_o1_0_18_0_S1x1x1x64 : S2x2x64x64.Slices ![1, 0, 18, 0] S1x1x1x64
  slices_S2x2x64x64_o1_1_18_0_S1x1x1x64 : S2x2x64x64.Slices ![1, 1, 18, 0] S1x1x1x64
  slices_S64x64_o18_0_S1x64 : S64x64.Slices ![18, 0] S1x64
  slices_S512x64_o0_19_S512x1 : S512x64.Slices ![0, 19] S512x1
  slices_S2x64x64_o0_19_0_S1x1x64 : S2x64x64.Slices ![0, 19, 0] S1x1x64
  slices_S2x64x64_o1_19_0_S1x1x64 : S2x64x64.Slices ![1, 19, 0] S1x1x64
  slices_S2x2x64x64_o0_0_19_0_S1x1x1x64 : S2x2x64x64.Slices ![0, 0, 19, 0] S1x1x1x64
  slices_S2x2x64x64_o0_1_19_0_S1x1x1x64 : S2x2x64x64.Slices ![0, 1, 19, 0] S1x1x1x64
  slices_S2x2x64x64_o1_0_19_0_S1x1x1x64 : S2x2x64x64.Slices ![1, 0, 19, 0] S1x1x1x64
  slices_S2x2x64x64_o1_1_19_0_S1x1x1x64 : S2x2x64x64.Slices ![1, 1, 19, 0] S1x1x1x64
  slices_S64x64_o19_0_S1x64 : S64x64.Slices ![19, 0] S1x64
  slices_S512x64_o0_20_S512x1 : S512x64.Slices ![0, 20] S512x1
  slices_S2x64x64_o0_20_0_S1x1x64 : S2x64x64.Slices ![0, 20, 0] S1x1x64
  slices_S2x64x64_o1_20_0_S1x1x64 : S2x64x64.Slices ![1, 20, 0] S1x1x64
  slices_S2x2x64x64_o0_0_20_0_S1x1x1x64 : S2x2x64x64.Slices ![0, 0, 20, 0] S1x1x1x64
  slices_S2x2x64x64_o0_1_20_0_S1x1x1x64 : S2x2x64x64.Slices ![0, 1, 20, 0] S1x1x1x64
  slices_S2x2x64x64_o1_0_20_0_S1x1x1x64 : S2x2x64x64.Slices ![1, 0, 20, 0] S1x1x1x64
  slices_S2x2x64x64_o1_1_20_0_S1x1x1x64 : S2x2x64x64.Slices ![1, 1, 20, 0] S1x1x1x64
  slices_S64x64_o20_0_S1x64 : S64x64.Slices ![20, 0] S1x64
  slices_S512x64_o0_21_S512x1 : S512x64.Slices ![0, 21] S512x1
  slices_S2x64x64_o0_21_0_S1x1x64 : S2x64x64.Slices ![0, 21, 0] S1x1x64
  slices_S2x64x64_o1_21_0_S1x1x64 : S2x64x64.Slices ![1, 21, 0] S1x1x64
  slices_S2x2x64x64_o0_0_21_0_S1x1x1x64 : S2x2x64x64.Slices ![0, 0, 21, 0] S1x1x1x64
  slices_S2x2x64x64_o0_1_21_0_S1x1x1x64 : S2x2x64x64.Slices ![0, 1, 21, 0] S1x1x1x64
  slices_S2x2x64x64_o1_0_21_0_S1x1x1x64 : S2x2x64x64.Slices ![1, 0, 21, 0] S1x1x1x64
  slices_S2x2x64x64_o1_1_21_0_S1x1x1x64 : S2x2x64x64.Slices ![1, 1, 21, 0] S1x1x1x64
  slices_S64x64_o21_0_S1x64 : S64x64.Slices ![21, 0] S1x64
  slices_S512x64_o0_22_S512x1 : S512x64.Slices ![0, 22] S512x1
  slices_S2x64x64_o0_22_0_S1x1x64 : S2x64x64.Slices ![0, 22, 0] S1x1x64
  slices_S2x64x64_o1_22_0_S1x1x64 : S2x64x64.Slices ![1, 22, 0] S1x1x64
  slices_S2x2x64x64_o0_0_22_0_S1x1x1x64 : S2x2x64x64.Slices ![0, 0, 22, 0] S1x1x1x64
  slices_S2x2x64x64_o0_1_22_0_S1x1x1x64 : S2x2x64x64.Slices ![0, 1, 22, 0] S1x1x1x64
  slices_S2x2x64x64_o1_0_22_0_S1x1x1x64 : S2x2x64x64.Slices ![1, 0, 22, 0] S1x1x1x64
  slices_S2x2x64x64_o1_1_22_0_S1x1x1x64 : S2x2x64x64.Slices ![1, 1, 22, 0] S1x1x1x64
  slices_S64x64_o22_0_S1x64 : S64x64.Slices ![22, 0] S1x64
  slices_S512x64_o0_23_S512x1 : S512x64.Slices ![0, 23] S512x1
  slices_S2x64x64_o0_23_0_S1x1x64 : S2x64x64.Slices ![0, 23, 0] S1x1x64
  slices_S2x64x64_o1_23_0_S1x1x64 : S2x64x64.Slices ![1, 23, 0] S1x1x64
  slices_S2x2x64x64_o0_0_23_0_S1x1x1x64 : S2x2x64x64.Slices ![0, 0, 23, 0] S1x1x1x64
  slices_S2x2x64x64_o0_1_23_0_S1x1x1x64 : S2x2x64x64.Slices ![0, 1, 23, 0] S1x1x1x64
  slices_S2x2x64x64_o1_0_23_0_S1x1x1x64 : S2x2x64x64.Slices ![1, 0, 23, 0] S1x1x1x64
  slices_S2x2x64x64_o1_1_23_0_S1x1x1x64 : S2x2x64x64.Slices ![1, 1, 23, 0] S1x1x1x64
  slices_S64x64_o23_0_S1x64 : S64x64.Slices ![23, 0] S1x64
  slices_S512x64_o0_24_S512x1 : S512x64.Slices ![0, 24] S512x1
  slices_S2x64x64_o0_24_0_S1x1x64 : S2x64x64.Slices ![0, 24, 0] S1x1x64
  slices_S2x64x64_o1_24_0_S1x1x64 : S2x64x64.Slices ![1, 24, 0] S1x1x64
  slices_S2x2x64x64_o0_0_24_0_S1x1x1x64 : S2x2x64x64.Slices ![0, 0, 24, 0] S1x1x1x64
  slices_S2x2x64x64_o0_1_24_0_S1x1x1x64 : S2x2x64x64.Slices ![0, 1, 24, 0] S1x1x1x64
  slices_S2x2x64x64_o1_0_24_0_S1x1x1x64 : S2x2x64x64.Slices ![1, 0, 24, 0] S1x1x1x64
  slices_S2x2x64x64_o1_1_24_0_S1x1x1x64 : S2x2x64x64.Slices ![1, 1, 24, 0] S1x1x1x64
  slices_S64x64_o24_0_S1x64 : S64x64.Slices ![24, 0] S1x64
  slices_S512x64_o0_25_S512x1 : S512x64.Slices ![0, 25] S512x1
  slices_S2x64x64_o0_25_0_S1x1x64 : S2x64x64.Slices ![0, 25, 0] S1x1x64
  slices_S2x64x64_o1_25_0_S1x1x64 : S2x64x64.Slices ![1, 25, 0] S1x1x64
  slices_S2x2x64x64_o0_0_25_0_S1x1x1x64 : S2x2x64x64.Slices ![0, 0, 25, 0] S1x1x1x64
  slices_S2x2x64x64_o0_1_25_0_S1x1x1x64 : S2x2x64x64.Slices ![0, 1, 25, 0] S1x1x1x64
  slices_S2x2x64x64_o1_0_25_0_S1x1x1x64 : S2x2x64x64.Slices ![1, 0, 25, 0] S1x1x1x64
  slices_S2x2x64x64_o1_1_25_0_S1x1x1x64 : S2x2x64x64.Slices ![1, 1, 25, 0] S1x1x1x64
  slices_S64x64_o25_0_S1x64 : S64x64.Slices ![25, 0] S1x64
  slices_S512x64_o0_26_S512x1 : S512x64.Slices ![0, 26] S512x1
  slices_S2x64x64_o0_26_0_S1x1x64 : S2x64x64.Slices ![0, 26, 0] S1x1x64
  slices_S2x64x64_o1_26_0_S1x1x64 : S2x64x64.Slices ![1, 26, 0] S1x1x64
  slices_S2x2x64x64_o0_0_26_0_S1x1x1x64 : S2x2x64x64.Slices ![0, 0, 26, 0] S1x1x1x64
  slices_S2x2x64x64_o0_1_26_0_S1x1x1x64 : S2x2x64x64.Slices ![0, 1, 26, 0] S1x1x1x64
  slices_S2x2x64x64_o1_0_26_0_S1x1x1x64 : S2x2x64x64.Slices ![1, 0, 26, 0] S1x1x1x64
  slices_S2x2x64x64_o1_1_26_0_S1x1x1x64 : S2x2x64x64.Slices ![1, 1, 26, 0] S1x1x1x64
  slices_S64x64_o26_0_S1x64 : S64x64.Slices ![26, 0] S1x64
  slices_S512x64_o0_27_S512x1 : S512x64.Slices ![0, 27] S512x1
  slices_S2x64x64_o0_27_0_S1x1x64 : S2x64x64.Slices ![0, 27, 0] S1x1x64
  slices_S2x64x64_o1_27_0_S1x1x64 : S2x64x64.Slices ![1, 27, 0] S1x1x64
  slices_S2x2x64x64_o0_0_27_0_S1x1x1x64 : S2x2x64x64.Slices ![0, 0, 27, 0] S1x1x1x64
  slices_S2x2x64x64_o0_1_27_0_S1x1x1x64 : S2x2x64x64.Slices ![0, 1, 27, 0] S1x1x1x64
  slices_S2x2x64x64_o1_0_27_0_S1x1x1x64 : S2x2x64x64.Slices ![1, 0, 27, 0] S1x1x1x64
  slices_S2x2x64x64_o1_1_27_0_S1x1x1x64 : S2x2x64x64.Slices ![1, 1, 27, 0] S1x1x1x64
  slices_S64x64_o27_0_S1x64 : S64x64.Slices ![27, 0] S1x64
  slices_S512x64_o0_28_S512x1 : S512x64.Slices ![0, 28] S512x1
  slices_S2x64x64_o0_28_0_S1x1x64 : S2x64x64.Slices ![0, 28, 0] S1x1x64
  slices_S2x64x64_o1_28_0_S1x1x64 : S2x64x64.Slices ![1, 28, 0] S1x1x64
  slices_S2x2x64x64_o0_0_28_0_S1x1x1x64 : S2x2x64x64.Slices ![0, 0, 28, 0] S1x1x1x64
  slices_S2x2x64x64_o0_1_28_0_S1x1x1x64 : S2x2x64x64.Slices ![0, 1, 28, 0] S1x1x1x64
  slices_S2x2x64x64_o1_0_28_0_S1x1x1x64 : S2x2x64x64.Slices ![1, 0, 28, 0] S1x1x1x64
  slices_S2x2x64x64_o1_1_28_0_S1x1x1x64 : S2x2x64x64.Slices ![1, 1, 28, 0] S1x1x1x64
  slices_S64x64_o28_0_S1x64 : S64x64.Slices ![28, 0] S1x64
  slices_S512x64_o0_29_S512x1 : S512x64.Slices ![0, 29] S512x1
  slices_S2x64x64_o0_29_0_S1x1x64 : S2x64x64.Slices ![0, 29, 0] S1x1x64
  slices_S2x64x64_o1_29_0_S1x1x64 : S2x64x64.Slices ![1, 29, 0] S1x1x64
  slices_S2x2x64x64_o0_0_29_0_S1x1x1x64 : S2x2x64x64.Slices ![0, 0, 29, 0] S1x1x1x64
  slices_S2x2x64x64_o0_1_29_0_S1x1x1x64 : S2x2x64x64.Slices ![0, 1, 29, 0] S1x1x1x64
  slices_S2x2x64x64_o1_0_29_0_S1x1x1x64 : S2x2x64x64.Slices ![1, 0, 29, 0] S1x1x1x64
  slices_S2x2x64x64_o1_1_29_0_S1x1x1x64 : S2x2x64x64.Slices ![1, 1, 29, 0] S1x1x1x64
  slices_S64x64_o29_0_S1x64 : S64x64.Slices ![29, 0] S1x64
  slices_S512x64_o0_30_S512x1 : S512x64.Slices ![0, 30] S512x1
  slices_S2x64x64_o0_30_0_S1x1x64 : S2x64x64.Slices ![0, 30, 0] S1x1x64
  slices_S2x64x64_o1_30_0_S1x1x64 : S2x64x64.Slices ![1, 30, 0] S1x1x64
  slices_S2x2x64x64_o0_0_30_0_S1x1x1x64 : S2x2x64x64.Slices ![0, 0, 30, 0] S1x1x1x64
  slices_S2x2x64x64_o0_1_30_0_S1x1x1x64 : S2x2x64x64.Slices ![0, 1, 30, 0] S1x1x1x64
  slices_S2x2x64x64_o1_0_30_0_S1x1x1x64 : S2x2x64x64.Slices ![1, 0, 30, 0] S1x1x1x64
  slices_S2x2x64x64_o1_1_30_0_S1x1x1x64 : S2x2x64x64.Slices ![1, 1, 30, 0] S1x1x1x64
  slices_S64x64_o30_0_S1x64 : S64x64.Slices ![30, 0] S1x64
  slices_S512x64_o0_31_S512x1 : S512x64.Slices ![0, 31] S512x1
  slices_S2x64x64_o0_31_0_S1x1x64 : S2x64x64.Slices ![0, 31, 0] S1x1x64
  slices_S2x64x64_o1_31_0_S1x1x64 : S2x64x64.Slices ![1, 31, 0] S1x1x64
  slices_S2x2x64x64_o0_0_31_0_S1x1x1x64 : S2x2x64x64.Slices ![0, 0, 31, 0] S1x1x1x64
  slices_S2x2x64x64_o0_1_31_0_S1x1x1x64 : S2x2x64x64.Slices ![0, 1, 31, 0] S1x1x1x64
  slices_S2x2x64x64_o1_0_31_0_S1x1x1x64 : S2x2x64x64.Slices ![1, 0, 31, 0] S1x1x1x64
  slices_S2x2x64x64_o1_1_31_0_S1x1x1x64 : S2x2x64x64.Slices ![1, 1, 31, 0] S1x1x1x64
  slices_S64x64_o31_0_S1x64 : S64x64.Slices ![31, 0] S1x64
  slices_S512x64_o0_32_S512x1 : S512x64.Slices ![0, 32] S512x1
  slices_S2x64x64_o0_32_0_S1x1x64 : S2x64x64.Slices ![0, 32, 0] S1x1x64
  slices_S2x64x64_o1_32_0_S1x1x64 : S2x64x64.Slices ![1, 32, 0] S1x1x64
  slices_S2x2x64x64_o0_0_32_0_S1x1x1x64 : S2x2x64x64.Slices ![0, 0, 32, 0] S1x1x1x64
  slices_S2x2x64x64_o0_1_32_0_S1x1x1x64 : S2x2x64x64.Slices ![0, 1, 32, 0] S1x1x1x64
  slices_S2x2x64x64_o1_0_32_0_S1x1x1x64 : S2x2x64x64.Slices ![1, 0, 32, 0] S1x1x1x64
  slices_S2x2x64x64_o1_1_32_0_S1x1x1x64 : S2x2x64x64.Slices ![1, 1, 32, 0] S1x1x1x64
  slices_S64x64_o32_0_S1x64 : S64x64.Slices ![32, 0] S1x64
  slices_S512x64_o0_33_S512x1 : S512x64.Slices ![0, 33] S512x1
  slices_S2x64x64_o0_33_0_S1x1x64 : S2x64x64.Slices ![0, 33, 0] S1x1x64
  slices_S2x64x64_o1_33_0_S1x1x64 : S2x64x64.Slices ![1, 33, 0] S1x1x64
  slices_S2x2x64x64_o0_0_33_0_S1x1x1x64 : S2x2x64x64.Slices ![0, 0, 33, 0] S1x1x1x64
  slices_S2x2x64x64_o0_1_33_0_S1x1x1x64 : S2x2x64x64.Slices ![0, 1, 33, 0] S1x1x1x64
  slices_S2x2x64x64_o1_0_33_0_S1x1x1x64 : S2x2x64x64.Slices ![1, 0, 33, 0] S1x1x1x64
  slices_S2x2x64x64_o1_1_33_0_S1x1x1x64 : S2x2x64x64.Slices ![1, 1, 33, 0] S1x1x1x64
  slices_S64x64_o33_0_S1x64 : S64x64.Slices ![33, 0] S1x64
  slices_S512x64_o0_34_S512x1 : S512x64.Slices ![0, 34] S512x1
  slices_S2x64x64_o0_34_0_S1x1x64 : S2x64x64.Slices ![0, 34, 0] S1x1x64
  slices_S2x64x64_o1_34_0_S1x1x64 : S2x64x64.Slices ![1, 34, 0] S1x1x64
  slices_S2x2x64x64_o0_0_34_0_S1x1x1x64 : S2x2x64x64.Slices ![0, 0, 34, 0] S1x1x1x64
  slices_S2x2x64x64_o0_1_34_0_S1x1x1x64 : S2x2x64x64.Slices ![0, 1, 34, 0] S1x1x1x64
  slices_S2x2x64x64_o1_0_34_0_S1x1x1x64 : S2x2x64x64.Slices ![1, 0, 34, 0] S1x1x1x64
  slices_S2x2x64x64_o1_1_34_0_S1x1x1x64 : S2x2x64x64.Slices ![1, 1, 34, 0] S1x1x1x64
  slices_S64x64_o34_0_S1x64 : S64x64.Slices ![34, 0] S1x64
  slices_S512x64_o0_35_S512x1 : S512x64.Slices ![0, 35] S512x1
  slices_S2x64x64_o0_35_0_S1x1x64 : S2x64x64.Slices ![0, 35, 0] S1x1x64
  slices_S2x64x64_o1_35_0_S1x1x64 : S2x64x64.Slices ![1, 35, 0] S1x1x64
  slices_S2x2x64x64_o0_0_35_0_S1x1x1x64 : S2x2x64x64.Slices ![0, 0, 35, 0] S1x1x1x64
  slices_S2x2x64x64_o0_1_35_0_S1x1x1x64 : S2x2x64x64.Slices ![0, 1, 35, 0] S1x1x1x64
  slices_S2x2x64x64_o1_0_35_0_S1x1x1x64 : S2x2x64x64.Slices ![1, 0, 35, 0] S1x1x1x64
  slices_S2x2x64x64_o1_1_35_0_S1x1x1x64 : S2x2x64x64.Slices ![1, 1, 35, 0] S1x1x1x64
  slices_S64x64_o35_0_S1x64 : S64x64.Slices ![35, 0] S1x64
  slices_S512x64_o0_36_S512x1 : S512x64.Slices ![0, 36] S512x1
  slices_S2x64x64_o0_36_0_S1x1x64 : S2x64x64.Slices ![0, 36, 0] S1x1x64
  slices_S2x64x64_o1_36_0_S1x1x64 : S2x64x64.Slices ![1, 36, 0] S1x1x64
  slices_S2x2x64x64_o0_0_36_0_S1x1x1x64 : S2x2x64x64.Slices ![0, 0, 36, 0] S1x1x1x64
  slices_S2x2x64x64_o0_1_36_0_S1x1x1x64 : S2x2x64x64.Slices ![0, 1, 36, 0] S1x1x1x64
  slices_S2x2x64x64_o1_0_36_0_S1x1x1x64 : S2x2x64x64.Slices ![1, 0, 36, 0] S1x1x1x64
  slices_S2x2x64x64_o1_1_36_0_S1x1x1x64 : S2x2x64x64.Slices ![1, 1, 36, 0] S1x1x1x64
  slices_S64x64_o36_0_S1x64 : S64x64.Slices ![36, 0] S1x64
  slices_S512x64_o0_37_S512x1 : S512x64.Slices ![0, 37] S512x1
  slices_S2x64x64_o0_37_0_S1x1x64 : S2x64x64.Slices ![0, 37, 0] S1x1x64
  slices_S2x64x64_o1_37_0_S1x1x64 : S2x64x64.Slices ![1, 37, 0] S1x1x64
  slices_S2x2x64x64_o0_0_37_0_S1x1x1x64 : S2x2x64x64.Slices ![0, 0, 37, 0] S1x1x1x64
  slices_S2x2x64x64_o0_1_37_0_S1x1x1x64 : S2x2x64x64.Slices ![0, 1, 37, 0] S1x1x1x64
  slices_S2x2x64x64_o1_0_37_0_S1x1x1x64 : S2x2x64x64.Slices ![1, 0, 37, 0] S1x1x1x64
  slices_S2x2x64x64_o1_1_37_0_S1x1x1x64 : S2x2x64x64.Slices ![1, 1, 37, 0] S1x1x1x64
  slices_S64x64_o37_0_S1x64 : S64x64.Slices ![37, 0] S1x64
  slices_S512x64_o0_38_S512x1 : S512x64.Slices ![0, 38] S512x1
  slices_S2x64x64_o0_38_0_S1x1x64 : S2x64x64.Slices ![0, 38, 0] S1x1x64
  slices_S2x64x64_o1_38_0_S1x1x64 : S2x64x64.Slices ![1, 38, 0] S1x1x64
  slices_S2x2x64x64_o0_0_38_0_S1x1x1x64 : S2x2x64x64.Slices ![0, 0, 38, 0] S1x1x1x64
  slices_S2x2x64x64_o0_1_38_0_S1x1x1x64 : S2x2x64x64.Slices ![0, 1, 38, 0] S1x1x1x64
  slices_S2x2x64x64_o1_0_38_0_S1x1x1x64 : S2x2x64x64.Slices ![1, 0, 38, 0] S1x1x1x64
  slices_S2x2x64x64_o1_1_38_0_S1x1x1x64 : S2x2x64x64.Slices ![1, 1, 38, 0] S1x1x1x64
  slices_S64x64_o38_0_S1x64 : S64x64.Slices ![38, 0] S1x64
  slices_S512x64_o0_39_S512x1 : S512x64.Slices ![0, 39] S512x1
  slices_S2x64x64_o0_39_0_S1x1x64 : S2x64x64.Slices ![0, 39, 0] S1x1x64
  slices_S2x64x64_o1_39_0_S1x1x64 : S2x64x64.Slices ![1, 39, 0] S1x1x64
  slices_S2x2x64x64_o0_0_39_0_S1x1x1x64 : S2x2x64x64.Slices ![0, 0, 39, 0] S1x1x1x64
  slices_S2x2x64x64_o0_1_39_0_S1x1x1x64 : S2x2x64x64.Slices ![0, 1, 39, 0] S1x1x1x64
  slices_S2x2x64x64_o1_0_39_0_S1x1x1x64 : S2x2x64x64.Slices ![1, 0, 39, 0] S1x1x1x64
  slices_S2x2x64x64_o1_1_39_0_S1x1x1x64 : S2x2x64x64.Slices ![1, 1, 39, 0] S1x1x1x64
  slices_S64x64_o39_0_S1x64 : S64x64.Slices ![39, 0] S1x64
  slices_S512x64_o0_40_S512x1 : S512x64.Slices ![0, 40] S512x1
  slices_S2x64x64_o0_40_0_S1x1x64 : S2x64x64.Slices ![0, 40, 0] S1x1x64
  slices_S2x64x64_o1_40_0_S1x1x64 : S2x64x64.Slices ![1, 40, 0] S1x1x64
  slices_S2x2x64x64_o0_0_40_0_S1x1x1x64 : S2x2x64x64.Slices ![0, 0, 40, 0] S1x1x1x64
  slices_S2x2x64x64_o0_1_40_0_S1x1x1x64 : S2x2x64x64.Slices ![0, 1, 40, 0] S1x1x1x64
  slices_S2x2x64x64_o1_0_40_0_S1x1x1x64 : S2x2x64x64.Slices ![1, 0, 40, 0] S1x1x1x64
  slices_S2x2x64x64_o1_1_40_0_S1x1x1x64 : S2x2x64x64.Slices ![1, 1, 40, 0] S1x1x1x64
  slices_S64x64_o40_0_S1x64 : S64x64.Slices ![40, 0] S1x64
  slices_S512x64_o0_41_S512x1 : S512x64.Slices ![0, 41] S512x1
  slices_S2x64x64_o0_41_0_S1x1x64 : S2x64x64.Slices ![0, 41, 0] S1x1x64
  slices_S2x64x64_o1_41_0_S1x1x64 : S2x64x64.Slices ![1, 41, 0] S1x1x64
  slices_S2x2x64x64_o0_0_41_0_S1x1x1x64 : S2x2x64x64.Slices ![0, 0, 41, 0] S1x1x1x64
  slices_S2x2x64x64_o0_1_41_0_S1x1x1x64 : S2x2x64x64.Slices ![0, 1, 41, 0] S1x1x1x64
  slices_S2x2x64x64_o1_0_41_0_S1x1x1x64 : S2x2x64x64.Slices ![1, 0, 41, 0] S1x1x1x64
  slices_S2x2x64x64_o1_1_41_0_S1x1x1x64 : S2x2x64x64.Slices ![1, 1, 41, 0] S1x1x1x64
  slices_S64x64_o41_0_S1x64 : S64x64.Slices ![41, 0] S1x64
  slices_S512x64_o0_42_S512x1 : S512x64.Slices ![0, 42] S512x1
  slices_S2x64x64_o0_42_0_S1x1x64 : S2x64x64.Slices ![0, 42, 0] S1x1x64
  slices_S2x64x64_o1_42_0_S1x1x64 : S2x64x64.Slices ![1, 42, 0] S1x1x64
  slices_S2x2x64x64_o0_0_42_0_S1x1x1x64 : S2x2x64x64.Slices ![0, 0, 42, 0] S1x1x1x64
  slices_S2x2x64x64_o0_1_42_0_S1x1x1x64 : S2x2x64x64.Slices ![0, 1, 42, 0] S1x1x1x64
  slices_S2x2x64x64_o1_0_42_0_S1x1x1x64 : S2x2x64x64.Slices ![1, 0, 42, 0] S1x1x1x64
  slices_S2x2x64x64_o1_1_42_0_S1x1x1x64 : S2x2x64x64.Slices ![1, 1, 42, 0] S1x1x1x64
  slices_S64x64_o42_0_S1x64 : S64x64.Slices ![42, 0] S1x64
  slices_S512x64_o0_43_S512x1 : S512x64.Slices ![0, 43] S512x1
  slices_S2x64x64_o0_43_0_S1x1x64 : S2x64x64.Slices ![0, 43, 0] S1x1x64
  slices_S2x64x64_o1_43_0_S1x1x64 : S2x64x64.Slices ![1, 43, 0] S1x1x64
  slices_S2x2x64x64_o0_0_43_0_S1x1x1x64 : S2x2x64x64.Slices ![0, 0, 43, 0] S1x1x1x64
  slices_S2x2x64x64_o0_1_43_0_S1x1x1x64 : S2x2x64x64.Slices ![0, 1, 43, 0] S1x1x1x64
  slices_S2x2x64x64_o1_0_43_0_S1x1x1x64 : S2x2x64x64.Slices ![1, 0, 43, 0] S1x1x1x64
  slices_S2x2x64x64_o1_1_43_0_S1x1x1x64 : S2x2x64x64.Slices ![1, 1, 43, 0] S1x1x1x64
  slices_S64x64_o43_0_S1x64 : S64x64.Slices ![43, 0] S1x64
  slices_S512x64_o0_44_S512x1 : S512x64.Slices ![0, 44] S512x1
  slices_S2x64x64_o0_44_0_S1x1x64 : S2x64x64.Slices ![0, 44, 0] S1x1x64
  slices_S2x64x64_o1_44_0_S1x1x64 : S2x64x64.Slices ![1, 44, 0] S1x1x64
  slices_S2x2x64x64_o0_0_44_0_S1x1x1x64 : S2x2x64x64.Slices ![0, 0, 44, 0] S1x1x1x64
  slices_S2x2x64x64_o0_1_44_0_S1x1x1x64 : S2x2x64x64.Slices ![0, 1, 44, 0] S1x1x1x64
  slices_S2x2x64x64_o1_0_44_0_S1x1x1x64 : S2x2x64x64.Slices ![1, 0, 44, 0] S1x1x1x64
  slices_S2x2x64x64_o1_1_44_0_S1x1x1x64 : S2x2x64x64.Slices ![1, 1, 44, 0] S1x1x1x64
  slices_S64x64_o44_0_S1x64 : S64x64.Slices ![44, 0] S1x64
  slices_S512x64_o0_45_S512x1 : S512x64.Slices ![0, 45] S512x1
  slices_S2x64x64_o0_45_0_S1x1x64 : S2x64x64.Slices ![0, 45, 0] S1x1x64
  slices_S2x64x64_o1_45_0_S1x1x64 : S2x64x64.Slices ![1, 45, 0] S1x1x64
  slices_S2x2x64x64_o0_0_45_0_S1x1x1x64 : S2x2x64x64.Slices ![0, 0, 45, 0] S1x1x1x64
  slices_S2x2x64x64_o0_1_45_0_S1x1x1x64 : S2x2x64x64.Slices ![0, 1, 45, 0] S1x1x1x64
  slices_S2x2x64x64_o1_0_45_0_S1x1x1x64 : S2x2x64x64.Slices ![1, 0, 45, 0] S1x1x1x64
  slices_S2x2x64x64_o1_1_45_0_S1x1x1x64 : S2x2x64x64.Slices ![1, 1, 45, 0] S1x1x1x64
  slices_S64x64_o45_0_S1x64 : S64x64.Slices ![45, 0] S1x64
  slices_S512x64_o0_46_S512x1 : S512x64.Slices ![0, 46] S512x1
  slices_S2x64x64_o0_46_0_S1x1x64 : S2x64x64.Slices ![0, 46, 0] S1x1x64
  slices_S2x64x64_o1_46_0_S1x1x64 : S2x64x64.Slices ![1, 46, 0] S1x1x64
  slices_S2x2x64x64_o0_0_46_0_S1x1x1x64 : S2x2x64x64.Slices ![0, 0, 46, 0] S1x1x1x64
  slices_S2x2x64x64_o0_1_46_0_S1x1x1x64 : S2x2x64x64.Slices ![0, 1, 46, 0] S1x1x1x64
  slices_S2x2x64x64_o1_0_46_0_S1x1x1x64 : S2x2x64x64.Slices ![1, 0, 46, 0] S1x1x1x64
  slices_S2x2x64x64_o1_1_46_0_S1x1x1x64 : S2x2x64x64.Slices ![1, 1, 46, 0] S1x1x1x64
  slices_S64x64_o46_0_S1x64 : S64x64.Slices ![46, 0] S1x64
  slices_S512x64_o0_47_S512x1 : S512x64.Slices ![0, 47] S512x1
  slices_S2x64x64_o0_47_0_S1x1x64 : S2x64x64.Slices ![0, 47, 0] S1x1x64
  slices_S2x64x64_o1_47_0_S1x1x64 : S2x64x64.Slices ![1, 47, 0] S1x1x64
  slices_S2x2x64x64_o0_0_47_0_S1x1x1x64 : S2x2x64x64.Slices ![0, 0, 47, 0] S1x1x1x64
  slices_S2x2x64x64_o0_1_47_0_S1x1x1x64 : S2x2x64x64.Slices ![0, 1, 47, 0] S1x1x1x64
  slices_S2x2x64x64_o1_0_47_0_S1x1x1x64 : S2x2x64x64.Slices ![1, 0, 47, 0] S1x1x1x64
  slices_S2x2x64x64_o1_1_47_0_S1x1x1x64 : S2x2x64x64.Slices ![1, 1, 47, 0] S1x1x1x64
  slices_S64x64_o47_0_S1x64 : S64x64.Slices ![47, 0] S1x64
  slices_S512x64_o0_48_S512x1 : S512x64.Slices ![0, 48] S512x1
  slices_S2x64x64_o0_48_0_S1x1x64 : S2x64x64.Slices ![0, 48, 0] S1x1x64
  slices_S2x64x64_o1_48_0_S1x1x64 : S2x64x64.Slices ![1, 48, 0] S1x1x64
  slices_S2x2x64x64_o0_0_48_0_S1x1x1x64 : S2x2x64x64.Slices ![0, 0, 48, 0] S1x1x1x64
  slices_S2x2x64x64_o0_1_48_0_S1x1x1x64 : S2x2x64x64.Slices ![0, 1, 48, 0] S1x1x1x64
  slices_S2x2x64x64_o1_0_48_0_S1x1x1x64 : S2x2x64x64.Slices ![1, 0, 48, 0] S1x1x1x64
  slices_S2x2x64x64_o1_1_48_0_S1x1x1x64 : S2x2x64x64.Slices ![1, 1, 48, 0] S1x1x1x64
  slices_S64x64_o48_0_S1x64 : S64x64.Slices ![48, 0] S1x64
  slices_S512x64_o0_49_S512x1 : S512x64.Slices ![0, 49] S512x1
  slices_S2x64x64_o0_49_0_S1x1x64 : S2x64x64.Slices ![0, 49, 0] S1x1x64
  slices_S2x64x64_o1_49_0_S1x1x64 : S2x64x64.Slices ![1, 49, 0] S1x1x64
  slices_S2x2x64x64_o0_0_49_0_S1x1x1x64 : S2x2x64x64.Slices ![0, 0, 49, 0] S1x1x1x64
  slices_S2x2x64x64_o0_1_49_0_S1x1x1x64 : S2x2x64x64.Slices ![0, 1, 49, 0] S1x1x1x64
  slices_S2x2x64x64_o1_0_49_0_S1x1x1x64 : S2x2x64x64.Slices ![1, 0, 49, 0] S1x1x1x64
  slices_S2x2x64x64_o1_1_49_0_S1x1x1x64 : S2x2x64x64.Slices ![1, 1, 49, 0] S1x1x1x64
  slices_S64x64_o49_0_S1x64 : S64x64.Slices ![49, 0] S1x64
  slices_S512x64_o0_50_S512x1 : S512x64.Slices ![0, 50] S512x1
  slices_S2x64x64_o0_50_0_S1x1x64 : S2x64x64.Slices ![0, 50, 0] S1x1x64
  slices_S2x64x64_o1_50_0_S1x1x64 : S2x64x64.Slices ![1, 50, 0] S1x1x64
  slices_S2x2x64x64_o0_0_50_0_S1x1x1x64 : S2x2x64x64.Slices ![0, 0, 50, 0] S1x1x1x64
  slices_S2x2x64x64_o0_1_50_0_S1x1x1x64 : S2x2x64x64.Slices ![0, 1, 50, 0] S1x1x1x64
  slices_S2x2x64x64_o1_0_50_0_S1x1x1x64 : S2x2x64x64.Slices ![1, 0, 50, 0] S1x1x1x64
  slices_S2x2x64x64_o1_1_50_0_S1x1x1x64 : S2x2x64x64.Slices ![1, 1, 50, 0] S1x1x1x64
  slices_S64x64_o50_0_S1x64 : S64x64.Slices ![50, 0] S1x64
  slices_S512x64_o0_51_S512x1 : S512x64.Slices ![0, 51] S512x1
  slices_S2x64x64_o0_51_0_S1x1x64 : S2x64x64.Slices ![0, 51, 0] S1x1x64
  slices_S2x64x64_o1_51_0_S1x1x64 : S2x64x64.Slices ![1, 51, 0] S1x1x64
  slices_S2x2x64x64_o0_0_51_0_S1x1x1x64 : S2x2x64x64.Slices ![0, 0, 51, 0] S1x1x1x64
  slices_S2x2x64x64_o0_1_51_0_S1x1x1x64 : S2x2x64x64.Slices ![0, 1, 51, 0] S1x1x1x64
  slices_S2x2x64x64_o1_0_51_0_S1x1x1x64 : S2x2x64x64.Slices ![1, 0, 51, 0] S1x1x1x64
  slices_S2x2x64x64_o1_1_51_0_S1x1x1x64 : S2x2x64x64.Slices ![1, 1, 51, 0] S1x1x1x64
  slices_S64x64_o51_0_S1x64 : S64x64.Slices ![51, 0] S1x64
  slices_S512x64_o0_52_S512x1 : S512x64.Slices ![0, 52] S512x1
  slices_S2x64x64_o0_52_0_S1x1x64 : S2x64x64.Slices ![0, 52, 0] S1x1x64
  slices_S2x64x64_o1_52_0_S1x1x64 : S2x64x64.Slices ![1, 52, 0] S1x1x64
  slices_S2x2x64x64_o0_0_52_0_S1x1x1x64 : S2x2x64x64.Slices ![0, 0, 52, 0] S1x1x1x64
  slices_S2x2x64x64_o0_1_52_0_S1x1x1x64 : S2x2x64x64.Slices ![0, 1, 52, 0] S1x1x1x64
  slices_S2x2x64x64_o1_0_52_0_S1x1x1x64 : S2x2x64x64.Slices ![1, 0, 52, 0] S1x1x1x64
  slices_S2x2x64x64_o1_1_52_0_S1x1x1x64 : S2x2x64x64.Slices ![1, 1, 52, 0] S1x1x1x64
  slices_S64x64_o52_0_S1x64 : S64x64.Slices ![52, 0] S1x64
  slices_S512x64_o0_53_S512x1 : S512x64.Slices ![0, 53] S512x1
  slices_S2x64x64_o0_53_0_S1x1x64 : S2x64x64.Slices ![0, 53, 0] S1x1x64
  slices_S2x64x64_o1_53_0_S1x1x64 : S2x64x64.Slices ![1, 53, 0] S1x1x64
  slices_S2x2x64x64_o0_0_53_0_S1x1x1x64 : S2x2x64x64.Slices ![0, 0, 53, 0] S1x1x1x64
  slices_S2x2x64x64_o0_1_53_0_S1x1x1x64 : S2x2x64x64.Slices ![0, 1, 53, 0] S1x1x1x64
  slices_S2x2x64x64_o1_0_53_0_S1x1x1x64 : S2x2x64x64.Slices ![1, 0, 53, 0] S1x1x1x64
  slices_S2x2x64x64_o1_1_53_0_S1x1x1x64 : S2x2x64x64.Slices ![1, 1, 53, 0] S1x1x1x64
  slices_S64x64_o53_0_S1x64 : S64x64.Slices ![53, 0] S1x64
  slices_S512x64_o0_54_S512x1 : S512x64.Slices ![0, 54] S512x1
  slices_S2x64x64_o0_54_0_S1x1x64 : S2x64x64.Slices ![0, 54, 0] S1x1x64
  slices_S2x64x64_o1_54_0_S1x1x64 : S2x64x64.Slices ![1, 54, 0] S1x1x64
  slices_S2x2x64x64_o0_0_54_0_S1x1x1x64 : S2x2x64x64.Slices ![0, 0, 54, 0] S1x1x1x64
  slices_S2x2x64x64_o0_1_54_0_S1x1x1x64 : S2x2x64x64.Slices ![0, 1, 54, 0] S1x1x1x64
  slices_S2x2x64x64_o1_0_54_0_S1x1x1x64 : S2x2x64x64.Slices ![1, 0, 54, 0] S1x1x1x64
  slices_S2x2x64x64_o1_1_54_0_S1x1x1x64 : S2x2x64x64.Slices ![1, 1, 54, 0] S1x1x1x64
  slices_S64x64_o54_0_S1x64 : S64x64.Slices ![54, 0] S1x64
  slices_S512x64_o0_55_S512x1 : S512x64.Slices ![0, 55] S512x1
  slices_S2x64x64_o0_55_0_S1x1x64 : S2x64x64.Slices ![0, 55, 0] S1x1x64
  slices_S2x64x64_o1_55_0_S1x1x64 : S2x64x64.Slices ![1, 55, 0] S1x1x64
  slices_S2x2x64x64_o0_0_55_0_S1x1x1x64 : S2x2x64x64.Slices ![0, 0, 55, 0] S1x1x1x64
  slices_S2x2x64x64_o0_1_55_0_S1x1x1x64 : S2x2x64x64.Slices ![0, 1, 55, 0] S1x1x1x64
  slices_S2x2x64x64_o1_0_55_0_S1x1x1x64 : S2x2x64x64.Slices ![1, 0, 55, 0] S1x1x1x64
  slices_S2x2x64x64_o1_1_55_0_S1x1x1x64 : S2x2x64x64.Slices ![1, 1, 55, 0] S1x1x1x64
  slices_S64x64_o55_0_S1x64 : S64x64.Slices ![55, 0] S1x64
  slices_S512x64_o0_56_S512x1 : S512x64.Slices ![0, 56] S512x1
  slices_S2x64x64_o0_56_0_S1x1x64 : S2x64x64.Slices ![0, 56, 0] S1x1x64
  slices_S2x64x64_o1_56_0_S1x1x64 : S2x64x64.Slices ![1, 56, 0] S1x1x64
  slices_S2x2x64x64_o0_0_56_0_S1x1x1x64 : S2x2x64x64.Slices ![0, 0, 56, 0] S1x1x1x64
  slices_S2x2x64x64_o0_1_56_0_S1x1x1x64 : S2x2x64x64.Slices ![0, 1, 56, 0] S1x1x1x64
  slices_S2x2x64x64_o1_0_56_0_S1x1x1x64 : S2x2x64x64.Slices ![1, 0, 56, 0] S1x1x1x64
  slices_S2x2x64x64_o1_1_56_0_S1x1x1x64 : S2x2x64x64.Slices ![1, 1, 56, 0] S1x1x1x64
  slices_S64x64_o56_0_S1x64 : S64x64.Slices ![56, 0] S1x64
  slices_S512x64_o0_57_S512x1 : S512x64.Slices ![0, 57] S512x1
  slices_S2x64x64_o0_57_0_S1x1x64 : S2x64x64.Slices ![0, 57, 0] S1x1x64
  slices_S2x64x64_o1_57_0_S1x1x64 : S2x64x64.Slices ![1, 57, 0] S1x1x64
  slices_S2x2x64x64_o0_0_57_0_S1x1x1x64 : S2x2x64x64.Slices ![0, 0, 57, 0] S1x1x1x64
  slices_S2x2x64x64_o0_1_57_0_S1x1x1x64 : S2x2x64x64.Slices ![0, 1, 57, 0] S1x1x1x64
  slices_S2x2x64x64_o1_0_57_0_S1x1x1x64 : S2x2x64x64.Slices ![1, 0, 57, 0] S1x1x1x64
  slices_S2x2x64x64_o1_1_57_0_S1x1x1x64 : S2x2x64x64.Slices ![1, 1, 57, 0] S1x1x1x64
  slices_S64x64_o57_0_S1x64 : S64x64.Slices ![57, 0] S1x64
  slices_S512x64_o0_58_S512x1 : S512x64.Slices ![0, 58] S512x1
  slices_S2x64x64_o0_58_0_S1x1x64 : S2x64x64.Slices ![0, 58, 0] S1x1x64
  slices_S2x64x64_o1_58_0_S1x1x64 : S2x64x64.Slices ![1, 58, 0] S1x1x64
  slices_S2x2x64x64_o0_0_58_0_S1x1x1x64 : S2x2x64x64.Slices ![0, 0, 58, 0] S1x1x1x64
  slices_S2x2x64x64_o0_1_58_0_S1x1x1x64 : S2x2x64x64.Slices ![0, 1, 58, 0] S1x1x1x64
  slices_S2x2x64x64_o1_0_58_0_S1x1x1x64 : S2x2x64x64.Slices ![1, 0, 58, 0] S1x1x1x64
  slices_S2x2x64x64_o1_1_58_0_S1x1x1x64 : S2x2x64x64.Slices ![1, 1, 58, 0] S1x1x1x64
  slices_S64x64_o58_0_S1x64 : S64x64.Slices ![58, 0] S1x64
  slices_S512x64_o0_59_S512x1 : S512x64.Slices ![0, 59] S512x1
  slices_S2x64x64_o0_59_0_S1x1x64 : S2x64x64.Slices ![0, 59, 0] S1x1x64
  slices_S2x64x64_o1_59_0_S1x1x64 : S2x64x64.Slices ![1, 59, 0] S1x1x64
  slices_S2x2x64x64_o0_0_59_0_S1x1x1x64 : S2x2x64x64.Slices ![0, 0, 59, 0] S1x1x1x64
  slices_S2x2x64x64_o0_1_59_0_S1x1x1x64 : S2x2x64x64.Slices ![0, 1, 59, 0] S1x1x1x64
  slices_S2x2x64x64_o1_0_59_0_S1x1x1x64 : S2x2x64x64.Slices ![1, 0, 59, 0] S1x1x1x64
  slices_S2x2x64x64_o1_1_59_0_S1x1x1x64 : S2x2x64x64.Slices ![1, 1, 59, 0] S1x1x1x64
  slices_S64x64_o59_0_S1x64 : S64x64.Slices ![59, 0] S1x64
  slices_S512x64_o0_60_S512x1 : S512x64.Slices ![0, 60] S512x1
  slices_S2x64x64_o0_60_0_S1x1x64 : S2x64x64.Slices ![0, 60, 0] S1x1x64
  slices_S2x64x64_o1_60_0_S1x1x64 : S2x64x64.Slices ![1, 60, 0] S1x1x64
  slices_S2x2x64x64_o0_0_60_0_S1x1x1x64 : S2x2x64x64.Slices ![0, 0, 60, 0] S1x1x1x64
  slices_S2x2x64x64_o0_1_60_0_S1x1x1x64 : S2x2x64x64.Slices ![0, 1, 60, 0] S1x1x1x64
  slices_S2x2x64x64_o1_0_60_0_S1x1x1x64 : S2x2x64x64.Slices ![1, 0, 60, 0] S1x1x1x64
  slices_S2x2x64x64_o1_1_60_0_S1x1x1x64 : S2x2x64x64.Slices ![1, 1, 60, 0] S1x1x1x64
  slices_S64x64_o60_0_S1x64 : S64x64.Slices ![60, 0] S1x64
  slices_S512x64_o0_61_S512x1 : S512x64.Slices ![0, 61] S512x1
  slices_S2x64x64_o0_61_0_S1x1x64 : S2x64x64.Slices ![0, 61, 0] S1x1x64
  slices_S2x64x64_o1_61_0_S1x1x64 : S2x64x64.Slices ![1, 61, 0] S1x1x64
  slices_S2x2x64x64_o0_0_61_0_S1x1x1x64 : S2x2x64x64.Slices ![0, 0, 61, 0] S1x1x1x64
  slices_S2x2x64x64_o0_1_61_0_S1x1x1x64 : S2x2x64x64.Slices ![0, 1, 61, 0] S1x1x1x64
  slices_S2x2x64x64_o1_0_61_0_S1x1x1x64 : S2x2x64x64.Slices ![1, 0, 61, 0] S1x1x1x64
  slices_S2x2x64x64_o1_1_61_0_S1x1x1x64 : S2x2x64x64.Slices ![1, 1, 61, 0] S1x1x1x64
  slices_S64x64_o61_0_S1x64 : S64x64.Slices ![61, 0] S1x64
  slices_S512x64_o0_62_S512x1 : S512x64.Slices ![0, 62] S512x1
  slices_S2x64x64_o0_62_0_S1x1x64 : S2x64x64.Slices ![0, 62, 0] S1x1x64
  slices_S2x64x64_o1_62_0_S1x1x64 : S2x64x64.Slices ![1, 62, 0] S1x1x64
  slices_S2x2x64x64_o0_0_62_0_S1x1x1x64 : S2x2x64x64.Slices ![0, 0, 62, 0] S1x1x1x64
  slices_S2x2x64x64_o0_1_62_0_S1x1x1x64 : S2x2x64x64.Slices ![0, 1, 62, 0] S1x1x1x64
  slices_S2x2x64x64_o1_0_62_0_S1x1x1x64 : S2x2x64x64.Slices ![1, 0, 62, 0] S1x1x1x64
  slices_S2x2x64x64_o1_1_62_0_S1x1x1x64 : S2x2x64x64.Slices ![1, 1, 62, 0] S1x1x1x64
  slices_S64x64_o62_0_S1x64 : S64x64.Slices ![62, 0] S1x64
  slices_S512x64_o0_63_S512x1 : S512x64.Slices ![0, 63] S512x1
  slices_S2x64x64_o0_63_0_S1x1x64 : S2x64x64.Slices ![0, 63, 0] S1x1x64
  slices_S2x64x64_o1_63_0_S1x1x64 : S2x64x64.Slices ![1, 63, 0] S1x1x64
  slices_S2x2x64x64_o0_0_63_0_S1x1x1x64 : S2x2x64x64.Slices ![0, 0, 63, 0] S1x1x1x64
  slices_S2x2x64x64_o0_1_63_0_S1x1x1x64 : S2x2x64x64.Slices ![0, 1, 63, 0] S1x1x1x64
  slices_S2x2x64x64_o1_0_63_0_S1x1x1x64 : S2x2x64x64.Slices ![1, 0, 63, 0] S1x1x1x64
  slices_S2x2x64x64_o1_1_63_0_S1x1x1x64 : S2x2x64x64.Slices ![1, 1, 63, 0] S1x1x1x64
  slices_S64x64_o63_0_S1x64 : S64x64.Slices ![63, 0] S1x64
  inb_S2x64x16_S2x64x16_0_0_0 : ∀ a, (![0, 0, 0] : Fin 3 → Nat) a + S2x64x16.size a ≤ S2x64x16.size a
  h_S2x64x16 : 0 < S2x64x16.numel
  shapeCasts_S2x64x16_S2x64x16 : S2x64x16.ShapeCasts S2x64x16
  inb_S2x2x64x16_S2x2x64x16_0_0_0_0 : ∀ a, (![0, 0, 0, 0] : Fin 4 → Nat) a + S2x2x64x16.size a ≤ S2x2x64x16.size a
  h_S2x2x64x16 : 0 < S2x2x64x16.numel
  shapeCasts_S2x2x64x16_S2x2x64x16 : S2x2x64x16.ShapeCasts S2x2x64x16
  inb_S64x16_S64x16_0_0 : ∀ a, (![0, 0] : Fin 2 → Nat) a + S64x16.size a ≤ S64x16.size a
  h_S64x16 : 0 < S64x16.numel
  shapeCasts_S64x16_S64x16 : S64x16.ShapeCasts S64x16
  slices_S2x64x16_o0_0_0_S1x1x16 : S2x64x16.Slices ![0, 0, 0] S1x1x16
  shapeCasts_S1x1x16_S16 : S1x1x16.ShapeCasts S16
  shapeCasts_S16_S1x16 : S16.ShapeCasts S1x16
  slices_S2x64x16_o1_0_0_S1x1x16 : S2x64x16.Slices ![1, 0, 0] S1x1x16
  broadcasts_S512x1_S512x16 : S512x1.Broadcasts S512x16
  broadcasts_S1x16_S512x16 : S1x16.Broadcasts S512x16
  slices_S2x2x64x16_o0_0_0_0_S1x1x1x16 : S2x2x64x16.Slices ![0, 0, 0, 0] S1x1x1x16
  shapeCasts_S1x1x1x16_S16 : S1x1x1x16.ShapeCasts S16
  slices_S2x2x64x16_o0_1_0_0_S1x1x1x16 : S2x2x64x16.Slices ![0, 1, 0, 0] S1x1x1x16
  slices_S2x2x64x16_o1_0_0_0_S1x1x1x16 : S2x2x64x16.Slices ![1, 0, 0, 0] S1x1x1x16
  slices_S2x2x64x16_o1_1_0_0_S1x1x1x16 : S2x2x64x16.Slices ![1, 1, 0, 0] S1x1x1x16
  slices_S64x16_o0_0_S1x16 : S64x16.Slices ![0, 0] S1x16
  shapeCasts_S1x16_S16 : S1x16.ShapeCasts S16
  slices_S2x64x16_o0_1_0_S1x1x16 : S2x64x16.Slices ![0, 1, 0] S1x1x16
  slices_S2x64x16_o1_1_0_S1x1x16 : S2x64x16.Slices ![1, 1, 0] S1x1x16
  slices_S2x2x64x16_o0_0_1_0_S1x1x1x16 : S2x2x64x16.Slices ![0, 0, 1, 0] S1x1x1x16
  slices_S2x2x64x16_o0_1_1_0_S1x1x1x16 : S2x2x64x16.Slices ![0, 1, 1, 0] S1x1x1x16
  slices_S2x2x64x16_o1_0_1_0_S1x1x1x16 : S2x2x64x16.Slices ![1, 0, 1, 0] S1x1x1x16
  slices_S2x2x64x16_o1_1_1_0_S1x1x1x16 : S2x2x64x16.Slices ![1, 1, 1, 0] S1x1x1x16
  slices_S64x16_o1_0_S1x16 : S64x16.Slices ![1, 0] S1x16
  slices_S2x64x16_o0_2_0_S1x1x16 : S2x64x16.Slices ![0, 2, 0] S1x1x16
  slices_S2x64x16_o1_2_0_S1x1x16 : S2x64x16.Slices ![1, 2, 0] S1x1x16
  slices_S2x2x64x16_o0_0_2_0_S1x1x1x16 : S2x2x64x16.Slices ![0, 0, 2, 0] S1x1x1x16
  slices_S2x2x64x16_o0_1_2_0_S1x1x1x16 : S2x2x64x16.Slices ![0, 1, 2, 0] S1x1x1x16
  slices_S2x2x64x16_o1_0_2_0_S1x1x1x16 : S2x2x64x16.Slices ![1, 0, 2, 0] S1x1x1x16
  slices_S2x2x64x16_o1_1_2_0_S1x1x1x16 : S2x2x64x16.Slices ![1, 1, 2, 0] S1x1x1x16
  slices_S64x16_o2_0_S1x16 : S64x16.Slices ![2, 0] S1x16
  slices_S2x64x16_o0_3_0_S1x1x16 : S2x64x16.Slices ![0, 3, 0] S1x1x16
  slices_S2x64x16_o1_3_0_S1x1x16 : S2x64x16.Slices ![1, 3, 0] S1x1x16
  slices_S2x2x64x16_o0_0_3_0_S1x1x1x16 : S2x2x64x16.Slices ![0, 0, 3, 0] S1x1x1x16
  slices_S2x2x64x16_o0_1_3_0_S1x1x1x16 : S2x2x64x16.Slices ![0, 1, 3, 0] S1x1x1x16
  slices_S2x2x64x16_o1_0_3_0_S1x1x1x16 : S2x2x64x16.Slices ![1, 0, 3, 0] S1x1x1x16
  slices_S2x2x64x16_o1_1_3_0_S1x1x1x16 : S2x2x64x16.Slices ![1, 1, 3, 0] S1x1x1x16
  slices_S64x16_o3_0_S1x16 : S64x16.Slices ![3, 0] S1x16
  slices_S2x64x16_o0_4_0_S1x1x16 : S2x64x16.Slices ![0, 4, 0] S1x1x16
  slices_S2x64x16_o1_4_0_S1x1x16 : S2x64x16.Slices ![1, 4, 0] S1x1x16
  slices_S2x2x64x16_o0_0_4_0_S1x1x1x16 : S2x2x64x16.Slices ![0, 0, 4, 0] S1x1x1x16
  slices_S2x2x64x16_o0_1_4_0_S1x1x1x16 : S2x2x64x16.Slices ![0, 1, 4, 0] S1x1x1x16
  slices_S2x2x64x16_o1_0_4_0_S1x1x1x16 : S2x2x64x16.Slices ![1, 0, 4, 0] S1x1x1x16
  slices_S2x2x64x16_o1_1_4_0_S1x1x1x16 : S2x2x64x16.Slices ![1, 1, 4, 0] S1x1x1x16
  slices_S64x16_o4_0_S1x16 : S64x16.Slices ![4, 0] S1x16
  slices_S2x64x16_o0_5_0_S1x1x16 : S2x64x16.Slices ![0, 5, 0] S1x1x16
  slices_S2x64x16_o1_5_0_S1x1x16 : S2x64x16.Slices ![1, 5, 0] S1x1x16
  slices_S2x2x64x16_o0_0_5_0_S1x1x1x16 : S2x2x64x16.Slices ![0, 0, 5, 0] S1x1x1x16
  slices_S2x2x64x16_o0_1_5_0_S1x1x1x16 : S2x2x64x16.Slices ![0, 1, 5, 0] S1x1x1x16
  slices_S2x2x64x16_o1_0_5_0_S1x1x1x16 : S2x2x64x16.Slices ![1, 0, 5, 0] S1x1x1x16
  slices_S2x2x64x16_o1_1_5_0_S1x1x1x16 : S2x2x64x16.Slices ![1, 1, 5, 0] S1x1x1x16
  slices_S64x16_o5_0_S1x16 : S64x16.Slices ![5, 0] S1x16
  slices_S2x64x16_o0_6_0_S1x1x16 : S2x64x16.Slices ![0, 6, 0] S1x1x16
  slices_S2x64x16_o1_6_0_S1x1x16 : S2x64x16.Slices ![1, 6, 0] S1x1x16
  slices_S2x2x64x16_o0_0_6_0_S1x1x1x16 : S2x2x64x16.Slices ![0, 0, 6, 0] S1x1x1x16
  slices_S2x2x64x16_o0_1_6_0_S1x1x1x16 : S2x2x64x16.Slices ![0, 1, 6, 0] S1x1x1x16
  slices_S2x2x64x16_o1_0_6_0_S1x1x1x16 : S2x2x64x16.Slices ![1, 0, 6, 0] S1x1x1x16
  slices_S2x2x64x16_o1_1_6_0_S1x1x1x16 : S2x2x64x16.Slices ![1, 1, 6, 0] S1x1x1x16
  slices_S64x16_o6_0_S1x16 : S64x16.Slices ![6, 0] S1x16
  slices_S2x64x16_o0_7_0_S1x1x16 : S2x64x16.Slices ![0, 7, 0] S1x1x16
  slices_S2x64x16_o1_7_0_S1x1x16 : S2x64x16.Slices ![1, 7, 0] S1x1x16
  slices_S2x2x64x16_o0_0_7_0_S1x1x1x16 : S2x2x64x16.Slices ![0, 0, 7, 0] S1x1x1x16
  slices_S2x2x64x16_o0_1_7_0_S1x1x1x16 : S2x2x64x16.Slices ![0, 1, 7, 0] S1x1x1x16
  slices_S2x2x64x16_o1_0_7_0_S1x1x1x16 : S2x2x64x16.Slices ![1, 0, 7, 0] S1x1x1x16
  slices_S2x2x64x16_o1_1_7_0_S1x1x1x16 : S2x2x64x16.Slices ![1, 1, 7, 0] S1x1x1x16
  slices_S64x16_o7_0_S1x16 : S64x16.Slices ![7, 0] S1x16
  slices_S2x64x16_o0_8_0_S1x1x16 : S2x64x16.Slices ![0, 8, 0] S1x1x16
  slices_S2x64x16_o1_8_0_S1x1x16 : S2x64x16.Slices ![1, 8, 0] S1x1x16
  slices_S2x2x64x16_o0_0_8_0_S1x1x1x16 : S2x2x64x16.Slices ![0, 0, 8, 0] S1x1x1x16
  slices_S2x2x64x16_o0_1_8_0_S1x1x1x16 : S2x2x64x16.Slices ![0, 1, 8, 0] S1x1x1x16
  slices_S2x2x64x16_o1_0_8_0_S1x1x1x16 : S2x2x64x16.Slices ![1, 0, 8, 0] S1x1x1x16
  slices_S2x2x64x16_o1_1_8_0_S1x1x1x16 : S2x2x64x16.Slices ![1, 1, 8, 0] S1x1x1x16
  slices_S64x16_o8_0_S1x16 : S64x16.Slices ![8, 0] S1x16
  slices_S2x64x16_o0_9_0_S1x1x16 : S2x64x16.Slices ![0, 9, 0] S1x1x16
  slices_S2x64x16_o1_9_0_S1x1x16 : S2x64x16.Slices ![1, 9, 0] S1x1x16
  slices_S2x2x64x16_o0_0_9_0_S1x1x1x16 : S2x2x64x16.Slices ![0, 0, 9, 0] S1x1x1x16
  slices_S2x2x64x16_o0_1_9_0_S1x1x1x16 : S2x2x64x16.Slices ![0, 1, 9, 0] S1x1x1x16
  slices_S2x2x64x16_o1_0_9_0_S1x1x1x16 : S2x2x64x16.Slices ![1, 0, 9, 0] S1x1x1x16
  slices_S2x2x64x16_o1_1_9_0_S1x1x1x16 : S2x2x64x16.Slices ![1, 1, 9, 0] S1x1x1x16
  slices_S64x16_o9_0_S1x16 : S64x16.Slices ![9, 0] S1x16
  slices_S2x64x16_o0_10_0_S1x1x16 : S2x64x16.Slices ![0, 10, 0] S1x1x16
  slices_S2x64x16_o1_10_0_S1x1x16 : S2x64x16.Slices ![1, 10, 0] S1x1x16
  slices_S2x2x64x16_o0_0_10_0_S1x1x1x16 : S2x2x64x16.Slices ![0, 0, 10, 0] S1x1x1x16
  slices_S2x2x64x16_o0_1_10_0_S1x1x1x16 : S2x2x64x16.Slices ![0, 1, 10, 0] S1x1x1x16
  slices_S2x2x64x16_o1_0_10_0_S1x1x1x16 : S2x2x64x16.Slices ![1, 0, 10, 0] S1x1x1x16
  slices_S2x2x64x16_o1_1_10_0_S1x1x1x16 : S2x2x64x16.Slices ![1, 1, 10, 0] S1x1x1x16
  slices_S64x16_o10_0_S1x16 : S64x16.Slices ![10, 0] S1x16
  slices_S2x64x16_o0_11_0_S1x1x16 : S2x64x16.Slices ![0, 11, 0] S1x1x16
  slices_S2x64x16_o1_11_0_S1x1x16 : S2x64x16.Slices ![1, 11, 0] S1x1x16
  slices_S2x2x64x16_o0_0_11_0_S1x1x1x16 : S2x2x64x16.Slices ![0, 0, 11, 0] S1x1x1x16
  slices_S2x2x64x16_o0_1_11_0_S1x1x1x16 : S2x2x64x16.Slices ![0, 1, 11, 0] S1x1x1x16
  slices_S2x2x64x16_o1_0_11_0_S1x1x1x16 : S2x2x64x16.Slices ![1, 0, 11, 0] S1x1x1x16
  slices_S2x2x64x16_o1_1_11_0_S1x1x1x16 : S2x2x64x16.Slices ![1, 1, 11, 0] S1x1x1x16
  slices_S64x16_o11_0_S1x16 : S64x16.Slices ![11, 0] S1x16
  slices_S2x64x16_o0_12_0_S1x1x16 : S2x64x16.Slices ![0, 12, 0] S1x1x16
  slices_S2x64x16_o1_12_0_S1x1x16 : S2x64x16.Slices ![1, 12, 0] S1x1x16
  slices_S2x2x64x16_o0_0_12_0_S1x1x1x16 : S2x2x64x16.Slices ![0, 0, 12, 0] S1x1x1x16
  slices_S2x2x64x16_o0_1_12_0_S1x1x1x16 : S2x2x64x16.Slices ![0, 1, 12, 0] S1x1x1x16
  slices_S2x2x64x16_o1_0_12_0_S1x1x1x16 : S2x2x64x16.Slices ![1, 0, 12, 0] S1x1x1x16
  slices_S2x2x64x16_o1_1_12_0_S1x1x1x16 : S2x2x64x16.Slices ![1, 1, 12, 0] S1x1x1x16
  slices_S64x16_o12_0_S1x16 : S64x16.Slices ![12, 0] S1x16
  slices_S2x64x16_o0_13_0_S1x1x16 : S2x64x16.Slices ![0, 13, 0] S1x1x16
  slices_S2x64x16_o1_13_0_S1x1x16 : S2x64x16.Slices ![1, 13, 0] S1x1x16
  slices_S2x2x64x16_o0_0_13_0_S1x1x1x16 : S2x2x64x16.Slices ![0, 0, 13, 0] S1x1x1x16
  slices_S2x2x64x16_o0_1_13_0_S1x1x1x16 : S2x2x64x16.Slices ![0, 1, 13, 0] S1x1x1x16
  slices_S2x2x64x16_o1_0_13_0_S1x1x1x16 : S2x2x64x16.Slices ![1, 0, 13, 0] S1x1x1x16
  slices_S2x2x64x16_o1_1_13_0_S1x1x1x16 : S2x2x64x16.Slices ![1, 1, 13, 0] S1x1x1x16
  slices_S64x16_o13_0_S1x16 : S64x16.Slices ![13, 0] S1x16
  slices_S2x64x16_o0_14_0_S1x1x16 : S2x64x16.Slices ![0, 14, 0] S1x1x16
  slices_S2x64x16_o1_14_0_S1x1x16 : S2x64x16.Slices ![1, 14, 0] S1x1x16
  slices_S2x2x64x16_o0_0_14_0_S1x1x1x16 : S2x2x64x16.Slices ![0, 0, 14, 0] S1x1x1x16
  slices_S2x2x64x16_o0_1_14_0_S1x1x1x16 : S2x2x64x16.Slices ![0, 1, 14, 0] S1x1x1x16
  slices_S2x2x64x16_o1_0_14_0_S1x1x1x16 : S2x2x64x16.Slices ![1, 0, 14, 0] S1x1x1x16
  slices_S2x2x64x16_o1_1_14_0_S1x1x1x16 : S2x2x64x16.Slices ![1, 1, 14, 0] S1x1x1x16
  slices_S64x16_o14_0_S1x16 : S64x16.Slices ![14, 0] S1x16
  slices_S2x64x16_o0_15_0_S1x1x16 : S2x64x16.Slices ![0, 15, 0] S1x1x16
  slices_S2x64x16_o1_15_0_S1x1x16 : S2x64x16.Slices ![1, 15, 0] S1x1x16
  slices_S2x2x64x16_o0_0_15_0_S1x1x1x16 : S2x2x64x16.Slices ![0, 0, 15, 0] S1x1x1x16
  slices_S2x2x64x16_o0_1_15_0_S1x1x1x16 : S2x2x64x16.Slices ![0, 1, 15, 0] S1x1x1x16
  slices_S2x2x64x16_o1_0_15_0_S1x1x1x16 : S2x2x64x16.Slices ![1, 0, 15, 0] S1x1x1x16
  slices_S2x2x64x16_o1_1_15_0_S1x1x1x16 : S2x2x64x16.Slices ![1, 1, 15, 0] S1x1x1x16
  slices_S64x16_o15_0_S1x16 : S64x16.Slices ![15, 0] S1x16
  slices_S2x64x16_o0_16_0_S1x1x16 : S2x64x16.Slices ![0, 16, 0] S1x1x16
  slices_S2x64x16_o1_16_0_S1x1x16 : S2x64x16.Slices ![1, 16, 0] S1x1x16
  slices_S2x2x64x16_o0_0_16_0_S1x1x1x16 : S2x2x64x16.Slices ![0, 0, 16, 0] S1x1x1x16
  slices_S2x2x64x16_o0_1_16_0_S1x1x1x16 : S2x2x64x16.Slices ![0, 1, 16, 0] S1x1x1x16
  slices_S2x2x64x16_o1_0_16_0_S1x1x1x16 : S2x2x64x16.Slices ![1, 0, 16, 0] S1x1x1x16
  slices_S2x2x64x16_o1_1_16_0_S1x1x1x16 : S2x2x64x16.Slices ![1, 1, 16, 0] S1x1x1x16
  slices_S64x16_o16_0_S1x16 : S64x16.Slices ![16, 0] S1x16
  slices_S2x64x16_o0_17_0_S1x1x16 : S2x64x16.Slices ![0, 17, 0] S1x1x16
  slices_S2x64x16_o1_17_0_S1x1x16 : S2x64x16.Slices ![1, 17, 0] S1x1x16
  slices_S2x2x64x16_o0_0_17_0_S1x1x1x16 : S2x2x64x16.Slices ![0, 0, 17, 0] S1x1x1x16
  slices_S2x2x64x16_o0_1_17_0_S1x1x1x16 : S2x2x64x16.Slices ![0, 1, 17, 0] S1x1x1x16
  slices_S2x2x64x16_o1_0_17_0_S1x1x1x16 : S2x2x64x16.Slices ![1, 0, 17, 0] S1x1x1x16
  slices_S2x2x64x16_o1_1_17_0_S1x1x1x16 : S2x2x64x16.Slices ![1, 1, 17, 0] S1x1x1x16
  slices_S64x16_o17_0_S1x16 : S64x16.Slices ![17, 0] S1x16
  slices_S2x64x16_o0_18_0_S1x1x16 : S2x64x16.Slices ![0, 18, 0] S1x1x16
  slices_S2x64x16_o1_18_0_S1x1x16 : S2x64x16.Slices ![1, 18, 0] S1x1x16
  slices_S2x2x64x16_o0_0_18_0_S1x1x1x16 : S2x2x64x16.Slices ![0, 0, 18, 0] S1x1x1x16
  slices_S2x2x64x16_o0_1_18_0_S1x1x1x16 : S2x2x64x16.Slices ![0, 1, 18, 0] S1x1x1x16
  slices_S2x2x64x16_o1_0_18_0_S1x1x1x16 : S2x2x64x16.Slices ![1, 0, 18, 0] S1x1x1x16
  slices_S2x2x64x16_o1_1_18_0_S1x1x1x16 : S2x2x64x16.Slices ![1, 1, 18, 0] S1x1x1x16
  slices_S64x16_o18_0_S1x16 : S64x16.Slices ![18, 0] S1x16
  slices_S2x64x16_o0_19_0_S1x1x16 : S2x64x16.Slices ![0, 19, 0] S1x1x16
  slices_S2x64x16_o1_19_0_S1x1x16 : S2x64x16.Slices ![1, 19, 0] S1x1x16
  slices_S2x2x64x16_o0_0_19_0_S1x1x1x16 : S2x2x64x16.Slices ![0, 0, 19, 0] S1x1x1x16
  slices_S2x2x64x16_o0_1_19_0_S1x1x1x16 : S2x2x64x16.Slices ![0, 1, 19, 0] S1x1x1x16
  slices_S2x2x64x16_o1_0_19_0_S1x1x1x16 : S2x2x64x16.Slices ![1, 0, 19, 0] S1x1x1x16
  slices_S2x2x64x16_o1_1_19_0_S1x1x1x16 : S2x2x64x16.Slices ![1, 1, 19, 0] S1x1x1x16
  slices_S64x16_o19_0_S1x16 : S64x16.Slices ![19, 0] S1x16
  slices_S2x64x16_o0_20_0_S1x1x16 : S2x64x16.Slices ![0, 20, 0] S1x1x16
  slices_S2x64x16_o1_20_0_S1x1x16 : S2x64x16.Slices ![1, 20, 0] S1x1x16
  slices_S2x2x64x16_o0_0_20_0_S1x1x1x16 : S2x2x64x16.Slices ![0, 0, 20, 0] S1x1x1x16
  slices_S2x2x64x16_o0_1_20_0_S1x1x1x16 : S2x2x64x16.Slices ![0, 1, 20, 0] S1x1x1x16
  slices_S2x2x64x16_o1_0_20_0_S1x1x1x16 : S2x2x64x16.Slices ![1, 0, 20, 0] S1x1x1x16
  slices_S2x2x64x16_o1_1_20_0_S1x1x1x16 : S2x2x64x16.Slices ![1, 1, 20, 0] S1x1x1x16
  slices_S64x16_o20_0_S1x16 : S64x16.Slices ![20, 0] S1x16
  slices_S2x64x16_o0_21_0_S1x1x16 : S2x64x16.Slices ![0, 21, 0] S1x1x16
  slices_S2x64x16_o1_21_0_S1x1x16 : S2x64x16.Slices ![1, 21, 0] S1x1x16
  slices_S2x2x64x16_o0_0_21_0_S1x1x1x16 : S2x2x64x16.Slices ![0, 0, 21, 0] S1x1x1x16
  slices_S2x2x64x16_o0_1_21_0_S1x1x1x16 : S2x2x64x16.Slices ![0, 1, 21, 0] S1x1x1x16
  slices_S2x2x64x16_o1_0_21_0_S1x1x1x16 : S2x2x64x16.Slices ![1, 0, 21, 0] S1x1x1x16
  slices_S2x2x64x16_o1_1_21_0_S1x1x1x16 : S2x2x64x16.Slices ![1, 1, 21, 0] S1x1x1x16
  slices_S64x16_o21_0_S1x16 : S64x16.Slices ![21, 0] S1x16
  slices_S2x64x16_o0_22_0_S1x1x16 : S2x64x16.Slices ![0, 22, 0] S1x1x16
  slices_S2x64x16_o1_22_0_S1x1x16 : S2x64x16.Slices ![1, 22, 0] S1x1x16
  slices_S2x2x64x16_o0_0_22_0_S1x1x1x16 : S2x2x64x16.Slices ![0, 0, 22, 0] S1x1x1x16
  slices_S2x2x64x16_o0_1_22_0_S1x1x1x16 : S2x2x64x16.Slices ![0, 1, 22, 0] S1x1x1x16
  slices_S2x2x64x16_o1_0_22_0_S1x1x1x16 : S2x2x64x16.Slices ![1, 0, 22, 0] S1x1x1x16
  slices_S2x2x64x16_o1_1_22_0_S1x1x1x16 : S2x2x64x16.Slices ![1, 1, 22, 0] S1x1x1x16
  slices_S64x16_o22_0_S1x16 : S64x16.Slices ![22, 0] S1x16
  slices_S2x64x16_o0_23_0_S1x1x16 : S2x64x16.Slices ![0, 23, 0] S1x1x16
  slices_S2x64x16_o1_23_0_S1x1x16 : S2x64x16.Slices ![1, 23, 0] S1x1x16
  slices_S2x2x64x16_o0_0_23_0_S1x1x1x16 : S2x2x64x16.Slices ![0, 0, 23, 0] S1x1x1x16
  slices_S2x2x64x16_o0_1_23_0_S1x1x1x16 : S2x2x64x16.Slices ![0, 1, 23, 0] S1x1x1x16
  slices_S2x2x64x16_o1_0_23_0_S1x1x1x16 : S2x2x64x16.Slices ![1, 0, 23, 0] S1x1x1x16
  slices_S2x2x64x16_o1_1_23_0_S1x1x1x16 : S2x2x64x16.Slices ![1, 1, 23, 0] S1x1x1x16
  slices_S64x16_o23_0_S1x16 : S64x16.Slices ![23, 0] S1x16
  slices_S2x64x16_o0_24_0_S1x1x16 : S2x64x16.Slices ![0, 24, 0] S1x1x16
  slices_S2x64x16_o1_24_0_S1x1x16 : S2x64x16.Slices ![1, 24, 0] S1x1x16
  slices_S2x2x64x16_o0_0_24_0_S1x1x1x16 : S2x2x64x16.Slices ![0, 0, 24, 0] S1x1x1x16
  slices_S2x2x64x16_o0_1_24_0_S1x1x1x16 : S2x2x64x16.Slices ![0, 1, 24, 0] S1x1x1x16
  slices_S2x2x64x16_o1_0_24_0_S1x1x1x16 : S2x2x64x16.Slices ![1, 0, 24, 0] S1x1x1x16
  slices_S2x2x64x16_o1_1_24_0_S1x1x1x16 : S2x2x64x16.Slices ![1, 1, 24, 0] S1x1x1x16
  slices_S64x16_o24_0_S1x16 : S64x16.Slices ![24, 0] S1x16
  slices_S2x64x16_o0_25_0_S1x1x16 : S2x64x16.Slices ![0, 25, 0] S1x1x16
  slices_S2x64x16_o1_25_0_S1x1x16 : S2x64x16.Slices ![1, 25, 0] S1x1x16
  slices_S2x2x64x16_o0_0_25_0_S1x1x1x16 : S2x2x64x16.Slices ![0, 0, 25, 0] S1x1x1x16
  slices_S2x2x64x16_o0_1_25_0_S1x1x1x16 : S2x2x64x16.Slices ![0, 1, 25, 0] S1x1x1x16
  slices_S2x2x64x16_o1_0_25_0_S1x1x1x16 : S2x2x64x16.Slices ![1, 0, 25, 0] S1x1x1x16
  slices_S2x2x64x16_o1_1_25_0_S1x1x1x16 : S2x2x64x16.Slices ![1, 1, 25, 0] S1x1x1x16
  slices_S64x16_o25_0_S1x16 : S64x16.Slices ![25, 0] S1x16
  slices_S2x64x16_o0_26_0_S1x1x16 : S2x64x16.Slices ![0, 26, 0] S1x1x16
  slices_S2x64x16_o1_26_0_S1x1x16 : S2x64x16.Slices ![1, 26, 0] S1x1x16
  slices_S2x2x64x16_o0_0_26_0_S1x1x1x16 : S2x2x64x16.Slices ![0, 0, 26, 0] S1x1x1x16
  slices_S2x2x64x16_o0_1_26_0_S1x1x1x16 : S2x2x64x16.Slices ![0, 1, 26, 0] S1x1x1x16
  slices_S2x2x64x16_o1_0_26_0_S1x1x1x16 : S2x2x64x16.Slices ![1, 0, 26, 0] S1x1x1x16
  slices_S2x2x64x16_o1_1_26_0_S1x1x1x16 : S2x2x64x16.Slices ![1, 1, 26, 0] S1x1x1x16
  slices_S64x16_o26_0_S1x16 : S64x16.Slices ![26, 0] S1x16
  slices_S2x64x16_o0_27_0_S1x1x16 : S2x64x16.Slices ![0, 27, 0] S1x1x16
  slices_S2x64x16_o1_27_0_S1x1x16 : S2x64x16.Slices ![1, 27, 0] S1x1x16
  slices_S2x2x64x16_o0_0_27_0_S1x1x1x16 : S2x2x64x16.Slices ![0, 0, 27, 0] S1x1x1x16
  slices_S2x2x64x16_o0_1_27_0_S1x1x1x16 : S2x2x64x16.Slices ![0, 1, 27, 0] S1x1x1x16
  slices_S2x2x64x16_o1_0_27_0_S1x1x1x16 : S2x2x64x16.Slices ![1, 0, 27, 0] S1x1x1x16
  slices_S2x2x64x16_o1_1_27_0_S1x1x1x16 : S2x2x64x16.Slices ![1, 1, 27, 0] S1x1x1x16
  slices_S64x16_o27_0_S1x16 : S64x16.Slices ![27, 0] S1x16
  slices_S2x64x16_o0_28_0_S1x1x16 : S2x64x16.Slices ![0, 28, 0] S1x1x16
  slices_S2x64x16_o1_28_0_S1x1x16 : S2x64x16.Slices ![1, 28, 0] S1x1x16
  slices_S2x2x64x16_o0_0_28_0_S1x1x1x16 : S2x2x64x16.Slices ![0, 0, 28, 0] S1x1x1x16
  slices_S2x2x64x16_o0_1_28_0_S1x1x1x16 : S2x2x64x16.Slices ![0, 1, 28, 0] S1x1x1x16
  slices_S2x2x64x16_o1_0_28_0_S1x1x1x16 : S2x2x64x16.Slices ![1, 0, 28, 0] S1x1x1x16
  slices_S2x2x64x16_o1_1_28_0_S1x1x1x16 : S2x2x64x16.Slices ![1, 1, 28, 0] S1x1x1x16
  slices_S64x16_o28_0_S1x16 : S64x16.Slices ![28, 0] S1x16
  slices_S2x64x16_o0_29_0_S1x1x16 : S2x64x16.Slices ![0, 29, 0] S1x1x16
  slices_S2x64x16_o1_29_0_S1x1x16 : S2x64x16.Slices ![1, 29, 0] S1x1x16
  slices_S2x2x64x16_o0_0_29_0_S1x1x1x16 : S2x2x64x16.Slices ![0, 0, 29, 0] S1x1x1x16
  slices_S2x2x64x16_o0_1_29_0_S1x1x1x16 : S2x2x64x16.Slices ![0, 1, 29, 0] S1x1x1x16
  slices_S2x2x64x16_o1_0_29_0_S1x1x1x16 : S2x2x64x16.Slices ![1, 0, 29, 0] S1x1x1x16
  slices_S2x2x64x16_o1_1_29_0_S1x1x1x16 : S2x2x64x16.Slices ![1, 1, 29, 0] S1x1x1x16
  slices_S64x16_o29_0_S1x16 : S64x16.Slices ![29, 0] S1x16
  slices_S2x64x16_o0_30_0_S1x1x16 : S2x64x16.Slices ![0, 30, 0] S1x1x16
  slices_S2x64x16_o1_30_0_S1x1x16 : S2x64x16.Slices ![1, 30, 0] S1x1x16
  slices_S2x2x64x16_o0_0_30_0_S1x1x1x16 : S2x2x64x16.Slices ![0, 0, 30, 0] S1x1x1x16
  slices_S2x2x64x16_o0_1_30_0_S1x1x1x16 : S2x2x64x16.Slices ![0, 1, 30, 0] S1x1x1x16
  slices_S2x2x64x16_o1_0_30_0_S1x1x1x16 : S2x2x64x16.Slices ![1, 0, 30, 0] S1x1x1x16
  slices_S2x2x64x16_o1_1_30_0_S1x1x1x16 : S2x2x64x16.Slices ![1, 1, 30, 0] S1x1x1x16
  slices_S64x16_o30_0_S1x16 : S64x16.Slices ![30, 0] S1x16
  slices_S2x64x16_o0_31_0_S1x1x16 : S2x64x16.Slices ![0, 31, 0] S1x1x16
  slices_S2x64x16_o1_31_0_S1x1x16 : S2x64x16.Slices ![1, 31, 0] S1x1x16
  slices_S2x2x64x16_o0_0_31_0_S1x1x1x16 : S2x2x64x16.Slices ![0, 0, 31, 0] S1x1x1x16
  slices_S2x2x64x16_o0_1_31_0_S1x1x1x16 : S2x2x64x16.Slices ![0, 1, 31, 0] S1x1x1x16
  slices_S2x2x64x16_o1_0_31_0_S1x1x1x16 : S2x2x64x16.Slices ![1, 0, 31, 0] S1x1x1x16
  slices_S2x2x64x16_o1_1_31_0_S1x1x1x16 : S2x2x64x16.Slices ![1, 1, 31, 0] S1x1x1x16
  slices_S64x16_o31_0_S1x16 : S64x16.Slices ![31, 0] S1x16
  slices_S2x64x16_o0_32_0_S1x1x16 : S2x64x16.Slices ![0, 32, 0] S1x1x16
  slices_S2x64x16_o1_32_0_S1x1x16 : S2x64x16.Slices ![1, 32, 0] S1x1x16
  slices_S2x2x64x16_o0_0_32_0_S1x1x1x16 : S2x2x64x16.Slices ![0, 0, 32, 0] S1x1x1x16
  slices_S2x2x64x16_o0_1_32_0_S1x1x1x16 : S2x2x64x16.Slices ![0, 1, 32, 0] S1x1x1x16
  slices_S2x2x64x16_o1_0_32_0_S1x1x1x16 : S2x2x64x16.Slices ![1, 0, 32, 0] S1x1x1x16
  slices_S2x2x64x16_o1_1_32_0_S1x1x1x16 : S2x2x64x16.Slices ![1, 1, 32, 0] S1x1x1x16
  slices_S64x16_o32_0_S1x16 : S64x16.Slices ![32, 0] S1x16
  slices_S2x64x16_o0_33_0_S1x1x16 : S2x64x16.Slices ![0, 33, 0] S1x1x16
  slices_S2x64x16_o1_33_0_S1x1x16 : S2x64x16.Slices ![1, 33, 0] S1x1x16
  slices_S2x2x64x16_o0_0_33_0_S1x1x1x16 : S2x2x64x16.Slices ![0, 0, 33, 0] S1x1x1x16
  slices_S2x2x64x16_o0_1_33_0_S1x1x1x16 : S2x2x64x16.Slices ![0, 1, 33, 0] S1x1x1x16
  slices_S2x2x64x16_o1_0_33_0_S1x1x1x16 : S2x2x64x16.Slices ![1, 0, 33, 0] S1x1x1x16
  slices_S2x2x64x16_o1_1_33_0_S1x1x1x16 : S2x2x64x16.Slices ![1, 1, 33, 0] S1x1x1x16
  slices_S64x16_o33_0_S1x16 : S64x16.Slices ![33, 0] S1x16
  slices_S2x64x16_o0_34_0_S1x1x16 : S2x64x16.Slices ![0, 34, 0] S1x1x16
  slices_S2x64x16_o1_34_0_S1x1x16 : S2x64x16.Slices ![1, 34, 0] S1x1x16
  slices_S2x2x64x16_o0_0_34_0_S1x1x1x16 : S2x2x64x16.Slices ![0, 0, 34, 0] S1x1x1x16
  slices_S2x2x64x16_o0_1_34_0_S1x1x1x16 : S2x2x64x16.Slices ![0, 1, 34, 0] S1x1x1x16
  slices_S2x2x64x16_o1_0_34_0_S1x1x1x16 : S2x2x64x16.Slices ![1, 0, 34, 0] S1x1x1x16
  slices_S2x2x64x16_o1_1_34_0_S1x1x1x16 : S2x2x64x16.Slices ![1, 1, 34, 0] S1x1x1x16
  slices_S64x16_o34_0_S1x16 : S64x16.Slices ![34, 0] S1x16
  slices_S2x64x16_o0_35_0_S1x1x16 : S2x64x16.Slices ![0, 35, 0] S1x1x16
  slices_S2x64x16_o1_35_0_S1x1x16 : S2x64x16.Slices ![1, 35, 0] S1x1x16
  slices_S2x2x64x16_o0_0_35_0_S1x1x1x16 : S2x2x64x16.Slices ![0, 0, 35, 0] S1x1x1x16
  slices_S2x2x64x16_o0_1_35_0_S1x1x1x16 : S2x2x64x16.Slices ![0, 1, 35, 0] S1x1x1x16
  slices_S2x2x64x16_o1_0_35_0_S1x1x1x16 : S2x2x64x16.Slices ![1, 0, 35, 0] S1x1x1x16
  slices_S2x2x64x16_o1_1_35_0_S1x1x1x16 : S2x2x64x16.Slices ![1, 1, 35, 0] S1x1x1x16
  slices_S64x16_o35_0_S1x16 : S64x16.Slices ![35, 0] S1x16
  slices_S2x64x16_o0_36_0_S1x1x16 : S2x64x16.Slices ![0, 36, 0] S1x1x16
  slices_S2x64x16_o1_36_0_S1x1x16 : S2x64x16.Slices ![1, 36, 0] S1x1x16
  slices_S2x2x64x16_o0_0_36_0_S1x1x1x16 : S2x2x64x16.Slices ![0, 0, 36, 0] S1x1x1x16
  slices_S2x2x64x16_o0_1_36_0_S1x1x1x16 : S2x2x64x16.Slices ![0, 1, 36, 0] S1x1x1x16
  slices_S2x2x64x16_o1_0_36_0_S1x1x1x16 : S2x2x64x16.Slices ![1, 0, 36, 0] S1x1x1x16
  slices_S2x2x64x16_o1_1_36_0_S1x1x1x16 : S2x2x64x16.Slices ![1, 1, 36, 0] S1x1x1x16
  slices_S64x16_o36_0_S1x16 : S64x16.Slices ![36, 0] S1x16
  slices_S2x64x16_o0_37_0_S1x1x16 : S2x64x16.Slices ![0, 37, 0] S1x1x16
  slices_S2x64x16_o1_37_0_S1x1x16 : S2x64x16.Slices ![1, 37, 0] S1x1x16
  slices_S2x2x64x16_o0_0_37_0_S1x1x1x16 : S2x2x64x16.Slices ![0, 0, 37, 0] S1x1x1x16
  slices_S2x2x64x16_o0_1_37_0_S1x1x1x16 : S2x2x64x16.Slices ![0, 1, 37, 0] S1x1x1x16
  slices_S2x2x64x16_o1_0_37_0_S1x1x1x16 : S2x2x64x16.Slices ![1, 0, 37, 0] S1x1x1x16
  slices_S2x2x64x16_o1_1_37_0_S1x1x1x16 : S2x2x64x16.Slices ![1, 1, 37, 0] S1x1x1x16
  slices_S64x16_o37_0_S1x16 : S64x16.Slices ![37, 0] S1x16
  slices_S2x64x16_o0_38_0_S1x1x16 : S2x64x16.Slices ![0, 38, 0] S1x1x16
  slices_S2x64x16_o1_38_0_S1x1x16 : S2x64x16.Slices ![1, 38, 0] S1x1x16
  slices_S2x2x64x16_o0_0_38_0_S1x1x1x16 : S2x2x64x16.Slices ![0, 0, 38, 0] S1x1x1x16
  slices_S2x2x64x16_o0_1_38_0_S1x1x1x16 : S2x2x64x16.Slices ![0, 1, 38, 0] S1x1x1x16
  slices_S2x2x64x16_o1_0_38_0_S1x1x1x16 : S2x2x64x16.Slices ![1, 0, 38, 0] S1x1x1x16
  slices_S2x2x64x16_o1_1_38_0_S1x1x1x16 : S2x2x64x16.Slices ![1, 1, 38, 0] S1x1x1x16
  slices_S64x16_o38_0_S1x16 : S64x16.Slices ![38, 0] S1x16
  slices_S2x64x16_o0_39_0_S1x1x16 : S2x64x16.Slices ![0, 39, 0] S1x1x16
  slices_S2x64x16_o1_39_0_S1x1x16 : S2x64x16.Slices ![1, 39, 0] S1x1x16
  slices_S2x2x64x16_o0_0_39_0_S1x1x1x16 : S2x2x64x16.Slices ![0, 0, 39, 0] S1x1x1x16
  slices_S2x2x64x16_o0_1_39_0_S1x1x1x16 : S2x2x64x16.Slices ![0, 1, 39, 0] S1x1x1x16
  slices_S2x2x64x16_o1_0_39_0_S1x1x1x16 : S2x2x64x16.Slices ![1, 0, 39, 0] S1x1x1x16
  slices_S2x2x64x16_o1_1_39_0_S1x1x1x16 : S2x2x64x16.Slices ![1, 1, 39, 0] S1x1x1x16
  slices_S64x16_o39_0_S1x16 : S64x16.Slices ![39, 0] S1x16
  slices_S2x64x16_o0_40_0_S1x1x16 : S2x64x16.Slices ![0, 40, 0] S1x1x16
  slices_S2x64x16_o1_40_0_S1x1x16 : S2x64x16.Slices ![1, 40, 0] S1x1x16
  slices_S2x2x64x16_o0_0_40_0_S1x1x1x16 : S2x2x64x16.Slices ![0, 0, 40, 0] S1x1x1x16
  slices_S2x2x64x16_o0_1_40_0_S1x1x1x16 : S2x2x64x16.Slices ![0, 1, 40, 0] S1x1x1x16
  slices_S2x2x64x16_o1_0_40_0_S1x1x1x16 : S2x2x64x16.Slices ![1, 0, 40, 0] S1x1x1x16
  slices_S2x2x64x16_o1_1_40_0_S1x1x1x16 : S2x2x64x16.Slices ![1, 1, 40, 0] S1x1x1x16
  slices_S64x16_o40_0_S1x16 : S64x16.Slices ![40, 0] S1x16
  slices_S2x64x16_o0_41_0_S1x1x16 : S2x64x16.Slices ![0, 41, 0] S1x1x16
  slices_S2x64x16_o1_41_0_S1x1x16 : S2x64x16.Slices ![1, 41, 0] S1x1x16
  slices_S2x2x64x16_o0_0_41_0_S1x1x1x16 : S2x2x64x16.Slices ![0, 0, 41, 0] S1x1x1x16
  slices_S2x2x64x16_o0_1_41_0_S1x1x1x16 : S2x2x64x16.Slices ![0, 1, 41, 0] S1x1x1x16
  slices_S2x2x64x16_o1_0_41_0_S1x1x1x16 : S2x2x64x16.Slices ![1, 0, 41, 0] S1x1x1x16
  slices_S2x2x64x16_o1_1_41_0_S1x1x1x16 : S2x2x64x16.Slices ![1, 1, 41, 0] S1x1x1x16
  slices_S64x16_o41_0_S1x16 : S64x16.Slices ![41, 0] S1x16
  slices_S2x64x16_o0_42_0_S1x1x16 : S2x64x16.Slices ![0, 42, 0] S1x1x16
  slices_S2x64x16_o1_42_0_S1x1x16 : S2x64x16.Slices ![1, 42, 0] S1x1x16
  slices_S2x2x64x16_o0_0_42_0_S1x1x1x16 : S2x2x64x16.Slices ![0, 0, 42, 0] S1x1x1x16
  slices_S2x2x64x16_o0_1_42_0_S1x1x1x16 : S2x2x64x16.Slices ![0, 1, 42, 0] S1x1x1x16
  slices_S2x2x64x16_o1_0_42_0_S1x1x1x16 : S2x2x64x16.Slices ![1, 0, 42, 0] S1x1x1x16
  slices_S2x2x64x16_o1_1_42_0_S1x1x1x16 : S2x2x64x16.Slices ![1, 1, 42, 0] S1x1x1x16
  slices_S64x16_o42_0_S1x16 : S64x16.Slices ![42, 0] S1x16
  slices_S2x64x16_o0_43_0_S1x1x16 : S2x64x16.Slices ![0, 43, 0] S1x1x16
  slices_S2x64x16_o1_43_0_S1x1x16 : S2x64x16.Slices ![1, 43, 0] S1x1x16
  slices_S2x2x64x16_o0_0_43_0_S1x1x1x16 : S2x2x64x16.Slices ![0, 0, 43, 0] S1x1x1x16
  slices_S2x2x64x16_o0_1_43_0_S1x1x1x16 : S2x2x64x16.Slices ![0, 1, 43, 0] S1x1x1x16
  slices_S2x2x64x16_o1_0_43_0_S1x1x1x16 : S2x2x64x16.Slices ![1, 0, 43, 0] S1x1x1x16
  slices_S2x2x64x16_o1_1_43_0_S1x1x1x16 : S2x2x64x16.Slices ![1, 1, 43, 0] S1x1x1x16
  slices_S64x16_o43_0_S1x16 : S64x16.Slices ![43, 0] S1x16
  slices_S2x64x16_o0_44_0_S1x1x16 : S2x64x16.Slices ![0, 44, 0] S1x1x16
  slices_S2x64x16_o1_44_0_S1x1x16 : S2x64x16.Slices ![1, 44, 0] S1x1x16
  slices_S2x2x64x16_o0_0_44_0_S1x1x1x16 : S2x2x64x16.Slices ![0, 0, 44, 0] S1x1x1x16
  slices_S2x2x64x16_o0_1_44_0_S1x1x1x16 : S2x2x64x16.Slices ![0, 1, 44, 0] S1x1x1x16
  slices_S2x2x64x16_o1_0_44_0_S1x1x1x16 : S2x2x64x16.Slices ![1, 0, 44, 0] S1x1x1x16
  slices_S2x2x64x16_o1_1_44_0_S1x1x1x16 : S2x2x64x16.Slices ![1, 1, 44, 0] S1x1x1x16
  slices_S64x16_o44_0_S1x16 : S64x16.Slices ![44, 0] S1x16
  slices_S2x64x16_o0_45_0_S1x1x16 : S2x64x16.Slices ![0, 45, 0] S1x1x16
  slices_S2x64x16_o1_45_0_S1x1x16 : S2x64x16.Slices ![1, 45, 0] S1x1x16
  slices_S2x2x64x16_o0_0_45_0_S1x1x1x16 : S2x2x64x16.Slices ![0, 0, 45, 0] S1x1x1x16
  slices_S2x2x64x16_o0_1_45_0_S1x1x1x16 : S2x2x64x16.Slices ![0, 1, 45, 0] S1x1x1x16
  slices_S2x2x64x16_o1_0_45_0_S1x1x1x16 : S2x2x64x16.Slices ![1, 0, 45, 0] S1x1x1x16
  slices_S2x2x64x16_o1_1_45_0_S1x1x1x16 : S2x2x64x16.Slices ![1, 1, 45, 0] S1x1x1x16
  slices_S64x16_o45_0_S1x16 : S64x16.Slices ![45, 0] S1x16
  slices_S2x64x16_o0_46_0_S1x1x16 : S2x64x16.Slices ![0, 46, 0] S1x1x16
  slices_S2x64x16_o1_46_0_S1x1x16 : S2x64x16.Slices ![1, 46, 0] S1x1x16
  slices_S2x2x64x16_o0_0_46_0_S1x1x1x16 : S2x2x64x16.Slices ![0, 0, 46, 0] S1x1x1x16
  slices_S2x2x64x16_o0_1_46_0_S1x1x1x16 : S2x2x64x16.Slices ![0, 1, 46, 0] S1x1x1x16
  slices_S2x2x64x16_o1_0_46_0_S1x1x1x16 : S2x2x64x16.Slices ![1, 0, 46, 0] S1x1x1x16
  slices_S2x2x64x16_o1_1_46_0_S1x1x1x16 : S2x2x64x16.Slices ![1, 1, 46, 0] S1x1x1x16
  slices_S64x16_o46_0_S1x16 : S64x16.Slices ![46, 0] S1x16
  slices_S2x64x16_o0_47_0_S1x1x16 : S2x64x16.Slices ![0, 47, 0] S1x1x16
  slices_S2x64x16_o1_47_0_S1x1x16 : S2x64x16.Slices ![1, 47, 0] S1x1x16
  slices_S2x2x64x16_o0_0_47_0_S1x1x1x16 : S2x2x64x16.Slices ![0, 0, 47, 0] S1x1x1x16
  slices_S2x2x64x16_o0_1_47_0_S1x1x1x16 : S2x2x64x16.Slices ![0, 1, 47, 0] S1x1x1x16
  slices_S2x2x64x16_o1_0_47_0_S1x1x1x16 : S2x2x64x16.Slices ![1, 0, 47, 0] S1x1x1x16
  slices_S2x2x64x16_o1_1_47_0_S1x1x1x16 : S2x2x64x16.Slices ![1, 1, 47, 0] S1x1x1x16
  slices_S64x16_o47_0_S1x16 : S64x16.Slices ![47, 0] S1x16
  slices_S2x64x16_o0_48_0_S1x1x16 : S2x64x16.Slices ![0, 48, 0] S1x1x16
  slices_S2x64x16_o1_48_0_S1x1x16 : S2x64x16.Slices ![1, 48, 0] S1x1x16
  slices_S2x2x64x16_o0_0_48_0_S1x1x1x16 : S2x2x64x16.Slices ![0, 0, 48, 0] S1x1x1x16
  slices_S2x2x64x16_o0_1_48_0_S1x1x1x16 : S2x2x64x16.Slices ![0, 1, 48, 0] S1x1x1x16
  slices_S2x2x64x16_o1_0_48_0_S1x1x1x16 : S2x2x64x16.Slices ![1, 0, 48, 0] S1x1x1x16
  slices_S2x2x64x16_o1_1_48_0_S1x1x1x16 : S2x2x64x16.Slices ![1, 1, 48, 0] S1x1x1x16
  slices_S64x16_o48_0_S1x16 : S64x16.Slices ![48, 0] S1x16
  slices_S2x64x16_o0_49_0_S1x1x16 : S2x64x16.Slices ![0, 49, 0] S1x1x16
  slices_S2x64x16_o1_49_0_S1x1x16 : S2x64x16.Slices ![1, 49, 0] S1x1x16
  slices_S2x2x64x16_o0_0_49_0_S1x1x1x16 : S2x2x64x16.Slices ![0, 0, 49, 0] S1x1x1x16
  slices_S2x2x64x16_o0_1_49_0_S1x1x1x16 : S2x2x64x16.Slices ![0, 1, 49, 0] S1x1x1x16
  slices_S2x2x64x16_o1_0_49_0_S1x1x1x16 : S2x2x64x16.Slices ![1, 0, 49, 0] S1x1x1x16
  slices_S2x2x64x16_o1_1_49_0_S1x1x1x16 : S2x2x64x16.Slices ![1, 1, 49, 0] S1x1x1x16
  slices_S64x16_o49_0_S1x16 : S64x16.Slices ![49, 0] S1x16
  slices_S2x64x16_o0_50_0_S1x1x16 : S2x64x16.Slices ![0, 50, 0] S1x1x16
  slices_S2x64x16_o1_50_0_S1x1x16 : S2x64x16.Slices ![1, 50, 0] S1x1x16
  slices_S2x2x64x16_o0_0_50_0_S1x1x1x16 : S2x2x64x16.Slices ![0, 0, 50, 0] S1x1x1x16
  slices_S2x2x64x16_o0_1_50_0_S1x1x1x16 : S2x2x64x16.Slices ![0, 1, 50, 0] S1x1x1x16
  slices_S2x2x64x16_o1_0_50_0_S1x1x1x16 : S2x2x64x16.Slices ![1, 0, 50, 0] S1x1x1x16
  slices_S2x2x64x16_o1_1_50_0_S1x1x1x16 : S2x2x64x16.Slices ![1, 1, 50, 0] S1x1x1x16
  slices_S64x16_o50_0_S1x16 : S64x16.Slices ![50, 0] S1x16
  slices_S2x64x16_o0_51_0_S1x1x16 : S2x64x16.Slices ![0, 51, 0] S1x1x16
  slices_S2x64x16_o1_51_0_S1x1x16 : S2x64x16.Slices ![1, 51, 0] S1x1x16
  slices_S2x2x64x16_o0_0_51_0_S1x1x1x16 : S2x2x64x16.Slices ![0, 0, 51, 0] S1x1x1x16
  slices_S2x2x64x16_o0_1_51_0_S1x1x1x16 : S2x2x64x16.Slices ![0, 1, 51, 0] S1x1x1x16
  slices_S2x2x64x16_o1_0_51_0_S1x1x1x16 : S2x2x64x16.Slices ![1, 0, 51, 0] S1x1x1x16
  slices_S2x2x64x16_o1_1_51_0_S1x1x1x16 : S2x2x64x16.Slices ![1, 1, 51, 0] S1x1x1x16
  slices_S64x16_o51_0_S1x16 : S64x16.Slices ![51, 0] S1x16
  slices_S2x64x16_o0_52_0_S1x1x16 : S2x64x16.Slices ![0, 52, 0] S1x1x16
  slices_S2x64x16_o1_52_0_S1x1x16 : S2x64x16.Slices ![1, 52, 0] S1x1x16
  slices_S2x2x64x16_o0_0_52_0_S1x1x1x16 : S2x2x64x16.Slices ![0, 0, 52, 0] S1x1x1x16
  slices_S2x2x64x16_o0_1_52_0_S1x1x1x16 : S2x2x64x16.Slices ![0, 1, 52, 0] S1x1x1x16
  slices_S2x2x64x16_o1_0_52_0_S1x1x1x16 : S2x2x64x16.Slices ![1, 0, 52, 0] S1x1x1x16
  slices_S2x2x64x16_o1_1_52_0_S1x1x1x16 : S2x2x64x16.Slices ![1, 1, 52, 0] S1x1x1x16
  slices_S64x16_o52_0_S1x16 : S64x16.Slices ![52, 0] S1x16
  slices_S2x64x16_o0_53_0_S1x1x16 : S2x64x16.Slices ![0, 53, 0] S1x1x16
  slices_S2x64x16_o1_53_0_S1x1x16 : S2x64x16.Slices ![1, 53, 0] S1x1x16
  slices_S2x2x64x16_o0_0_53_0_S1x1x1x16 : S2x2x64x16.Slices ![0, 0, 53, 0] S1x1x1x16
  slices_S2x2x64x16_o0_1_53_0_S1x1x1x16 : S2x2x64x16.Slices ![0, 1, 53, 0] S1x1x1x16
  slices_S2x2x64x16_o1_0_53_0_S1x1x1x16 : S2x2x64x16.Slices ![1, 0, 53, 0] S1x1x1x16
  slices_S2x2x64x16_o1_1_53_0_S1x1x1x16 : S2x2x64x16.Slices ![1, 1, 53, 0] S1x1x1x16
  slices_S64x16_o53_0_S1x16 : S64x16.Slices ![53, 0] S1x16
  slices_S2x64x16_o0_54_0_S1x1x16 : S2x64x16.Slices ![0, 54, 0] S1x1x16
  slices_S2x64x16_o1_54_0_S1x1x16 : S2x64x16.Slices ![1, 54, 0] S1x1x16
  slices_S2x2x64x16_o0_0_54_0_S1x1x1x16 : S2x2x64x16.Slices ![0, 0, 54, 0] S1x1x1x16
  slices_S2x2x64x16_o0_1_54_0_S1x1x1x16 : S2x2x64x16.Slices ![0, 1, 54, 0] S1x1x1x16
  slices_S2x2x64x16_o1_0_54_0_S1x1x1x16 : S2x2x64x16.Slices ![1, 0, 54, 0] S1x1x1x16
  slices_S2x2x64x16_o1_1_54_0_S1x1x1x16 : S2x2x64x16.Slices ![1, 1, 54, 0] S1x1x1x16
  slices_S64x16_o54_0_S1x16 : S64x16.Slices ![54, 0] S1x16
  slices_S2x64x16_o0_55_0_S1x1x16 : S2x64x16.Slices ![0, 55, 0] S1x1x16
  slices_S2x64x16_o1_55_0_S1x1x16 : S2x64x16.Slices ![1, 55, 0] S1x1x16
  slices_S2x2x64x16_o0_0_55_0_S1x1x1x16 : S2x2x64x16.Slices ![0, 0, 55, 0] S1x1x1x16
  slices_S2x2x64x16_o0_1_55_0_S1x1x1x16 : S2x2x64x16.Slices ![0, 1, 55, 0] S1x1x1x16
  slices_S2x2x64x16_o1_0_55_0_S1x1x1x16 : S2x2x64x16.Slices ![1, 0, 55, 0] S1x1x1x16
  slices_S2x2x64x16_o1_1_55_0_S1x1x1x16 : S2x2x64x16.Slices ![1, 1, 55, 0] S1x1x1x16
  slices_S64x16_o55_0_S1x16 : S64x16.Slices ![55, 0] S1x16
  slices_S2x64x16_o0_56_0_S1x1x16 : S2x64x16.Slices ![0, 56, 0] S1x1x16
  slices_S2x64x16_o1_56_0_S1x1x16 : S2x64x16.Slices ![1, 56, 0] S1x1x16
  slices_S2x2x64x16_o0_0_56_0_S1x1x1x16 : S2x2x64x16.Slices ![0, 0, 56, 0] S1x1x1x16
  slices_S2x2x64x16_o0_1_56_0_S1x1x1x16 : S2x2x64x16.Slices ![0, 1, 56, 0] S1x1x1x16
  slices_S2x2x64x16_o1_0_56_0_S1x1x1x16 : S2x2x64x16.Slices ![1, 0, 56, 0] S1x1x1x16
  slices_S2x2x64x16_o1_1_56_0_S1x1x1x16 : S2x2x64x16.Slices ![1, 1, 56, 0] S1x1x1x16
  slices_S64x16_o56_0_S1x16 : S64x16.Slices ![56, 0] S1x16
  slices_S2x64x16_o0_57_0_S1x1x16 : S2x64x16.Slices ![0, 57, 0] S1x1x16
  slices_S2x64x16_o1_57_0_S1x1x16 : S2x64x16.Slices ![1, 57, 0] S1x1x16
  slices_S2x2x64x16_o0_0_57_0_S1x1x1x16 : S2x2x64x16.Slices ![0, 0, 57, 0] S1x1x1x16
  slices_S2x2x64x16_o0_1_57_0_S1x1x1x16 : S2x2x64x16.Slices ![0, 1, 57, 0] S1x1x1x16
  slices_S2x2x64x16_o1_0_57_0_S1x1x1x16 : S2x2x64x16.Slices ![1, 0, 57, 0] S1x1x1x16
  slices_S2x2x64x16_o1_1_57_0_S1x1x1x16 : S2x2x64x16.Slices ![1, 1, 57, 0] S1x1x1x16
  slices_S64x16_o57_0_S1x16 : S64x16.Slices ![57, 0] S1x16
  slices_S2x64x16_o0_58_0_S1x1x16 : S2x64x16.Slices ![0, 58, 0] S1x1x16
  slices_S2x64x16_o1_58_0_S1x1x16 : S2x64x16.Slices ![1, 58, 0] S1x1x16
  slices_S2x2x64x16_o0_0_58_0_S1x1x1x16 : S2x2x64x16.Slices ![0, 0, 58, 0] S1x1x1x16
  slices_S2x2x64x16_o0_1_58_0_S1x1x1x16 : S2x2x64x16.Slices ![0, 1, 58, 0] S1x1x1x16
  slices_S2x2x64x16_o1_0_58_0_S1x1x1x16 : S2x2x64x16.Slices ![1, 0, 58, 0] S1x1x1x16
  slices_S2x2x64x16_o1_1_58_0_S1x1x1x16 : S2x2x64x16.Slices ![1, 1, 58, 0] S1x1x1x16
  slices_S64x16_o58_0_S1x16 : S64x16.Slices ![58, 0] S1x16
  slices_S2x64x16_o0_59_0_S1x1x16 : S2x64x16.Slices ![0, 59, 0] S1x1x16
  slices_S2x64x16_o1_59_0_S1x1x16 : S2x64x16.Slices ![1, 59, 0] S1x1x16
  slices_S2x2x64x16_o0_0_59_0_S1x1x1x16 : S2x2x64x16.Slices ![0, 0, 59, 0] S1x1x1x16
  slices_S2x2x64x16_o0_1_59_0_S1x1x1x16 : S2x2x64x16.Slices ![0, 1, 59, 0] S1x1x1x16
  slices_S2x2x64x16_o1_0_59_0_S1x1x1x16 : S2x2x64x16.Slices ![1, 0, 59, 0] S1x1x1x16
  slices_S2x2x64x16_o1_1_59_0_S1x1x1x16 : S2x2x64x16.Slices ![1, 1, 59, 0] S1x1x1x16
  slices_S64x16_o59_0_S1x16 : S64x16.Slices ![59, 0] S1x16
  slices_S2x64x16_o0_60_0_S1x1x16 : S2x64x16.Slices ![0, 60, 0] S1x1x16
  slices_S2x64x16_o1_60_0_S1x1x16 : S2x64x16.Slices ![1, 60, 0] S1x1x16
  slices_S2x2x64x16_o0_0_60_0_S1x1x1x16 : S2x2x64x16.Slices ![0, 0, 60, 0] S1x1x1x16
  slices_S2x2x64x16_o0_1_60_0_S1x1x1x16 : S2x2x64x16.Slices ![0, 1, 60, 0] S1x1x1x16
  slices_S2x2x64x16_o1_0_60_0_S1x1x1x16 : S2x2x64x16.Slices ![1, 0, 60, 0] S1x1x1x16
  slices_S2x2x64x16_o1_1_60_0_S1x1x1x16 : S2x2x64x16.Slices ![1, 1, 60, 0] S1x1x1x16
  slices_S64x16_o60_0_S1x16 : S64x16.Slices ![60, 0] S1x16
  slices_S2x64x16_o0_61_0_S1x1x16 : S2x64x16.Slices ![0, 61, 0] S1x1x16
  slices_S2x64x16_o1_61_0_S1x1x16 : S2x64x16.Slices ![1, 61, 0] S1x1x16
  slices_S2x2x64x16_o0_0_61_0_S1x1x1x16 : S2x2x64x16.Slices ![0, 0, 61, 0] S1x1x1x16
  slices_S2x2x64x16_o0_1_61_0_S1x1x1x16 : S2x2x64x16.Slices ![0, 1, 61, 0] S1x1x1x16
  slices_S2x2x64x16_o1_0_61_0_S1x1x1x16 : S2x2x64x16.Slices ![1, 0, 61, 0] S1x1x1x16
  slices_S2x2x64x16_o1_1_61_0_S1x1x1x16 : S2x2x64x16.Slices ![1, 1, 61, 0] S1x1x1x16
  slices_S64x16_o61_0_S1x16 : S64x16.Slices ![61, 0] S1x16
  slices_S2x64x16_o0_62_0_S1x1x16 : S2x64x16.Slices ![0, 62, 0] S1x1x16
  slices_S2x64x16_o1_62_0_S1x1x16 : S2x64x16.Slices ![1, 62, 0] S1x1x16
  slices_S2x2x64x16_o0_0_62_0_S1x1x1x16 : S2x2x64x16.Slices ![0, 0, 62, 0] S1x1x1x16
  slices_S2x2x64x16_o0_1_62_0_S1x1x1x16 : S2x2x64x16.Slices ![0, 1, 62, 0] S1x1x1x16
  slices_S2x2x64x16_o1_0_62_0_S1x1x1x16 : S2x2x64x16.Slices ![1, 0, 62, 0] S1x1x1x16
  slices_S2x2x64x16_o1_1_62_0_S1x1x1x16 : S2x2x64x16.Slices ![1, 1, 62, 0] S1x1x1x16

class Shapes2.Facts₀ : Prop where
  slices_S64x16_o62_0_S1x16 : S64x16.Slices ![62, 0] S1x16
  slices_S2x64x16_o0_63_0_S1x1x16 : S2x64x16.Slices ![0, 63, 0] S1x1x16
  slices_S2x64x16_o1_63_0_S1x1x16 : S2x64x16.Slices ![1, 63, 0] S1x1x16
  slices_S2x2x64x16_o0_0_63_0_S1x1x1x16 : S2x2x64x16.Slices ![0, 0, 63, 0] S1x1x1x16
  slices_S2x2x64x16_o0_1_63_0_S1x1x1x16 : S2x2x64x16.Slices ![0, 1, 63, 0] S1x1x1x16
  slices_S2x2x64x16_o1_0_63_0_S1x1x1x16 : S2x2x64x16.Slices ![1, 0, 63, 0] S1x1x1x16
  slices_S2x2x64x16_o1_1_63_0_S1x1x1x16 : S2x2x64x16.Slices ![1, 1, 63, 0] S1x1x1x16
  slices_S64x16_o63_0_S1x16 : S64x16.Slices ![63, 0] S1x16
  inb_S512x16_S512x16_0_0 : ∀ a, (![0, 0] : Fin 2 → Nat) a + S512x16.size a ≤ S512x16.size a
  h_S512x16 : 0 < S512x16.numel

class Facts₀ : Prop where
  k0 : K0.Facts₀
  shapes1 : Shapes1.Facts₀
  shapes2 : Shapes2.Facts₀
attribute [instance] Facts₀.k0 Facts₀.shapes1 Facts₀.shapes2

variable [Facts₀]

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2x2x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S2x64x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S2x64x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S2x2x64x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S2x64x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S2x64x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S64x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v28) S512x16.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x64 : Shape := ⟨2, ![16384, 64]⟩
abbrev S4096x2x1 : Shape := ⟨3, ![4096, 2, 1]⟩
abbrev S4096x2 : Shape := ⟨2, ![4096, 2]⟩
abbrev S4096x2x2 : Shape := ⟨3, ![4096, 2, 2]⟩
abbrev S4096x1x2 : Shape := ⟨3, ![4096, 1, 2]⟩
abbrev S4096x1 : Shape := ⟨2, ![4096, 1]⟩
abbrev S1024x2x1 : Shape := ⟨3, ![1024, 2, 1]⟩
abbrev S1024x2 : Shape := ⟨2, ![1024, 2]⟩
abbrev S1024x2x2 : Shape := ⟨3, ![1024, 2, 2]⟩
abbrev S1024x1x2 : Shape := ⟨3, ![1024, 1, 2]⟩
abbrev S1024x1 : Shape := ⟨2, ![1024, 1]⟩
abbrev S64x16384 : Shape := ⟨2, ![64, 16384]⟩
abbrev S64x64x16384 : Shape := ⟨3, ![64, 64, 16384]⟩
abbrev S4096x16384 : Shape := ⟨2, ![4096, 16384]⟩
abbrev S4096x16384x1 : Shape := ⟨3, ![4096, 16384, 1]⟩
abbrev S4096x16384x2 : Shape := ⟨3, ![4096, 16384, 2]⟩
abbrev S_ : Shape := ⟨0, ![]⟩
abbrev S4096x1x1 : Shape := ⟨3, ![4096, 1, 1]⟩
abbrev S64x16x16384 : Shape := ⟨3, ![64, 16, 16384]⟩
abbrev S1024x16384 : Shape := ⟨2, ![1024, 16384]⟩
abbrev S1024x16384x1 : Shape := ⟨3, ![1024, 16384, 1]⟩
abbrev S1024x16384x2 : Shape := ⟨3, ![1024, 16384, 2]⟩
abbrev S1024x1x1 : Shape := ⟨3, ![1024, 1, 1]⟩
abbrev S16x16384 : Shape := ⟨2, ![16, 16384]⟩
abbrev S16384x16 : Shape := ⟨2, ![16384, 16]⟩

abbrev nBuf : Space → Nat
  | .hbm => 67
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S4096x2x1, .f32⟩
  | .hbm, ⟨2, _⟩ => ⟨S4096x2, .f32⟩
  | .hbm, ⟨3, _⟩ => ⟨S4096x2x2, .f32⟩
  | .hbm, ⟨4, _⟩ => ⟨S4096x2, .f32⟩
  | .hbm, ⟨5, _⟩ => ⟨S4096x1x2, .f32⟩
  | .hbm, ⟨6, _⟩ => ⟨S4096x1, .f32⟩
  | .hbm, ⟨7, _⟩ => ⟨S1024x2x1, .f32⟩
  | .hbm, ⟨8, _⟩ => ⟨S1024x2, .f32⟩
  | .hbm, ⟨9, _⟩ => ⟨S1024x2x2, .f32⟩
  | .hbm, ⟨10, _⟩ => ⟨S1024x2, .f32⟩
  | .hbm, ⟨11, _⟩ => ⟨S1024x1x2, .f32⟩
  | .hbm, ⟨12, _⟩ => ⟨S1024x1, .f32⟩
  | .hbm, ⟨13, _⟩ => ⟨S64x16384, .f32⟩
  | .hbm, ⟨14, _⟩ => ⟨S64x64x16384, .f32⟩
  | .hbm, ⟨15, _⟩ => ⟨S4096x16384, .f32⟩
  | .hbm, ⟨16, _⟩ => ⟨S4096x16384x1, .f32⟩
  | .hbm, ⟨17, _⟩ => ⟨S4096x16384x2, .f32⟩
  | .hbm, ⟨18, _⟩ => ⟨S4096x1x2, .f32⟩
  | .hbm, ⟨19, _⟩ => ⟨S4096x16384x2, .f32⟩
  | .hbm, ⟨20, _⟩ => ⟨S4096x16384x2, .f32⟩
  | .hbm, ⟨21, _⟩ => ⟨S_, .f32⟩
  | .hbm, ⟨22, _⟩ => ⟨S4096x16384x2, .f32⟩
  | .hbm, ⟨23, _⟩ => ⟨S4096x16384x2, .f32⟩
  | .hbm, ⟨24, _⟩ => ⟨S4096x16384x2, .f32⟩
  | .hbm, ⟨25, _⟩ => ⟨S4096x1x2, .f32⟩
  | .hbm, ⟨26, _⟩ => ⟨S4096x16384x2, .f32⟩
  | .hbm, ⟨27, _⟩ => ⟨S4096x16384x2, .f32⟩
  | .hbm, ⟨28, _⟩ => ⟨S_, .f32⟩
  | .hbm, ⟨29, _⟩ => ⟨S4096x16384x2, .f32⟩
  | .hbm, ⟨30, _⟩ => ⟨S4096x16384x2, .f32⟩
  | .hbm, ⟨31, _⟩ => ⟨S4096x16384x1, .f32⟩
  | .hbm, ⟨32, _⟩ => ⟨S4096x1x1, .f32⟩
  | .hbm, ⟨33, _⟩ => ⟨S4096x16384x1, .f32⟩
  | .hbm, ⟨34, _⟩ => ⟨S4096x16384x1, .f32⟩
  | .hbm, ⟨35, _⟩ => ⟨S4096x16384, .f32⟩
  | .hbm, ⟨36, _⟩ => ⟨S64x64x16384, .f32⟩
  | .hbm, ⟨37, _⟩ => ⟨S_, .f32⟩
  | .hbm, ⟨38, _⟩ => ⟨S64x16384, .f32⟩
  | .hbm, ⟨39, _⟩ => ⟨S16384x64, .f32⟩
  | .hbm, ⟨40, _⟩ => ⟨S64x16384, .f32⟩
  | .hbm, ⟨41, _⟩ => ⟨S64x16x16384, .f32⟩
  | .hbm, ⟨42, _⟩ => ⟨S1024x16384, .f32⟩
  | .hbm, ⟨43, _⟩ => ⟨S1024x16384x1, .f32⟩
  | .hbm, ⟨44, _⟩ => ⟨S1024x16384x2, .f32⟩
  | .hbm, ⟨45, _⟩ => ⟨S1024x1x2, .f32⟩
  | .hbm, ⟨46, _⟩ => ⟨S1024x16384x2, .f32⟩
  | .hbm, ⟨47, _⟩ => ⟨S1024x16384x2, .f32⟩
  | .hbm, ⟨48, _⟩ => ⟨S_, .f32⟩
  | .hbm, ⟨49, _⟩ => ⟨S1024x16384x2, .f32⟩
  | .hbm, ⟨50, _⟩ => ⟨S1024x16384x2, .f32⟩
  | .hbm, ⟨51, _⟩ => ⟨S1024x16384x2, .f32⟩
  | .hbm, ⟨52, _⟩ => ⟨S1024x1x2, .f32⟩
  | .hbm, ⟨53, _⟩ => ⟨S1024x16384x2, .f32⟩
  | .hbm, ⟨54, _⟩ => ⟨S1024x16384x2, .f32⟩
  | .hbm, ⟨55, _⟩ => ⟨S_, .f32⟩
  | .hbm, ⟨56, _⟩ => ⟨S1024x16384x2, .f32⟩
  | .hbm, ⟨57, _⟩ => ⟨S1024x16384x2, .f32⟩
  | .hbm, ⟨58, _⟩ => ⟨S1024x16384x1, .f32⟩
  | .hbm, ⟨59, _⟩ => ⟨S1024x1x1, .f32⟩
  | .hbm, ⟨60, _⟩ => ⟨S1024x16384x1, .f32⟩
  | .hbm, ⟨61, _⟩ => ⟨S1024x16384x1, .f32⟩
  | .hbm, ⟨62, _⟩ => ⟨S1024x16384, .f32⟩
  | .hbm, ⟨63, _⟩ => ⟨S64x16x16384, .f32⟩
  | .hbm, ⟨64, _⟩ => ⟨S_, .f32⟩
  | .hbm, ⟨65, _⟩ => ⟨S16x16384, .f32⟩
  | .hbm, ⟨66, _⟩ => ⟨S16384x16, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call0_cst : Ref sig .tc := ⟨.hbm, 21, rfl⟩
abbrev main_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_cst : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call3_cst : Ref sig .tc := ⟨.hbm, 55, rfl⟩
abbrev main_call3_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_0 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  transposes_S16384x64_S64x16384_1_0 : S16384x64.Transposes [1, 0] S64x16384
  bcast_S64x16384_S64x64x16384_0_2 : S64x16384.BroadcastsInDim S64x64x16384 (![0, 2] : Fin 2 → Fin S64x64x16384.rank)
  shapeCasts_S64x64x16384_S4096x16384 : S64x64x16384.ShapeCasts S4096x16384
  bcast_S4096x16384_S4096x16384x1_0_1 : S4096x16384.BroadcastsInDim S4096x16384x1 (![0, 1] : Fin 2 → Fin S4096x16384x1.rank)
  bcast_S4096x2_S4096x1x2_0_2 : S4096x2.BroadcastsInDim S4096x1x2 (![0, 2] : Fin 2 → Fin S4096x1x2.rank)
  bcast_S4096x1x2_S4096x16384x2_0_1_2 : S4096x1x2.BroadcastsInDim S4096x16384x2 (![0, 1, 2] : Fin 3 → Fin S4096x16384x2.rank)
  bcast_S_S4096x16384x2 : S_.BroadcastsInDim S4096x16384x2 (![] : Fin 0 → Fin S4096x16384x2.rank)
  bcast_S4096x1_S4096x1x1_0_2 : S4096x1.BroadcastsInDim S4096x1x1 (![0, 2] : Fin 2 → Fin S4096x1x1.rank)
  bcast_S4096x1x1_S4096x16384x1_0_1_2 : S4096x1x1.BroadcastsInDim S4096x16384x1 (![0, 1, 2] : Fin 3 → Fin S4096x16384x1.rank)
  shapeCasts_S4096x16384x1_S4096x16384 : S4096x16384x1.ShapeCasts S4096x16384
  shapeCasts_S4096x16384_S64x64x16384 : S4096x16384.ShapeCasts S64x64x16384
  reducesTo_S64x64x16384_S64x16384_d0 : S64x64x16384.ReducesTo [0] S64x16384
  h_S_ : 0 < S_.numel
  transposes_S64x16384_S16384x64_1_0 : S64x16384.Transposes [1, 0] S16384x64
  bcast_S64x16384_S64x16x16384_0_2 : S64x16384.BroadcastsInDim S64x16x16384 (![0, 2] : Fin 2 → Fin S64x16x16384.rank)
  shapeCasts_S64x16x16384_S1024x16384 : S64x16x16384.ShapeCasts S1024x16384
  bcast_S1024x16384_S1024x16384x1_0_1 : S1024x16384.BroadcastsInDim S1024x16384x1 (![0, 1] : Fin 2 → Fin S1024x16384x1.rank)
  bcast_S1024x2_S1024x1x2_0_2 : S1024x2.BroadcastsInDim S1024x1x2 (![0, 2] : Fin 2 → Fin S1024x1x2.rank)
  bcast_S1024x1x2_S1024x16384x2_0_1_2 : S1024x1x2.BroadcastsInDim S1024x16384x2 (![0, 1, 2] : Fin 3 → Fin S1024x16384x2.rank)
  bcast_S_S1024x16384x2 : S_.BroadcastsInDim S1024x16384x2 (![] : Fin 0 → Fin S1024x16384x2.rank)
  bcast_S1024x1_S1024x1x1_0_2 : S1024x1.BroadcastsInDim S1024x1x1 (![0, 2] : Fin 2 → Fin S1024x1x1.rank)
  bcast_S1024x1x1_S1024x16384x1_0_1_2 : S1024x1x1.BroadcastsInDim S1024x16384x1 (![0, 1, 2] : Fin 3 → Fin S1024x16384x1.rank)
  shapeCasts_S1024x16384x1_S1024x16384 : S1024x16384x1.ShapeCasts S1024x16384
  shapeCasts_S1024x16384_S64x16x16384 : S1024x16384.ShapeCasts S64x16x16384
  reducesTo_S64x16x16384_S16x16384_d0 : S64x16x16384.ReducesTo [0] S16x16384
  transposes_S16x16384_S16384x16_1_0 : S16x16384.Transposes [1, 0] S16384x16
  dot_S4096x16384x1_S4096x2x1_S4096x16384x2_2_2_1_1_0_0_wf : DotDims.WF S4096x16384x1 S4096x2x1 S4096x16384x2 [2] [2] [1] [1] [0] [0]
  dot_S4096x16384x2_S4096x2x2_S4096x16384x2_2_2_1_1_0_0_wf : DotDims.WF S4096x16384x2 S4096x2x2 S4096x16384x2 [2] [2] [1] [1] [0] [0]
  dot_S4096x16384x2_S4096x1x2_S4096x16384x1_2_2_1_1_0_0_wf : DotDims.WF S4096x16384x2 S4096x1x2 S4096x16384x1 [2] [2] [1] [1] [0] [0]
  dot_S1024x16384x1_S1024x2x1_S1024x16384x2_2_2_1_1_0_0_wf : DotDims.WF S1024x16384x1 S1024x2x1 S1024x16384x2 [2] [2] [1] [1] [0] [0]
  dot_S1024x16384x2_S1024x2x2_S1024x16384x2_2_2_1_1_0_0_wf : DotDims.WF S1024x16384x2 S1024x2x2 S1024x16384x2 [2] [2] [1] [1] [0] [0]
  dot_S1024x16384x2_S1024x1x2_S1024x16384x1_2_2_1_1_0_0_wf : DotDims.WF S1024x16384x2 S1024x1x2 S1024x16384x1 [2] [2] [1] [1] [0] [0]

variable [Facts₀]

def dot_S4096x16384x1_S4096x2x1_S4096x16384x2_2_2_1_1_0_0 : DotDims S4096x16384x1 S4096x2x1 S4096x16384x2 where
  lhsContracting := [2]
  rhsContracting := [2]
  lhsNonContracting := [1]
  rhsNonContracting := [1]
  lhsBatch := [0]
  rhsBatch := [0]
  wf := dot_S4096x16384x1_S4096x2x1_S4096x16384x2_2_2_1_1_0_0_wf
def dot_S4096x16384x2_S4096x2x2_S4096x16384x2_2_2_1_1_0_0 : DotDims S4096x16384x2 S4096x2x2 S4096x16384x2 where
  lhsContracting := [2]
  rhsContracting := [2]
  lhsNonContracting := [1]
  rhsNonContracting := [1]
  lhsBatch := [0]
  rhsBatch := [0]
  wf := dot_S4096x16384x2_S4096x2x2_S4096x16384x2_2_2_1_1_0_0_wf
def dot_S4096x16384x2_S4096x1x2_S4096x16384x1_2_2_1_1_0_0 : DotDims S4096x16384x2 S4096x1x2 S4096x16384x1 where
  lhsContracting := [2]
  rhsContracting := [2]
  lhsNonContracting := [1]
  rhsNonContracting := [1]
  lhsBatch := [0]
  rhsBatch := [0]
  wf := dot_S4096x16384x2_S4096x1x2_S4096x16384x1_2_2_1_1_0_0_wf
def dot_S1024x16384x1_S1024x2x1_S1024x16384x2_2_2_1_1_0_0 : DotDims S1024x16384x1 S1024x2x1 S1024x16384x2 where
  lhsContracting := [2]
  rhsContracting := [2]
  lhsNonContracting := [1]
  rhsNonContracting := [1]
  lhsBatch := [0]
  rhsBatch := [0]
  wf := dot_S1024x16384x1_S1024x2x1_S1024x16384x2_2_2_1_1_0_0_wf
def dot_S1024x16384x2_S1024x2x2_S1024x16384x2_2_2_1_1_0_0 : DotDims S1024x16384x2 S1024x2x2 S1024x16384x2 where
  lhsContracting := [2]
  rhsContracting := [2]
  lhsNonContracting := [1]
  rhsNonContracting := [1]
  lhsBatch := [0]
  rhsBatch := [0]
  wf := dot_S1024x16384x2_S1024x2x2_S1024x16384x2_2_2_1_1_0_0_wf
def dot_S1024x16384x2_S1024x1x2_S1024x16384x1_2_2_1_1_0_0 : DotDims S1024x16384x2 S1024x1x2 S1024x16384x1 where
  lhsContracting := [2]
  rhsContracting := [2]
  lhsNonContracting := [1]
  rhsNonContracting := [1]
  lhsBatch := [0]
  rhsBatch := [0]
  wf := dot_S1024x16384x2_S1024x1x2_S1024x16384x1_2_2_1_1_0_0_wf

class Facts : Prop extends Facts₀ where

variable [Facts]
-- ==== Proof.Spec.lean ====
/-
  The function both programs compute: two "KAN" layers. A layer with 64 inputs and n outputs owns one tiny
  two-layer ReLU network per edge (i, o), stored at row i * n + o of its six parameter arrays:
    mlp_e(t) = relu(relu(t·W1[e,0,0] + b1[e,0])·W2[e,0,0] + relu(t·W1[e,1,0] + b1[e,1])·W2[e,0,1] + b2[e,0])·W3[e,0,0]
             + relu(relu(t·W1[e,0,0] + b1[e,0])·W2[e,1,0] + relu(t·W1[e,1,0] + b1[e,1])·W2[e,1,1] + b2[e,1])·W3[e,0,1]
             + b3[e,0],
  and output o of the layer at a row of inputs u is z + Σ_i mlp_(i,o)(u i), z the zero the sum starts from.
  The result at (b, o) is layer 1 (16 outputs) of the 64 outputs of layer 0 at row b of x.
  Nothing here needs more of the extended reals than that + and · are commutative and associative.
-/
import Idealize.ShloMosaic.PureOps.Ideal
import Idealize.ShloMosaic.Lib.ValueIdx

noncomputable section

open scoped BigOperators

namespace Cert.Kan

open Idealize.ShloMosaic Idealize.ShloMosaic.ValueIdx

/-- One edge's network on the extended reals, in the order of operations the kernel uses: products first, the bias last,
    `relu t = max t z`. -/
def mlp (z t w10 w11 b10 b11 w200 w201 w210 w211 b20 b21 w30 w31 b3 : EReal) : EReal :=
  max (max (t * w10 + b10) z * w200 + max (t * w11 + b11) z * w201 + b20) z * w30
    + max (max (t * w10 + b10) z * w210 + max (t * w11 + b11) z * w211 + b21) z * w31 + b3

/-- The row of edge (i, o) in a layer of n outputs: i * n + o. -/
def edge (n N : Nat) (hN : 64 * n = N) (i : Fin 64) (o : Fin n) : Fin N :=
  ⟨i.val * n + o.val, by
    have hi := i.isLt; have ho := o.isLt
    calc i.val * n + o.val < i.val * n + n := by omega
      _ = (i.val + 1) * n := by ring
      _ ≤ 64 * n := Nat.mul_le_mul_right n (by omega)
      _ = N := hN⟩

theorem edge_val (n N : Nat) (hN : 64 * n = N) (i : Fin 64) (o : Fin n) : (edge n N hN i o).val = i.val * n + o.val := rfl

/-- Edge (i, o)'s network applied to t, its thirteen parameters read from the six arrays at row `edge i o`. -/
def edgeMlp (n N : Nat) (hN : 64 * n = N) (z : EReal)
    (W1 : (⟨3, ![N, 2, 1]⟩ : Shape).Idx → EReal) (b1 : (⟨2, ![N, 2]⟩ : Shape).Idx → EReal)
    (W2 : (⟨3, ![N, 2, 2]⟩ : Shape).Idx → EReal) (b2 : (⟨2, ![N, 2]⟩ : Shape).Idx → EReal)
    (W3 : (⟨3, ![N, 1, 2]⟩ : Shape).Idx → EReal) (b3 : (⟨2, ![N, 1]⟩ : Shape).Idx → EReal)
    (i : Fin 64) (o : Fin n) (t : EReal) : EReal :=
  mlp z t (W1 (ix3 (edge n N hN i o) 0 0)) (W1 (ix3 (edge n N hN i o) 1 0))
    (b1 (ix2 (edge n N hN i o) 0)) (b1 (ix2 (edge n N hN i o) 1))
    (W2 (ix3 (edge n N hN i o) 0 0)) (W2 (ix3 (edge n N hN i o) 0 1))
    (W2 (ix3 (edge n N hN i o) 1 0)) (W2 (ix3 (edge n N hN i o) 1 1))
    (b2 (ix2 (edge n N hN i o) 0)) (b2 (ix2 (edge n N hN i o) 1))
    (W3 (ix3 (edge n N hN i o) 0 0)) (W3 (ix3 (edge n N hN i o) 0 1))
    (b3 (ix2 (edge n N hN i o) 0))

/-- Output o of a layer at the input row u: the start value plus the sum over the 64 inputs of the edges' networks. -/
def layer (n N : Nat) (hN : 64 * n = N) (z : EReal)
    (W1 : (⟨3, ![N, 2, 1]⟩ : Shape).Idx → EReal) (b1 : (⟨2, ![N, 2]⟩ : Shape).Idx → EReal)
    (W2 : (⟨3, ![N, 2, 2]⟩ : Shape).Idx → EReal) (b2 : (⟨2, ![N, 2]⟩ : Shape).Idx → EReal)
    (W3 : (⟨3, ![N, 1, 2]⟩ : Shape).Idx → EReal) (b3 : (⟨2, ![N, 1]⟩ : Shape).Idx → EReal)
    (u : Fin 64 → EReal) (o : Fin n) : EReal :=
  z + ∑ i : Fin 64, edgeMlp n N hN z W1 b1 W2 b2 W3 b3 i o (u i)

/-- The zero both programs start their sums from and clamp at: the f32 word 0 read at the ideal instance (never evaluated). -/
def z0 : EReal := Ideal.ofBits .f32 0x00000000#32

/-- The whole function: entry (b, o) of the result from the thirteen argument arrays. -/
def G (x : (⟨2, ![16384, 64]⟩ : Shape).Idx → EReal)
    (W1 : (⟨3, ![4096, 2, 1]⟩ : Shape).Idx → EReal) (b1 : (⟨2, ![4096, 2]⟩ : Shape).Idx → EReal)
    (W2 : (⟨3, ![4096, 2, 2]⟩ : Shape).Idx → EReal) (b2 : (⟨2, ![4096, 2]⟩ : Shape).Idx → EReal)
    (W3 : (⟨3, ![4096, 1, 2]⟩ : Shape).Idx → EReal) (b3 : (⟨2, ![4096, 1]⟩ : Shape).Idx → EReal)
    (V1 : (⟨3, ![1024, 2, 1]⟩ : Shape).Idx → EReal) (c1 : (⟨2, ![1024, 2]⟩ : Shape).Idx → EReal)
    (V2 : (⟨3, ![1024, 2, 2]⟩ : Shape).Idx → EReal) (c2 : (⟨2, ![1024, 2]⟩ : Shape).Idx → EReal)
    (V3 : (⟨3, ![1024, 1, 2]⟩ : Shape).Idx → EReal) (c3 : (⟨2, ![1024, 1]⟩ : Shape).Idx → EReal) :
    (⟨2, ![16384, 16]⟩ : Shape).Idx → EReal :=
  fun q => layer 16 1024 rfl z0 V1 c1 V2 c2 V3 c3
    (fun j => layer 64 4096 rfl z0 W1 b1 W2 b2 W3 b3 (fun i => x (ix2 (q 0) i)) j) (q 1)

/-- A left-nested chain of additions from a start value is the start value plus the sum. -/
theorem foldl_add_eq (l : List EReal) (a : EReal) : l.foldl (· + ·) a = a + l.sum := by
  induction l generalizing a with
  | nil => simp
  | cons h t ih => rw [List.foldl_cons, ih, List.sum_cons, add_assoc]

/-- The sum over `Fin 64` written as the chain the kernel's unrolled loop computes: start value first, inputs in order. -/
theorem chain_eq (f : Fin 64 → EReal) (a : EReal) :
    (List.finRange 64).foldl (fun acc i => acc + f i) a = a + ∑ i : Fin 64, f i := by
  have h : (List.finRange 64).foldl (fun acc i => acc + f i) a = ((List.finRange 64).map f).foldl (· + ·) a := by
    rw [List.foldl_map]
  rw [h, foldl_add_eq, Fin.sum_univ_def]

end Cert.Kan

end
-- ==== Proof.BlockSpec.lean ====
/-
  The same two layers as the kernel's body sees them. The kernel is handed each layer's six parameter arrays re-laid with
  the small axes first and the edge (i, o) spread over two axes: P1[h, i, o] = W1[i·n+o, h, 0], Q1[h, i, o] = b1[i·n+o, h],
  P2[k, h, i, o] = W2[i·n+o, k, h], Q2[k, i, o] = b2[i·n+o, k], P3[k, i, o] = W3[i·n+o, 0, k], Q3[i, o] = b3[i·n+o, 0];
  and it adds the 64 inputs' contributions one after the other onto a start value. `chainLayer` is that left-nested
  chain; `chainLayer_eq` says it is the start value plus the sum.
-/
import proofs.«180360_j71794673320509_1_alg».proof.Proof.Spec

noncomputable section

open scoped BigOperators

namespace Cert.Kan

open Idealize.ShloMosaic Idealize.ShloMosaic.ValueIdx

/-- Edge (i, c)'s network applied to t, its parameters read from the re-laid arrays at (…, i, c). -/
def relaidMlp {n : Nat} (z : EReal)
    (P1 Q1 : (⟨3, ![2, 64, n]⟩ : Shape).Idx → EReal) (P2 : (⟨4, ![2, 2, 64, n]⟩ : Shape).Idx → EReal)
    (Q2 P3 : (⟨3, ![2, 64, n]⟩ : Shape).Idx → EReal) (Q3 : (⟨2, ![64, n]⟩ : Shape).Idx → EReal)
    (i : Fin 64) (c : Fin n) (t : EReal) : EReal :=
  mlp z t (P1 (ix3 0 i c)) (P1 (ix3 1 i c)) (Q1 (ix3 0 i c)) (Q1 (ix3 1 i c))
    (P2 (ix4 0 0 i c)) (P2 (ix4 0 1 i c)) (P2 (ix4 1 0 i c)) (P2 (ix4 1 1 i c))
    (Q2 (ix3 0 i c)) (Q2 (ix3 1 i c)) (P3 (ix3 0 i c)) (P3 (ix3 1 i c)) (Q3 (ix2 i c))

/-- Output c of a layer at the input row u, as the chain of 64 additions onto z, inputs in order. -/
def chainLayer {n : Nat} (z : EReal)
    (P1 Q1 : (⟨3, ![2, 64, n]⟩ : Shape).Idx → EReal) (P2 : (⟨4, ![2, 2, 64, n]⟩ : Shape).Idx → EReal)
    (Q2 P3 : (⟨3, ![2, 64, n]⟩ : Shape).Idx → EReal) (Q3 : (⟨2, ![64, n]⟩ : Shape).Idx → EReal)
    (u : Fin 64 → EReal) (c : Fin n) : EReal :=
  (List.finRange 64).foldl (fun acc i => acc + relaidMlp z P1 Q1 P2 Q2 P3 Q3 i c (u i)) z

/-- The chain is the start value plus the sum over the inputs. -/
theorem chainLayer_eq {n : Nat} (z : EReal)
    (P1 Q1 : (⟨3, ![2, 64, n]⟩ : Shape).Idx → EReal) (P2 : (⟨4, ![2, 2, 64, n]⟩ : Shape).Idx → EReal)
    (Q2 P3 : (⟨3, ![2, 64, n]⟩ : Shape).Idx → EReal) (Q3 : (⟨2, ![64, n]⟩ : Shape).Idx → EReal)
    (u : Fin 64 → EReal) (c : Fin n) :
    chainLayer z P1 Q1 P2 Q2 P3 Q3 u c = z + ∑ i : Fin 64, relaidMlp z P1 Q1 P2 Q2 P3 Q3 i c (u i) :=
  chain_eq _ z

/-- The 64 indices in order, as numerals. -/
theorem finRange64 : List.finRange 64 =
    [0, 1, 2, 3, 4, 5, 6, 7, 8, 9, 10, 11, 12, 13, 14, 15, 16, 17, 18, 19, 20, 21, 22, 23, 24, 25, 26, 27, 28, 29, 30, 31,
     32, 33, 34, 35, 36, 37, 38, 39, 40, 41, 42, 43, 44, 45, 46, 47, 48, 49, 50, 51, 52, 53, 54, 55, 56, 57, 58, 59, 60, 61, 62, 63] := by
  decide

/-- What one grid point's [512, 16] output block holds, from its [512, 64] block of x and the twelve re-laid parameter
    arrays: layer 1's chain over the 64 outputs of layer 0's chains at the block's row. -/
def block (z : EReal) (X : (⟨2, ![512, 64]⟩ : Shape).Idx → EReal)
    (P1 Q1 : (⟨3, ![2, 64, 64]⟩ : Shape).Idx → EReal) (P2 : (⟨4, ![2, 2, 64, 64]⟩ : Shape).Idx → EReal)
    (Q2 P3 : (⟨3, ![2, 64, 64]⟩ : Shape).Idx → EReal) (Q3 : (⟨2, ![64, 64]⟩ : Shape).Idx → EReal)
    (R1 S1 : (⟨3, ![2, 64, 16]⟩ : Shape).Idx → EReal) (R2 : (⟨4, ![2, 2, 64, 16]⟩ : Shape).Idx → EReal)
    (S2 R3 : (⟨3, ![2, 64, 16]⟩ : Shape).Idx → EReal) (S3 : (⟨2, ![64, 16]⟩ : Shape).Idx → EReal) :
    (⟨2, ![512, 16]⟩ : Shape).Idx → EReal :=
  fun q => chainLayer z R1 S1 R2 S2 R3 S3
    (fun j => chainLayer z P1 Q1 P2 Q2 P3 Q3 (fun i => X (ix2 (q 0) i)) j) (q 1)

end Cert.Kan

end
-- ==== Proof.Relaid.lean ====
/-
  The kernel's re-laid parameter arrays as functions of the originals, and the two facts that tie the block-level
  specification to G: an edge's network read from the re-laid arrays is the edge's network read from the originals, so a
  chain over the re-laid arrays is the layer.
-/
import proofs.«180360_j71794673320509_1_alg».proof.Proof.BlockSpec

noncomputable section

open scoped BigOperators

namespace Cert.Kan

open Idealize.ShloMosaic Idealize.ShloMosaic.ValueIdx

variable (n N : Nat) (hN : 64 * n = N)

/-- W1[i·n+o, h, 0] at (h, i, o). -/
def relaidW1 (W1 : (⟨3, ![N, 2, 1]⟩ : Shape).Idx → EReal) : (⟨3, ![2, 64, n]⟩ : Shape).Idx → EReal :=
  fun q => W1 (ix3 (edge n N hN (q 1) (q 2)) (q 0) 0)
/-- b[i·n+o, h] at (h, i, o): the layout of b1 and of b2. -/
def relaidB (b : (⟨2, ![N, 2]⟩ : Shape).Idx → EReal) : (⟨3, ![2, 64, n]⟩ : Shape).Idx → EReal :=
  fun q => b (ix2 (edge n N hN (q 1) (q 2)) (q 0))
/-- W2[i·n+o, k, h] at (k, h, i, o). -/
def relaidW2 (W2 : (⟨3, ![N, 2, 2]⟩ : Shape).Idx → EReal) : (⟨4, ![2, 2, 64, n]⟩ : Shape).Idx → EReal :=
  fun q => W2 (ix3 (edge n N hN (q 2) (q 3)) (q 0) (q 1))
/-- W3[i·n+o, 0, k] at (k, i, o). -/
def relaidW3 (W3 : (⟨3, ![N, 1, 2]⟩ : Shape).Idx → EReal) : (⟨3, ![2, 64, n]⟩ : Shape).Idx → EReal :=
  fun q => W3 (ix3 (edge n N hN (q 1) (q 2)) 0 (q 0))
/-- b3[i·n+o, 0] at (i, o). -/
def relaidB3 (b3 : (⟨2, ![N, 1]⟩ : Shape).Idx → EReal) : (⟨2, ![64, n]⟩ : Shape).Idx → EReal :=
  fun q => b3 (ix2 (edge n N hN (q 0) (q 1)) 0)

/-- An edge's network read from the re-laid arrays is the one read from the originals. -/
theorem relaidMlp_relaid (z : EReal)
    (W1 : (⟨3, ![N, 2, 1]⟩ : Shape).Idx → EReal) (b1 : (⟨2, ![N, 2]⟩ : Shape).Idx → EReal)
    (W2 : (⟨3, ![N, 2, 2]⟩ : Shape).Idx → EReal) (b2 : (⟨2, ![N, 2]⟩ : Shape).Idx → EReal)
    (W3 : (⟨3, ![N, 1, 2]⟩ : Shape).Idx → EReal) (b3 : (⟨2, ![N, 1]⟩ : Shape).Idx → EReal)
    (i : Fin 64) (c : Fin n) (t : EReal) :
    relaidMlp z (relaidW1 n N hN W1) (relaidB n N hN b1) (relaidW2 n N hN W2) (relaidB n N hN b2)
      (relaidW3 n N hN W3) (relaidB3 n N hN b3) i c t = edgeMlp n N hN z W1 b1 W2 b2 W3 b3 i c t := rfl

/-- A chain over the re-laid arrays is the layer over the originals. -/
theorem chainLayer_relaid (z : EReal)
    (W1 : (⟨3, ![N, 2, 1]⟩ : Shape).Idx → EReal) (b1 : (⟨2, ![N, 2]⟩ : Shape).Idx → EReal)
    (W2 : (⟨3, ![N, 2, 2]⟩ : Shape).Idx → EReal) (b2 : (⟨2, ![N, 2]⟩ : Shape).Idx → EReal)
    (W3 : (⟨3, ![N, 1, 2]⟩ : Shape).Idx → EReal) (b3 : (⟨2, ![N, 1]⟩ : Shape).Idx → EReal)
    (u : Fin 64 → EReal) (c : Fin n) :
    chainLayer z (relaidW1 n N hN W1) (relaidB n N hN b1) (relaidW2 n N hN W2) (relaidB n N hN b2)
      (relaidW3 n N hN W3) (relaidB3 n N hN b3) u c = layer n N hN z W1 b1 W2 b2 W3 b3 u c := by
  rw [chainLayer_eq]
  rfl

end Cert.Kan

end
-- ==== Proof.LibRowReads.lean ====
/-
  Reading, at an entry (r, c) of an [m, n] array, the four chains a row-at-a-time body builds each operand with:
  a column of an [m, k] array repeated along the columns; and row i of a parameter array of rank 2, 3 or 4 — cut out as a
  [1, …, 1, n] slice, flattened to [n], viewed as [1, n] — repeated along the rows. Each is the operand at one entry.
  The slice's offsets are numerals in the program, so the lemmas take them as naturals and return the entry with the
  offsets as coordinates.
-/
import Idealize.ShloMosaic.PureOps.Ideal
import Idealize.ShloMosaic.Lib.ValueIdx
import Idealize.ShloMosaic.Lib.Pipeline.Value

noncomputable section

namespace Cert.RowReads

open Idealize.ShloMosaic Idealize.ShloMosaic.ValueIdx

variable {α : Type}

/-- The bound a slice's offset satisfies on an axis where the slice has extent one. -/
theorem off_lt {s t : Shape} {off : Fin s.rank → Nat} (h : s.Slices off t) (a : Fin s.rank)
    (h1 : t.size (a.cast h.1.symm) = 1) : off a < s.size a := by
  have := h.2 a; omega

/-- A [1, n] row repeated along m rows reads its entry c. -/
theorem bcast_row {m n : Nat} (y : (⟨2, ![1, n]⟩ : Shape).Idx → α)
    (hb : (⟨2, ![1, n]⟩ : Shape).Broadcasts ⟨2, ![m, n]⟩) (r : Fin m) (c : Fin n) :
    broadcastTo ⟨2, ![m, n]⟩ y hb (ix2 r c) = y (ix2 0 c) := by
  refine broadcastTo_apply y hb (ix2 r c) (ix2 0 c) fun a => ?_
  match a with
  | ⟨0, _⟩ => simp
  | ⟨1, _⟩ =>
    show c.val = if n = 1 then 0 else c.val
    split
    · have := c.isLt; omega
    · rfl

/-- An [n] vector viewed as [1, n] reads its entry c. -/
theorem cast_row {n : Nat} (y : (⟨1, ![n]⟩ : Shape).Idx → α)
    (h : (⟨1, ![n]⟩ : Shape).ShapeCasts ⟨2, ![1, n]⟩) (c : Fin n) :
    shapeCast ⟨2, ![1, n]⟩ y h (ix2 0 c) = y (ix1 c) := by
  refine shapeCast_apply y h (ix2 0 c) (ix1 c) ?_
  rw [Shape.rowMajor_val_one, Shape.rowMajor_val_two]
  show c.val = 0 * n + c.val
  omega

/-- Column `o1` of an [m, k] array, repeated along n columns, read at (r, c). -/
theorem col_read {m k n : Nat} (x : (⟨2, ![m, k]⟩ : Shape).Idx → α) (o1 : Nat)
    (hs : (⟨2, ![m, k]⟩ : Shape).Slices ![0, o1] ⟨2, ![m, 1]⟩)
    (hb : (⟨2, ![m, 1]⟩ : Shape).Broadcasts ⟨2, ![m, n]⟩) (r : Fin m) (c : Fin n) :
    broadcastTo ⟨2, ![m, n]⟩ (extractStridedSlice ⟨2, ![m, 1]⟩ ![0, o1] x hs) hb (ix2 r c)
      = x (ix2 r ⟨o1, off_lt hs 1 rfl⟩) := by
  refine (broadcastTo_apply _ hb (ix2 r c) (ix2 r 0) fun a => ?_).trans ?_
  · match a with
    | ⟨0, _⟩ =>
      show r.val = if m = 1 then 0 else r.val
      split
      · have := r.isLt; omega
      · rfl
    | ⟨1, _⟩ => simp
  · refine extractStridedSlice_apply _ x hs (ix2 r 0) _ fun a => ?_
    match a with
    | ⟨0, _⟩ => simp
    | ⟨1, _⟩ => simp

/-- Row `o0` of a [k, n] array — sliced [1, n], flattened, viewed [1, n] — repeated along m rows, read at (r, c). -/
theorem row2_read {m k n : Nat} (v : (⟨2, ![k, n]⟩ : Shape).Idx → α) (o0 : Nat)
    (hs : (⟨2, ![k, n]⟩ : Shape).Slices ![o0, 0] ⟨2, ![1, n]⟩)
    (h1 : (⟨2, ![1, n]⟩ : Shape).ShapeCasts ⟨1, ![n]⟩) (h2 : (⟨1, ![n]⟩ : Shape).ShapeCasts ⟨2, ![1, n]⟩)
    (hb : (⟨2, ![1, n]⟩ : Shape).Broadcasts ⟨2, ![m, n]⟩) (r : Fin m) (c : Fin n) :
    broadcastTo ⟨2, ![m, n]⟩ (shapeCast ⟨2, ![1, n]⟩ (shapeCast ⟨1, ![n]⟩
      (extractStridedSlice ⟨2, ![1, n]⟩ ![o0, 0] v hs) h1) h2) hb (ix2 r c)
      = v (ix2 ⟨o0, off_lt hs 0 rfl⟩ c) := by
  rw [bcast_row, cast_row]
  refine (shapeCast_apply _ h1 (ix1 c) (ix2 0 c) ?_).trans ?_
  · rw [Shape.rowMajor_val_one, Shape.rowMajor_val_two]
    show 0 * n + c.val = c.val
    omega
  · refine extractStridedSlice_apply _ v hs (ix2 0 c) _ fun a => ?_
    match a with
    | ⟨0, _⟩ => simp
    | ⟨1, _⟩ => simp

/-- Row (o0, o1) of a [p, k, n] array — sliced [1, 1, n], flattened, viewed [1, n] — repeated along m rows, read at (r, c). -/
theorem row3_read {m p k n : Nat} (v : (⟨3, ![p, k, n]⟩ : Shape).Idx → α) (o0 o1 : Nat)
    (hs : (⟨3, ![p, k, n]⟩ : Shape).Slices ![o0, o1, 0] ⟨3, ![1, 1, n]⟩)
    (h1 : (⟨3, ![1, 1, n]⟩ : Shape).ShapeCasts ⟨1, ![n]⟩) (h2 : (⟨1, ![n]⟩ : Shape).ShapeCasts ⟨2, ![1, n]⟩)
    (hb : (⟨2, ![1, n]⟩ : Shape).Broadcasts ⟨2, ![m, n]⟩) (r : Fin m) (c : Fin n) :
    broadcastTo ⟨2, ![m, n]⟩ (shapeCast ⟨2, ![1, n]⟩ (shapeCast ⟨1, ![n]⟩
      (extractStridedSlice ⟨3, ![1, 1, n]⟩ ![o0, o1, 0] v hs) h1) h2) hb (ix2 r c)
      = v (ix3 ⟨o0, off_lt hs 0 rfl⟩ ⟨o1, off_lt hs 1 rfl⟩ c) := by
  rw [bcast_row, cast_row]
  refine (shapeCast_apply _ h1 (ix1 c) (ix3 0 0 c) ?_).trans ?_
  · rw [Shape.rowMajor_val_one, Shape.rowMajor_val_three]
    show (0 * 1 + 0) * n + c.val = c.val
    omega
  · refine extractStridedSlice_apply _ v hs (ix3 0 0 c) _ fun a => ?_
    match a with
    | ⟨0, _⟩ => simp
    | ⟨1, _⟩ => simp
    | ⟨2, _⟩ => simp

/-- Row (o0, o1, o2) of a [p, q, k, n] array — sliced [1, 1, 1, n], flattened, viewed [1, n] — repeated along m rows,
    read at (r, c). -/
theorem row4_read {m p q k n : Nat} (v : (⟨4, ![p, q, k, n]⟩ : Shape).Idx → α) (o0 o1 o2 : Nat)
    (hs : (⟨4, ![p, q, k, n]⟩ : Shape).Slices ![o0, o1, o2, 0] ⟨4, ![1, 1, 1, n]⟩)
    (h1 : (⟨4, ![1, 1, 1, n]⟩ : Shape).ShapeCasts ⟨1, ![n]⟩) (h2 : (⟨1, ![n]⟩ : Shape).ShapeCasts ⟨2, ![1, n]⟩)
    (hb : (⟨2, ![1, n]⟩ : Shape).Broadcasts ⟨2, ![m, n]⟩) (r : Fin m) (c : Fin n) :
    broadcastTo ⟨2, ![m, n]⟩ (shapeCast ⟨2, ![1, n]⟩ (shapeCast ⟨1, ![n]⟩
      (extractStridedSlice ⟨4, ![1, 1, 1, n]⟩ ![o0, o1, o2, 0] v hs) h1) h2) hb (ix2 r c)
      = v (ix4 ⟨o0, off_lt hs 0 rfl⟩ ⟨o1, off_lt hs 1 rfl⟩ ⟨o2, off_lt hs 2 rfl⟩ c) := by
  rw [bcast_row, cast_row]
  refine (shapeCast_apply _ h1 (ix1 c) (ix4 0 0 0 c) ?_).trans ?_
  · rw [Shape.rowMajor_val_one, Shape.rowMajor_val_four]
    show ((0 * 1 + 0) * 1 + 0) * n + c.val = c.val
    omega
  · refine extractStridedSlice_apply _ v hs (ix4 0 0 0 c) _ fun a => ?_
    match a with
    | ⟨0, _⟩ => simp
    | ⟨1, _⟩ => simp
    | ⟨2, _⟩ => simp
    | ⟨3, _⟩ => simp

end Cert.RowReads

end
-- ==== Proof.KanBody.lean ====
/-
  What the kernel's body leaves in a grid point's [512, 16] output block, as a function of the point's [512, 64] block of
  x and the twelve re-laid parameter arrays: `Cert.Kan.block`.

  The body is two unrolled loops of 64 steps. Step i of a layer reads column i of its input block X, rows (·, i, ·) of the
  layer's parameter arrays (each cut out as a one-row slice and repeated along the 512 rows), forms the edge networks'
  values for all 512 × n entries at once, and adds them onto the accumulator, which starts at the zero word. So at an
  entry (r, c) the accumulator after the 64 steps is the chain  ((z + mlp_(0,c)(X r 0)) + mlp_(1,c)(X r 1)) + … ,
  which is `Cert.Kan.chainLayer`. Layer 1's input block is layer 0's accumulator.

  The frame module states the stored value as one composition of the body's named intermediate values over layer 0's
  accumulator `hid0`. The proof names that accumulator H, proves the chain for it once, and then proves layer 1's chain
  over the name. Both times the work is the same: open the intermediate values, read every vector
  operation at the entry (r, c) — a sum, product or maximum entry by entry, a repeated column or row by the lemmas of
  LibRowReads — and compare with the chain written out term by term.
-/
import proofs.«180360_j71794673320509_1_alg».proof.Proof.FrameIdeal
import proofs.«180360_j71794673320509_1_alg».proof.Proof.BlockSpec
import proofs.«180360_j71794673320509_1_alg».proof.Proof.LibRowReads
import Idealize.ShloMosaic.Lib.ValueIdx
import Idealize.ShloMosaic.Lib.Pipeline.Value

set_option maxRecDepth 65536

noncomputable section

open Lean Elab Tactic Meta in
/-- Replace, in the goal, every application of a definition named `Cert.KernelIdeal.Gen.k0_pay<N>` (the values the body
    computes between its loads and its store, each a short composition of vector operations) by its body, and substitute
    the bodies' local abbreviations, so that the goal speaks of the vector operations themselves. -/
elab "unfold_payloads" : tactic => do
  let g ← getMainGoal
  let t ← instantiateMVars (← g.getType)
  let isPay (n : Name) : Bool := match n with
    | .str p s => p == `Cert.KernelIdeal.Gen && s.startsWith "k0_pay"
    | _ => false
  let t' ← Core.transform t
    (pre := fun e => do
      if e.isLet then
        return .visit (e.letBody!.instantiate1 e.letValue!)
      let f := e.getAppFn
      if let .const n us := f then
        if isPay n then
          let some (.defnInfo d) := (← getEnv).find? n | return .continue
          let body := d.value.instantiateLevelParams d.levelParams us
          return .visit (body.beta e.getAppArgs)
      return .continue)
  let g' ← g.replaceTargetDefEq t'
  replaceMainGoal [g']

namespace Cert.KernelIdeal.KanBody

open Idealize.ShloMosaic Idealize.ShloMosaic.ValueIdx Cert.KernelIdeal Cert.KernelIdeal.Gen Cert.KernelIdeal.GenP Cert.RowReads

/-- The zero offsets of a whole-array rectangle, rank 2, 3 and 4. -/
theorem hz2 : (![0, 0] : Fin 2 → Nat) = fun _ => 0 := by funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl
theorem hz4 : (![0, 0, 0, 0] : Fin 4 → Nat) = fun _ => 0 := by
  funext a; match a with | ⟨0, _⟩ => rfl | ⟨1, _⟩ => rfl | ⟨2, _⟩ => rfl | ⟨3, _⟩ => rfl

/-- The block specification with layer 0's outputs named: if H is layer 0's chain at every entry, the block is layer 1's
    chain over the rows of H. -/
theorem block_of_hidden (z : EReal) (X : (⟨2, ![512, 64]⟩ : Shape).Idx → EReal)
    (P1 Q1 : (⟨3, ![2, 64, 64]⟩ : Shape).Idx → EReal) (P2 : (⟨4, ![2, 2, 64, 64]⟩ : Shape).Idx → EReal)
    (Q2 P3 : (⟨3, ![2, 64, 64]⟩ : Shape).Idx → EReal) (Q3 : (⟨2, ![64, 64]⟩ : Shape).Idx → EReal)
    (R1 S1 : (⟨3, ![2, 64, 16]⟩ : Shape).Idx → EReal) (R2 : (⟨4, ![2, 2, 64, 16]⟩ : Shape).Idx → EReal)
    (S2 R3 : (⟨3, ![2, 64, 16]⟩ : Shape).Idx → EReal) (S3 : (⟨2, ![64, 16]⟩ : Shape).Idx → EReal)
    (H : (⟨2, ![512, 64]⟩ : Shape).Idx → EReal)
    (hH : H = fun q => Cert.Kan.chainLayer z P1 Q1 P2 Q2 P3 Q3 (fun i => X (ix2 (q 0) i)) (q 1)) :
    Cert.Kan.block z X P1 Q1 P2 Q2 P3 Q3 R1 S1 R2 S2 R3 S3
      = fun q => Cert.Kan.chainLayer z R1 S1 R2 S2 R3 S3 (fun j => H (ix2 (q 0) j)) (q 1) := by
  subst hH
  rfl

set_option maxHeartbeats 40000000 in
/-- The body's stored value is the block specification of its thirteen input blocks. -/
theorem out_eq (x0 : Vec Ideal S512x64 .f32) (x1 x2 : Vec Ideal S2x64x64 .f32) (x3 : Vec Ideal S2x2x64x64 .f32)
    (x4 x5 : Vec Ideal S2x64x64 .f32) (x6 : Vec Ideal S64x64 .f32) (x7 x8 : Vec Ideal S2x64x16 .f32)
    (x9 : Vec Ideal S2x2x64x16 .f32) (x10 x11 : Vec Ideal S2x64x16 .f32) (x12 : Vec Ideal S64x16 .f32) :
    out0_13 (F := Ideal) x0 x1 x2 x3 x4 x5 x6 x7 x8 x9 x10 x11 x12
      = Cert.Kan.block Cert.Kan.z0 x0 x1 x2 x3 x4 x5 x6 x7 x8 x9 x10 x11 x12 := by
  delta out0_13
  rw [View.canon_unit_zero hz2]
  -- layer 0's accumulator after its 64 steps is the frame module's `hid0`; name it H. Its first column and the first
  -- product of layer 1 are stated over its six operands rather than over it, so those two values are opened and the
  -- accumulator, written out there, is named H too
  delta k0_pay530 k0_pay526
  generalize hH : hid0 (F := Ideal) x0 x1 x2 x3 x4 x5 x6 = H
  rw [show k0_pay518 (F := Ideal) _ _ _ _ _ _ = H from hH]
  have h0 : H = fun q => Cert.Kan.chainLayer Cert.Kan.z0 x1 x2 x3 x4 x5 x6 (fun i => x0 (ix2 (q 0) i)) (q 1) := by
    rw [← hH]
    delta hid0
    funext q
    obtain ⟨r, c, rfl⟩ : ∃ r c, q = ix2 r c := ⟨q 0, q 1, eq_ix2 q⟩
    unfold_payloads
    simp only [View.ld_unit_zero (S := S512x64) hz2, View.ld_unit_zero (S := S2x64x64) hz3,
      View.ld_unit_zero (S := S2x2x64x64) hz4, View.ld_unit_zero (S := S64x64) hz2,
      addf_apply, mulf_apply, maximumf_apply, broadcast_apply, shapeCast_self, col_read, row2_read, row3_read, row4_read]
    simp only [Cert.Kan.chainLayer, Cert.Kan.finRange64, List.foldl_cons, List.foldl_nil, Cert.Kan.relaidMlp, Cert.Kan.mlp]
    rfl
  clear hH
  rw [block_of_hidden Cert.Kan.z0 x0 x1 x2 x3 x4 x5 x6 x7 x8 x9 x10 x11 x12 H h0]
  clear h0
  funext q
  obtain ⟨r, c, rfl⟩ : ∃ r c, q = ix2 r c := ⟨q 0, q 1, eq_ix2 q⟩
  unfold_payloads
  simp only [View.ld_unit_zero (S := S2x64x16) hz3, View.ld_unit_zero (S := S2x2x64x16) hz4,
    View.ld_unit_zero (S := S64x16) hz2,
    addf_apply, mulf_apply, maximumf_apply, broadcast_apply, shapeCast_self, col_read, row2_read, row3_read, row4_read]
  simp only [Cert.Kan.chainLayer, Cert.Kan.finRange64, List.foldl_cons, List.foldl_nil, Cert.Kan.relaidMlp, Cert.Kan.mlp]
  rfl

end Cert.KernelIdeal.KanBody

end
-- ==== Proof.HostPrep.lean ====
/-
  What the kernel's twelve re-laid parameter arrays hold when its region is entered. Before the region the program only
  reshapes and transposes each layer's six parameter arrays: a unit axis is dropped where there is one, the row axis
  i·n+o is split into (i, o), and the small axes are moved in front. Each such chain, read at an index, is the original
  array at one index; naming that index gives the arrays of Relaid.lean:
    P1[h, i, o] = W1[i·n+o, h, 0],  Q1[h, i, o] = b1[i·n+o, h],  P2[k, h, i, o] = W2[i·n+o, k, h],
    Q2[k, i, o] = b2[i·n+o, k],     P3[k, i, o] = W3[i·n+o, 0, k],  Q3[i, o] = b3[i·n+o, 0].
  The five layouts are proved once for a layer of n outputs (N = 64·n rows), then used at n = 64 and at n = 16.
-/
import proofs.«180360_j71794673320509_1_alg».proof.Proof.FrameIdeal
import proofs.«180360_j71794673320509_1_alg».proof.Proof.Relaid
import Idealize.ShloMosaic.Lib.Pipeline.Value
import Idealize.ShloMosaic.Lib.ValueIdx
import Idealize.ShloMosaic.Lib.StableHlo.Run

noncomputable section

namespace Cert.Kan

open Idealize.ShloMosaic Idealize.ShloMosaic.ValueIdx

variable (n N : Nat) (hN : 64 * n = N)

/-! ## The five layouts, for a layer of n outputs

A transpose read at (…) is its operand at the permuted coordinates; a shape cast read at an index is its operand at the
index with the same row-major position. The row-major position of (i, o, …) in [64, n, …] is that of (i·n+o, …) in
[N, …], and a unit axis contributes nothing to a position. -/

/-- b[i·n+o, h] at (h, i, o): the transpose [2,0,1] of the [64,n,2] reading of b. -/
theorem layB (b : (⟨2, ![N, 2]⟩ : Shape).Idx → EReal)
    (h2 : (⟨2, ![N, 2]⟩ : Shape).ShapeCasts ⟨3, ![64, n, 2]⟩)
    (h3 : (⟨3, ![64, n, 2]⟩ : Shape).Transposes [2, 0, 1] ⟨3, ![2, 64, n]⟩) :
    transpose (⟨3, ![2, 64, n]⟩ : Shape) [2, 0, 1] (shapeCast (⟨3, ![64, n, 2]⟩ : Shape) b h2) h3 = relaidB n N hN b := by
  funext q
  refine (transpose_apply _ _ h3 q (ix3 (q 1) (q 2) (q 0))
    (fun a => match a with | ⟨0, _⟩ => rfl | ⟨1, _⟩ => rfl | ⟨2, _⟩ => rfl)).trans ?_
  refine (shapeCast_apply _ h2 _ (ix2 (edge n N hN (q 1) (q 2)) (q 0)) ?_).trans rfl
  rw [Shape.rowMajor_val_two, Shape.rowMajor_val_three]
  rfl

/-- W1[i·n+o, h, 0] at (h, i, o): the unit axis dropped, then as b. -/
theorem layW1 (W1 : (⟨3, ![N, 2, 1]⟩ : Shape).Idx → EReal)
    (h1 : (⟨3, ![N, 2, 1]⟩ : Shape).ShapeCasts ⟨2, ![N, 2]⟩)
    (h2 : (⟨2, ![N, 2]⟩ : Shape).ShapeCasts ⟨3, ![64, n, 2]⟩)
    (h3 : (⟨3, ![64, n, 2]⟩ : Shape).Transposes [2, 0, 1] ⟨3, ![2, 64, n]⟩) :
    transpose (⟨3, ![2, 64, n]⟩ : Shape) [2, 0, 1]
      (shapeCast (⟨3, ![64, n, 2]⟩ : Shape) (shapeCast (⟨2, ![N, 2]⟩ : Shape) W1 h1) h2) h3 = relaidW1 n N hN W1 := by
  rw [layB n N hN _ h2 h3]
  funext q
  refine (shapeCast_apply _ h1 _ (ix3 (edge n N hN (q 1) (q 2)) (q 0) 0) ?_).trans rfl
  rw [Shape.rowMajor_val_three, Shape.rowMajor_val_two]
  show ((edge n N hN (q 1) (q 2)).val * 2 + (q 0).val) * 1 + 0 = (edge n N hN (q 1) (q 2)).val * 2 + (q 0).val
  omega

/-- W3[i·n+o, 0, k] at (k, i, o): the unit axis dropped, then as b. -/
theorem layW3 (W3 : (⟨3, ![N, 1, 2]⟩ : Shape).Idx → EReal)
    (h1 : (⟨3, ![N, 1, 2]⟩ : Shape).ShapeCasts ⟨2, ![N, 2]⟩)
    (h2 : (⟨2, ![N, 2]⟩ : Shape).ShapeCasts ⟨3, ![64, n, 2]⟩)
    (h3 : (⟨3, ![64, n, 2]⟩ : Shape).Transposes [2, 0, 1] ⟨3, ![2, 64, n]⟩) :
    transpose (⟨3, ![2, 64, n]⟩ : Shape) [2, 0, 1]
      (shapeCast (⟨3, ![64, n, 2]⟩ : Shape) (shapeCast (⟨2, ![N, 2]⟩ : Shape) W3 h1) h2) h3 = relaidW3 n N hN W3 := by
  rw [layB n N hN _ h2 h3]
  funext q
  refine (shapeCast_apply _ h1 _ (ix3 (edge n N hN (q 1) (q 2)) 0 (q 0)) ?_).trans rfl
  rw [Shape.rowMajor_val_three, Shape.rowMajor_val_two]
  show ((edge n N hN (q 1) (q 2)).val * 1 + 0) * 2 + (q 0).val = (edge n N hN (q 1) (q 2)).val * 2 + (q 0).val
  omega

/-- W2[i·n+o, k, h] at (k, h, i, o): the transpose [2,3,0,1] of the [64,n,2,2] reading of W2. -/
theorem layW2 (W2 : (⟨3, ![N, 2, 2]⟩ : Shape).Idx → EReal)
    (h2 : (⟨3, ![N, 2, 2]⟩ : Shape).ShapeCasts ⟨4, ![64, n, 2, 2]⟩)
    (h3 : (⟨4, ![64, n, 2, 2]⟩ : Shape).Transposes [2, 3, 0, 1] ⟨4, ![2, 2, 64, n]⟩) :
    transpose (⟨4, ![2, 2, 64, n]⟩ : Shape) [2, 3, 0, 1] (shapeCast (⟨4, ![64, n, 2, 2]⟩ : Shape) W2 h2) h3
      = relaidW2 n N hN W2 := by
  funext q
  refine (transpose_apply _ _ h3 q (ix4 (q 2) (q 3) (q 0) (q 1))
    (fun a => match a with | ⟨0, _⟩ => rfl | ⟨1, _⟩ => rfl | ⟨2, _⟩ => rfl | ⟨3, _⟩ => rfl)).trans ?_
  refine (shapeCast_apply _ h2 _ (ix3 (edge n N hN (q 2) (q 3)) (q 0) (q 1)) ?_).trans rfl
  rw [Shape.rowMajor_val_three, Shape.rowMajor_val_four]
  rfl

/-- b3[i·n+o, 0] at (i, o): the unit axis dropped, then the rows split in two. -/
theorem layB3 (b3 : (⟨2, ![N, 1]⟩ : Shape).Idx → EReal)
    (h1 : (⟨2, ![N, 1]⟩ : Shape).ShapeCasts ⟨1, ![N]⟩)
    (h2 : (⟨1, ![N]⟩ : Shape).ShapeCasts ⟨2, ![64, n]⟩) :
    shapeCast (⟨2, ![64, n]⟩ : Shape) (shapeCast (⟨1, ![N]⟩ : Shape) b3 h1) h2 = relaidB3 n N hN b3 := by
  funext q
  refine (shapeCast_apply _ h2 q (ix1 (edge n N hN (q 0) (q 1)))
    (by rw [Shape.rowMajor_val_one, Shape.rowMajor_val_two]; rfl)).trans ?_
  refine (shapeCast_apply _ h1 _ (ix2 (edge n N hN (q 0) (q 1)) 0) ?_).trans rfl
  rw [Shape.rowMajor_val_two, Shape.rowMajor_val_one]
  show (edge n N hN (q 0) (q 1)).val * 1 + 0 = (edge n N hN (q 0) (q 1)).val
  omega

end Cert.Kan

namespace Cert.KernelIdeal.HostPrep

open Idealize.ShloMosaic Idealize.ShloMosaic.TcCoe
open Idealize.SL Idealize.SL.Sem
open Cert.KernelIdeal Cert.KernelIdeal.Gen Cert.KernelIdeal.GenP

variable (m : (ℓ : Loc nD τ sig) → Buf (Elt Ideal) ℓ)

/-! ## The twelve arrays at the region's entry

Each array is first written as the chain of reshapes and transposes that produced it from its argument array, then the
chain is read by the layout lemma above. Layer 0 (64 outputs, 4096 rows) first, then layer 1 (16 outputs, 1024 rows). -/

theorem V_main_v2 (c : Dev nD) :
    (V m c main_v2 : S2x64x64.Idx → EReal) = Cert.Kan.relaidW1 64 4096 rfl (m ((c : Thread nD τ).loc main_arg1)) := by
  have e : (V m c main_v2 : S2x64x64.Idx → EReal) = transpose S2x64x64 [2, 0, 1] (shapeCast S64x64x2 (shapeCast S4096x2 (m ((c : Thread nD τ).loc main_arg1)) shapeCasts_S4096x2x1_S4096x2) shapeCasts_S4096x2_S64x64x2) transposes_S64x64x2_S2x64x64_2_0_1 := by
    dsimp only [GenP.V, Gen.hostOps0]; after_results; rfl
  exact e.trans (Cert.Kan.layW1 64 4096 rfl _ shapeCasts_S4096x2x1_S4096x2 shapeCasts_S4096x2_S64x64x2 transposes_S64x64x2_S2x64x64_2_0_1)

theorem V_main_v4 (c : Dev nD) :
    (V m c main_v4 : S2x64x64.Idx → EReal) = Cert.Kan.relaidB 64 4096 rfl (m ((c : Thread nD τ).loc main_arg2)) := by
  have e : (V m c main_v4 : S2x64x64.Idx → EReal) = transpose S2x64x64 [2, 0, 1] (shapeCast S64x64x2 (m ((c : Thread nD τ).loc main_arg2)) shapeCasts_S4096x2_S64x64x2) transposes_S64x64x2_S2x64x64_2_0_1 := by
    dsimp only [GenP.V, Gen.hostOps0]; after_results; rfl
  exact e.trans (Cert.Kan.layB 64 4096 rfl _ shapeCasts_S4096x2_S64x64x2 transposes_S64x64x2_S2x64x64_2_0_1)

theorem V_main_v6 (c : Dev nD) :
    (V m c main_v6 : S2x2x64x64.Idx → EReal) = Cert.Kan.relaidW2 64 4096 rfl (m ((c : Thread nD τ).loc main_arg3)) := by
  have e : (V m c main_v6 : S2x2x64x64.Idx → EReal) = transpose S2x2x64x64 [2, 3, 0, 1] (shapeCast S64x64x2x2 (m ((c : Thread nD τ).loc main_arg3)) shapeCasts_S4096x2x2_S64x64x2x2) transposes_S64x64x2x2_S2x2x64x64_2_3_0_1 := by
    dsimp only [GenP.V, Gen.hostOps0]; after_results; rfl
  exact e.trans (Cert.Kan.layW2 64 4096 rfl _ shapeCasts_S4096x2x2_S64x64x2x2 transposes_S64x64x2x2_S2x2x64x64_2_3_0_1)

theorem V_main_v8 (c : Dev nD) :
    (V m c main_v8 : S2x64x64.Idx → EReal) = Cert.Kan.relaidB 64 4096 rfl (m ((c : Thread nD τ).loc main_arg4)) := by
  have e : (V m c main_v8 : S2x64x64.Idx → EReal) = transpose S2x64x64 [2, 0, 1] (shapeCast S64x64x2 (m ((c : Thread nD τ).loc main_arg4)) shapeCasts_S4096x2_S64x64x2) transposes_S64x64x2_S2x64x64_2_0_1 := by
    dsimp only [GenP.V, Gen.hostOps0]; after_results; rfl
  exact e.trans (Cert.Kan.layB 64 4096 rfl _ shapeCasts_S4096x2_S64x64x2 transposes_S64x64x2_S2x64x64_2_0_1)

theorem V_main_v11 (c : Dev nD) :
    (V m c main_v11 : S2x64x64.Idx → EReal) = Cert.Kan.relaidW3 64 4096 rfl (m ((c : Thread nD τ).loc main_arg5)) := by
  have e : (V m c main_v11 : S2x64x64.Idx → EReal) = transpose S2x64x64 [2, 0, 1] (shapeCast S64x64x2 (shapeCast S4096x2 (m ((c : Thread nD τ).loc main_arg5)) shapeCasts_S4096x1x2_S4096x2) shapeCasts_S4096x2_S64x64x2) transposes_S64x64x2_S2x64x64_2_0_1 := by
    dsimp only [GenP.V, Gen.hostOps0]; after_results; rfl
  exact e.trans (Cert.Kan.layW3 64 4096 rfl _ shapeCasts_S4096x1x2_S4096x2 shapeCasts_S4096x2_S64x64x2 transposes_S64x64x2_S2x64x64_2_0_1)

theorem V_main_v13 (c : Dev nD) :
    (V m c main_v13 : S64x64.Idx → EReal) = Cert.Kan.relaidB3 64 4096 rfl (m ((c : Thread nD τ).loc main_arg6)) := by
  have e : (V m c main_v13 : S64x64.Idx → EReal) = shapeCast S64x64 (shapeCast S4096 (m ((c : Thread nD τ).loc main_arg6)) shapeCasts_S4096x1_S4096) shapeCasts_S4096_S64x64 := by
    dsimp only [GenP.V, Gen.hostOps0]; after_results; rfl
  exact e.trans (Cert.Kan.layB3 64 4096 rfl _ shapeCasts_S4096x1_S4096 shapeCasts_S4096_S64x64)

theorem V_main_v16 (c : Dev nD) :
    (V m c main_v16 : S2x64x16.Idx → EReal) = Cert.Kan.relaidW1 16 1024 rfl (m ((c : Thread nD τ).loc main_arg7)) := by
  have e : (V m c main_v16 : S2x64x16.Idx → EReal) = transpose S2x64x16 [2, 0, 1] (shapeCast S64x16x2 (shapeCast S1024x2 (m ((c : Thread nD τ).loc main_arg7)) shapeCasts_S1024x2x1_S1024x2) shapeCasts_S1024x2_S64x16x2) transposes_S64x16x2_S2x64x16_2_0_1 := by
    dsimp only [GenP.V, Gen.hostOps0]; after_results; rfl
  exact e.trans (Cert.Kan.layW1 16 1024 rfl _ shapeCasts_S1024x2x1_S1024x2 shapeCasts_S1024x2_S64x16x2 transposes_S64x16x2_S2x64x16_2_0_1)

theorem V_main_v18 (c : Dev nD) :
    (V m c main_v18 : S2x64x16.Idx → EReal) = Cert.Kan.relaidB 16 1024 rfl (m ((c : Thread nD τ).loc main_arg8)) := by
  have e : (V m c main_v18 : S2x64x16.Idx → EReal) = transpose S2x64x16 [2, 0, 1] (shapeCast S64x16x2 (m ((c : Thread nD τ).loc main_arg8)) shapeCasts_S1024x2_S64x16x2) transposes_S64x16x2_S2x64x16_2_0_1 := by
    dsimp only [GenP.V, Gen.hostOps0]; after_results; rfl
  exact e.trans (Cert.Kan.layB 16 1024 rfl _ shapeCasts_S1024x2_S64x16x2 transposes_S64x16x2_S2x64x16_2_0_1)

theorem V_main_v20 (c : Dev nD) :
    (V m c main_v20 : S2x2x64x16.Idx → EReal) = Cert.Kan.relaidW2 16 1024 rfl (m ((c : Thread nD τ).loc main_arg9)) := by
  have e : (V m c main_v20 : S2x2x64x16.Idx → EReal) = transpose S2x2x64x16 [2, 3, 0, 1] (shapeCast S64x16x2x2 (m ((c : Thread nD τ).loc main_arg9)) shapeCasts_S1024x2x2_S64x16x2x2) transposes_S64x16x2x2_S2x2x64x16_2_3_0_1 := by
    dsimp only [GenP.V, Gen.hostOps0]; after_results; rfl
  exact e.trans (Cert.Kan.layW2 16 1024 rfl _ shapeCasts_S1024x2x2_S64x16x2x2 transposes_S64x16x2x2_S2x2x64x16_2_3_0_1)

theorem V_main_v22 (c : Dev nD) :
    (V m c main_v22 : S2x64x16.Idx → EReal) = Cert.Kan.relaidB 16 1024 rfl (m ((c : Thread nD τ).loc main_arg10)) := by
  have e : (V m c main_v22 : S2x64x16.Idx → EReal) = transpose S2x64x16 [2, 0, 1] (shapeCast S64x16x2 (m ((c : Thread nD τ).loc main_arg10)) shapeCasts_S1024x2_S64x16x2) transposes_S64x16x2_S2x64x16_2_0_1 := by
    dsimp only [GenP.V, Gen.hostOps0]; after_results; rfl
  exact e.trans (Cert.Kan.layB 16 1024 rfl _ shapeCasts_S1024x2_S64x16x2 transposes_S64x16x2_S2x64x16_2_0_1)

theorem V_main_v25 (c : Dev nD) :
    (V m c main_v25 : S2x64x16.Idx → EReal) = Cert.Kan.relaidW3 16 1024 rfl (m ((c : Thread nD τ).loc main_arg11)) := by
  have e : (V m c main_v25 : S2x64x16.Idx → EReal) = transpose S2x64x16 [2, 0, 1] (shapeCast S64x16x2 (shapeCast S1024x2 (m ((c : Thread nD τ).loc main_arg11)) shapeCasts_S1024x1x2_S1024x2) shapeCasts_S1024x2_S64x16x2) transposes_S64x16x2_S2x64x16_2_0_1 := by
    dsimp only [GenP.V, Gen.hostOps0]; after_results; rfl
  exact e.trans (Cert.Kan.layW3 16 1024 rfl _ shapeCasts_S1024x1x2_S1024x2 shapeCasts_S1024x2_S64x16x2 transposes_S64x16x2_S2x64x16_2_0_1)

theorem V_main_v27 (c : Dev nD) :
    (V m c main_v27 : S64x16.Idx → EReal) = Cert.Kan.relaidB3 16 1024 rfl (m ((c : Thread nD τ).loc main_arg12)) := by
  have e : (V m c main_v27 : S64x16.Idx → EReal) = shapeCast S64x16 (shapeCast S1024 (m ((c : Thread nD τ).loc main_arg12)) shapeCasts_S1024x1_S1024) shapeCasts_S1024_S64x16 := by
    dsimp only [GenP.V, Gen.hostOps0]; after_results; rfl
  exact e.trans (Cert.Kan.layB3 16 1024 rfl _ shapeCasts_S1024x1_S1024 shapeCasts_S1024_S64x16)

end Cert.KernelIdeal.HostPrep

end
-- ==== Proof.KernelValue.lean ====
/-
  From blocks to the array. The kernel runs over 32 grid points; point t is handed rows 512 t … 512 t + 511 of x and the
  twelve re-laid parameter arrays whole, and writes rows 512 t … 512 t + 511 of the result. Its body's result on those
  blocks is `Cert.Kan.block`; the re-laid arrays are the originals re-indexed, so that block is the restriction of the one
  function `Cert.Kan.G` of the thirteen argument arrays to those rows. The 32 row blocks cover the result, so the result
  array ends holding G, and the run's post-state says so.
-/
import proofs.«180360_j71794673320509_1_alg».proof.Proof.FrameIdeal
import proofs.«180360_j71794673320509_1_alg».proof.Proof.ValueIdeal
import proofs.«180360_j71794673320509_1_alg».proof.Proof.Relaid
import proofs.«180360_j71794673320509_1_alg».proof.Proof.KanBody
import proofs.«180360_j71794673320509_1_alg».proof.Proof.HostPrep
import Idealize.ShloMosaic.Lib.Pipeline.Value
import Idealize.ShloMosaic.Lib.ValueIdx

noncomputable section

namespace Cert.KernelIdeal.KanValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx
open Cert.Kan

/-! ## One entry of a block is one entry of G -/

/-- One entry of a grid point's output block, computed from the re-laid parameter arrays and a block X of inputs whose
    row r is row b of x, is the whole function at (b, o): each chain over re-laid arrays is the layer over the originals. -/
theorem block_relaid_apply
    (x : (⟨2, ![16384, 64]⟩ : Shape).Idx → EReal)
    (W1 : (⟨3, ![4096, 2, 1]⟩ : Shape).Idx → EReal) (b1 : (⟨2, ![4096, 2]⟩ : Shape).Idx → EReal)
    (W2 : (⟨3, ![4096, 2, 2]⟩ : Shape).Idx → EReal) (b2 : (⟨2, ![4096, 2]⟩ : Shape).Idx → EReal)
    (W3 : (⟨3, ![4096, 1, 2]⟩ : Shape).Idx → EReal) (b3 : (⟨2, ![4096, 1]⟩ : Shape).Idx → EReal)
    (V1 : (⟨3, ![1024, 2, 1]⟩ : Shape).Idx → EReal) (c1 : (⟨2, ![1024, 2]⟩ : Shape).Idx → EReal)
    (V2 : (⟨3, ![1024, 2, 2]⟩ : Shape).Idx → EReal) (c2 : (⟨2, ![1024, 2]⟩ : Shape).Idx → EReal)
    (V3 : (⟨3, ![1024, 1, 2]⟩ : Shape).Idx → EReal) (c3 : (⟨2, ![1024, 1]⟩ : Shape).Idx → EReal)
    (X : (⟨2, ![512, 64]⟩ : Shape).Idx → EReal) (r : Fin 512) (o : Fin 16) (b : Fin 16384)
    (hX : ∀ i : Fin 64, X (ix2 r i) = x (ix2 b i)) :
    block z0 X (relaidW1 64 4096 rfl W1) (relaidB 64 4096 rfl b1) (relaidW2 64 4096 rfl W2) (relaidB 64 4096 rfl b2)
        (relaidW3 64 4096 rfl W3) (relaidB3 64 4096 rfl b3)
        (relaidW1 16 1024 rfl V1) (relaidB 16 1024 rfl c1) (relaidW2 16 1024 rfl V2) (relaidB 16 1024 rfl c2)
        (relaidW3 16 1024 rfl V3) (relaidB3 16 1024 rfl c3) (ix2 r o)
      = G x W1 b1 W2 b2 W3 b3 V1 c1 V2 c2 V3 c3 (ix2 b o) := by
  show chainLayer z0 (relaidW1 16 1024 rfl V1) (relaidB 16 1024 rfl c1) (relaidW2 16 1024 rfl V2) (relaidB 16 1024 rfl c2)
        (relaidW3 16 1024 rfl V3) (relaidB3 16 1024 rfl c3)
        (fun j => chainLayer z0 (relaidW1 64 4096 rfl W1) (relaidB 64 4096 rfl b1) (relaidW2 64 4096 rfl W2)
          (relaidB 64 4096 rfl b2) (relaidW3 64 4096 rfl W3) (relaidB3 64 4096 rfl b3) (fun i => X (ix2 r i)) j) o
      = layer 16 1024 rfl z0 V1 c1 V2 c2 V3 c3
        (fun j => layer 64 4096 rfl z0 W1 b1 W2 b2 W3 b3 (fun i => x (ix2 b i)) j) o
  rw [chainLayer_relaid]
  refine congrArg (fun u => layer 16 1024 rfl z0 V1 c1 V2 c2 V3 c3 u o) (funext fun j => ?_)
  rw [chainLayer_relaid]
  exact congrArg (fun u => layer 64 4096 rfl z0 W1 b1 W2 b2 W3 b3 u j) (funext fun i => hX i)

/-- The same with the twelve parameter blocks and the two indices as variables tied by equations: the form a grid point's
    blocks and a block's place in the array are fed into. -/
theorem block_at
    (x : (⟨2, ![16384, 64]⟩ : Shape).Idx → EReal)
    (W1 : (⟨3, ![4096, 2, 1]⟩ : Shape).Idx → EReal) (b1 : (⟨2, ![4096, 2]⟩ : Shape).Idx → EReal)
    (W2 : (⟨3, ![4096, 2, 2]⟩ : Shape).Idx → EReal) (b2 : (⟨2, ![4096, 2]⟩ : Shape).Idx → EReal)
    (W3 : (⟨3, ![4096, 1, 2]⟩ : Shape).Idx → EReal) (b3 : (⟨2, ![4096, 1]⟩ : Shape).Idx → EReal)
    (V1 : (⟨3, ![1024, 2, 1]⟩ : Shape).Idx → EReal) (c1 : (⟨2, ![1024, 2]⟩ : Shape).Idx → EReal)
    (V2 : (⟨3, ![1024, 2, 2]⟩ : Shape).Idx → EReal) (c2 : (⟨2, ![1024, 2]⟩ : Shape).Idx → EReal)
    (V3 : (⟨3, ![1024, 1, 2]⟩ : Shape).Idx → EReal) (c3 : (⟨2, ![1024, 1]⟩ : Shape).Idx → EReal)
    (X : (⟨2, ![512, 64]⟩ : Shape).Idx → EReal)
    (P1 Q1 : (⟨3, ![2, 64, 64]⟩ : Shape).Idx → EReal) (P2 : (⟨4, ![2, 2, 64, 64]⟩ : Shape).Idx → EReal)
    (Q2 P3 : (⟨3, ![2, 64, 64]⟩ : Shape).Idx → EReal) (Q3 : (⟨2, ![64, 64]⟩ : Shape).Idx → EReal)
    (R1 S1 : (⟨3, ![2, 64, 16]⟩ : Shape).Idx → EReal) (R2 : (⟨4, ![2, 2, 64, 16]⟩ : Shape).Idx → EReal)
    (S2 R3 : (⟨3, ![2, 64, 16]⟩ : Shape).Idx → EReal) (S3 : (⟨2, ![64, 16]⟩ : Shape).Idx → EReal)
    (hP1 : P1 = relaidW1 64 4096 rfl W1) (hQ1 : Q1 = relaidB 64 4096 rfl b1) (hP2 : P2 = relaidW2 64 4096 rfl W2)
    (hQ2 : Q2 = relaidB 64 4096 rfl b2) (hP3 : P3 = relaidW3 64 4096 rfl W3) (hQ3 : Q3 = relaidB3 64 4096 rfl b3)
    (hR1 : R1 = relaidW1 16 1024 rfl V1) (hS1 : S1 = relaidB 16 1024 rfl c1) (hR2 : R2 = relaidW2 16 1024 rfl V2)
    (hS2 : S2 = relaidB 16 1024 rfl c2) (hR3 : R3 = relaidW3 16 1024 rfl V3) (hS3 : S3 = relaidB3 16 1024 rfl c3)
    (r : Fin 512) (o : Fin 16) (b : Fin 16384)
    (y : (⟨2, ![512, 16]⟩ : Shape).Idx) (k : (⟨2, ![16384, 16]⟩ : Shape).Idx) (hy : y = ix2 r o) (hk : k = ix2 b o)
    (hX : ∀ i : Fin 64, X (ix2 r i) = x (ix2 b i)) :
    block z0 X P1 Q1 P2 Q2 P3 Q3 R1 S1 R2 S2 R3 S3 y = G x W1 b1 W2 b2 W3 b3 V1 c1 V2 c2 V3 c3 k := by
  subst hP1 hQ1 hP2 hQ2 hP3 hQ3 hR1 hS1 hR2 hS2 hR3 hS3 hy hk
  exact block_relaid_apply x W1 b1 W2 b2 W3 b3 V1 c1 V2 c2 V3 c3 X r o b hX

variable (m : (ℓ : Loc nD τ sig) → Buf (Elt Ideal) ℓ) (ρ : Dev nD → PrngReg)

/-! ## The index maps, decided over the 32 grid points -/

/-- The input rows and the output rows move with the point: block index (t, 0). -/
theorem idx_rows : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, _)

/-- Every parameter window sits at block index 0 on every axis, at every point. -/
theorem idx_w1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx_w2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx_w3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)
theorem idx_w4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx_w5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx_w8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx_w9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)
theorem idx_w10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx_w11 : ∀ t : Fin cfg0.N, win0_11.index t (0 : Fin 3) = 0 ∧ win0_11.index t (1 : Fin 3) = 0 ∧ win0_11.index t (2 : Fin 3) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)

/-! ## Each input block, read where its rectangle says -/

/-- Entry y of point t's block of x is entry (512 t + y₀, y₁) of x as launched: block index (t, 0), block [512, 64], and no
    host operation before the region writes x. -/
theorem xblk_apply (c : Dev nD) (t : Fin cfg0.N) (y : S512x64.Idx) (k : S16384x64.Idx)
    (hk0 : (k 0).val = 512 * t.val + (y 0).val) (hk1 : (k 1).val = (y 1).val) :
    (iblk m c 0 t : Vec Ideal S512x64 .f32) y = (m ((c : Thread nD τ).loc main_arg0) : S16384x64.Idx → EReal) k := by
  unfold iblk
  rw [View.read_apply]
  show V m c main_arg0 _ = m ((c : Thread nD τ).loc main_arg0) k
  rw [V_main_arg0]
  congr 1
  funext a; apply Fin.ext
  obtain ⟨e0, e1, -, -⟩ := idx_rows t
  match a with
  | ⟨0, _⟩ => show win0_0.index t (0 : Fin 2) * 512 + 1 * (y 0).val = (k 0).val; rw [e0, hk0]; omega
  | ⟨1, _⟩ => show win0_0.index t (1 : Fin 2) * 64 + 1 * (y 1).val = (k 1).val; rw [e1, hk1]; omega

/-- Window 1's block at every point is its whole array (W1 of layer 0, re-laid): block index 0 on every axis, block = array. -/
theorem blk1 (c : Dev nD) (t : Fin cfg0.N) : (iblk m c 1 t : Vec Ideal S2x64x64 .f32) = V m c main_v2 := by
  funext y
  unfold iblk
  rw [View.read_apply]
  show V m c main_v2 _ = V m c main_v2 y
  congr 1
  funext a; apply Fin.ext
  obtain ⟨e0, e1, e2⟩ := idx_w1 t
  match a with
  | ⟨0, _⟩ => show win0_1.index t (0 : Fin 3) * 2 + 1 * (y 0).val = (y 0).val; rw [e0]; omega
  | ⟨1, _⟩ => show win0_1.index t (1 : Fin 3) * 64 + 1 * (y 1).val = (y 1).val; rw [e1]; omega
  | ⟨2, _⟩ => show win0_1.index t (2 : Fin 3) * 64 + 1 * (y 2).val = (y 2).val; rw [e2]; omega

/-- Window 2's block at every point is its whole array (b1 of layer 0, re-laid): block index 0 on every axis, block = array. -/
theorem blk2 (c : Dev nD) (t : Fin cfg0.N) : (iblk m c 2 t : Vec Ideal S2x64x64 .f32) = V m c main_v4 := by
  funext y
  unfold iblk
  rw [View.read_apply]
  show V m c main_v4 _ = V m c main_v4 y
  congr 1
  funext a; apply Fin.ext
  obtain ⟨e0, e1, e2⟩ := idx_w2 t
  match a with
  | ⟨0, _⟩ => show win0_2.index t (0 : Fin 3) * 2 + 1 * (y 0).val = (y 0).val; rw [e0]; omega
  | ⟨1, _⟩ => show win0_2.index t (1 : Fin 3) * 64 + 1 * (y 1).val = (y 1).val; rw [e1]; omega
  | ⟨2, _⟩ => show win0_2.index t (2 : Fin 3) * 64 + 1 * (y 2).val = (y 2).val; rw [e2]; omega

/-- Window 3's block at every point is its whole array (W2 of layer 0, re-laid): block index 0 on every axis, block = array. -/
theorem blk3 (c : Dev nD) (t : Fin cfg0.N) : (iblk m c 3 t : Vec Ideal S2x2x64x64 .f32) = V m c main_v6 := by
  funext y
  unfold iblk
  rw [View.read_apply]
  show V m c main_v6 _ = V m c main_v6 y
  congr 1
  funext a; apply Fin.ext
  obtain ⟨e0, e1, e2, e3⟩ := idx_w3 t
  match a with
  | ⟨0, _⟩ => show win0_3.index t (0 : Fin 4) * 2 + 1 * (y 0).val = (y 0).val; rw [e0]; omega
  | ⟨1, _⟩ => show win0_3.index t (1 : Fin 4) * 2 + 1 * (y 1).val = (y 1).val; rw [e1]; omega
  | ⟨2, _⟩ => show win0_3.index t (2 : Fin 4) * 64 + 1 * (y 2).val = (y 2).val; rw [e2]; omega
  | ⟨3, _⟩ => show win0_3.index t (3 : Fin 4) * 64 + 1 * (y 3).val = (y 3).val; rw [e3]; omega

/-- Window 4's block at every point is its whole array (b2 of layer 0, re-laid): block index 0 on every axis, block = array. -/
theorem blk4 (c : Dev nD) (t : Fin cfg0.N) : (iblk m c 4 t : Vec Ideal S2x64x64 .f32) = V m c main_v8 := by
  funext y
  unfold iblk
  rw [View.read_apply]
  show V m c main_v8 _ = V m c main_v8 y
  congr 1
  funext a; apply Fin.ext
  obtain ⟨e0, e1, e2⟩ := idx_w4 t
  match a with
  | ⟨0, _⟩ => show win0_4.index t (0 : Fin 3) * 2 + 1 * (y 0).val = (y 0).val; rw [e0]; omega
  | ⟨1, _⟩ => show win0_4.index t (1 : Fin 3) * 64 + 1 * (y 1).val = (y 1).val; rw [e1]; omega
  | ⟨2, _⟩ => show win0_4.index t (2 : Fin 3) * 64 + 1 * (y 2).val = (y 2).val; rw [e2]; omega

/-- Window 5's block at every point is its whole array (W3 of layer 0, re-laid): block index 0 on every axis, block = array. -/
theorem blk5 (c : Dev nD) (t : Fin cfg0.N) : (iblk m c 5 t : Vec Ideal S2x64x64 .f32) = V m c main_v11 := by
  funext y
  unfold iblk
  rw [View.read_apply]
  show V m c main_v11 _ = V m c main_v11 y
  congr 1
  funext a; apply Fin.ext
  obtain ⟨e0, e1, e2⟩ := idx_w5 t
  match a with
  | ⟨0, _⟩ => show win0_5.index t (0 : Fin 3) * 2 + 1 * (y 0).val = (y 0).val; rw [e0]; omega
  | ⟨1, _⟩ => show win0_5.index t (1 : Fin 3) * 64 + 1 * (y 1).val = (y 1).val; rw [e1]; omega
  | ⟨2, _⟩ => show win0_5.index t (2 : Fin 3) * 64 + 1 * (y 2).val = (y 2).val; rw [e2]; omega

/-- Window 6's block at every point is its whole array (b3 of layer 0, re-laid): block index 0 on every axis, block = array. -/
theorem blk6 (c : Dev nD) (t : Fin cfg0.N) : (iblk m c 6 t : Vec Ideal S64x64 .f32) = V m c main_v13 := by
  funext y
  unfold iblk
  rw [View.read_apply]
  show V m c main_v13 _ = V m c main_v13 y
  congr 1
  funext a; apply Fin.ext
  obtain ⟨e0, e1⟩ := idx_w6 t
  match a with
  | ⟨0, _⟩ => show win0_6.index t (0 : Fin 2) * 64 + 1 * (y 0).val = (y 0).val; rw [e0]; omega
  | ⟨1, _⟩ => show win0_6.index t (1 : Fin 2) * 64 + 1 * (y 1).val = (y 1).val; rw [e1]; omega

/-- Window 7's block at every point is its whole array (W1 of layer 1, re-laid): block index 0 on every axis, block = array. -/
theorem blk7 (c : Dev nD) (t : Fin cfg0.N) : (iblk m c 7 t : Vec Ideal S2x64x16 .f32) = V m c main_v16 := by
  funext y
  unfold iblk
  rw [View.read_apply]
  show V m c main_v16 _ = V m c main_v16 y
  congr 1
  funext a; apply Fin.ext
  obtain ⟨e0, e1, e2⟩ := idx_w7 t
  match a with
  | ⟨0, _⟩ => show win0_7.index t (0 : Fin 3) * 2 + 1 * (y 0).val = (y 0).val; rw [e0]; omega
  | ⟨1, _⟩ => show win0_7.index t (1 : Fin 3) * 64 + 1 * (y 1).val = (y 1).val; rw [e1]; omega
  | ⟨2, _⟩ => show win0_7.index t (2 : Fin 3) * 16 + 1 * (y 2).val = (y 2).val; rw [e2]; omega

/-- Window 8's block at every point is its whole array (b1 of layer 1, re-laid): block index 0 on every axis, block = array. -/
theorem blk8 (c : Dev nD) (t : Fin cfg0.N) : (iblk m c 8 t : Vec Ideal S2x64x16 .f32) = V m c main_v18 := by
  funext y
  unfold iblk
  rw [View.read_apply]
  show V m c main_v18 _ = V m c main_v18 y
  congr 1
  funext a; apply Fin.ext
  obtain ⟨e0, e1, e2⟩ := idx_w8 t
  match a with
  | ⟨0, _⟩ => show win0_8.index t (0 : Fin 3) * 2 + 1 * (y 0).val = (y 0).val; rw [e0]; omega
  | ⟨1, _⟩ => show win0_8.index t (1 : Fin 3) * 64 + 1 * (y 1).val = (y 1).val; rw [e1]; omega
  | ⟨2, _⟩ => show win0_8.index t (2 : Fin 3) * 16 + 1 * (y 2).val = (y 2).val; rw [e2]; omega

/-- Window 9's block at every point is its whole array (W2 of layer 1, re-laid): block index 0 on every axis, block = array. -/
theorem blk9 (c : Dev nD) (t : Fin cfg0.N) : (iblk m c 9 t : Vec Ideal S2x2x64x16 .f32) = V m c main_v20 := by
  funext y
  unfold iblk
  rw [View.read_apply]
  show V m c main_v20 _ = V m c main_v20 y
  congr 1
  funext a; apply Fin.ext
  obtain ⟨e0, e1, e2, e3⟩ := idx_w9 t
  match a with
  | ⟨0, _⟩ => show win0_9.index t (0 : Fin 4) * 2 + 1 * (y 0).val = (y 0).val; rw [e0]; omega
  | ⟨1, _⟩ => show win0_9.index t (1 : Fin 4) * 2 + 1 * (y 1).val = (y 1).val; rw [e1]; omega
  | ⟨2, _⟩ => show win0_9.index t (2 : Fin 4) * 64 + 1 * (y 2).val = (y 2).val; rw [e2]; omega
  | ⟨3, _⟩ => show win0_9.index t (3 : Fin 4) * 16 + 1 * (y 3).val = (y 3).val; rw [e3]; omega

/-- Window 10's block at every point is its whole array (b2 of layer 1, re-laid): block index 0 on every axis, block = array. -/
theorem blk10 (c : Dev nD) (t : Fin cfg0.N) : (iblk m c 10 t : Vec Ideal S2x64x16 .f32) = V m c main_v22 := by
  funext y
  unfold iblk
  rw [View.read_apply]
  show V m c main_v22 _ = V m c main_v22 y
  congr 1
  funext a; apply Fin.ext
  obtain ⟨e0, e1, e2⟩ := idx_w10 t
  match a with
  | ⟨0, _⟩ => show win0_10.index t (0 : Fin 3) * 2 + 1 * (y 0).val = (y 0).val; rw [e0]; omega
  | ⟨1, _⟩ => show win0_10.index t (1 : Fin 3) * 64 + 1 * (y 1).val = (y 1).val; rw [e1]; omega
  | ⟨2, _⟩ => show win0_10.index t (2 : Fin 3) * 16 + 1 * (y 2).val = (y 2).val; rw [e2]; omega

/-- Window 11's block at every point is its whole array (W3 of layer 1, re-laid): block index 0 on every axis, block = array. -/
theorem blk11 (c : Dev nD) (t : Fin cfg0.N) : (iblk m c 11 t : Vec Ideal S2x64x16 .f32) = V m c main_v25 := by
  funext y
  unfold iblk
  rw [View.read_apply]
  show V m c main_v25 _ = V m c main_v25 y
  congr 1
  funext a; apply Fin.ext
  obtain ⟨e0, e1, e2⟩ := idx_w11 t
  match a with
  | ⟨0, _⟩ => show win0_11.index t (0 : Fin 3) * 2 + 1 * (y 0).val = (y 0).val; rw [e0]; omega
  | ⟨1, _⟩ => show win0_11.index t (1 : Fin 3) * 64 + 1 * (y 1).val = (y 1).val; rw [e1]; omega
  | ⟨2, _⟩ => show win0_11.index t (2 : Fin 3) * 16 + 1 * (y 2).val = (y 2).val; rw [e2]; omega

/-- Window 12's block at every point is its whole array (b3 of layer 1, re-laid): block index 0 on every axis, block = array. -/
theorem blk12 (c : Dev nD) (t : Fin cfg0.N) : (iblk m c 12 t : Vec Ideal S64x16 .f32) = V m c main_v27 := by
  funext y
  unfold iblk
  rw [View.read_apply]
  show V m c main_v27 _ = V m c main_v27 y
  congr 1
  funext a; apply Fin.ext
  obtain ⟨e0, e1⟩ := idx_w12 t
  match a with
  | ⟨0, _⟩ => show win0_12.index t (0 : Fin 2) * 64 + 1 * (y 0).val = (y 0).val; rw [e0]; omega
  | ⟨1, _⟩ => show win0_12.index t (1 : Fin 2) * 16 + 1 * (y 1).val = (y 1).val; rw [e1]; omega

/-! ## What a point writes back is its rows of G -/

/-- Row 512 t + r of the arrays, for r inside a block: below 16384 because t is below 32. -/
theorem row_lt (t : Fin cfg0.N) (r : Fin 512) : 512 * t.val + r.val < 16384 := by
  have hN : cfg0.N = 32 := N_0
  have ht : t.val < cfg0.N := t.isLt
  have hr : r.val < 512 := r.isLt
  omega

/-- Entry y of point t's output block sits in the result at (512 t + y₀, y₁). -/
theorem out_emb (t : Fin cfg0.N) (y : S512x16.Idx) :
    (((cfg0.win 13).blk t).view.emb y : S16384x16.Idx) = ix2 (⟨512 * t.val + (y 0).val, row_lt t (y 0)⟩ : Fin 16384) (y 1) := by
  funext a; apply Fin.ext
  obtain ⟨-, -, e0, e1⟩ := idx_rows t
  match a with
  | ⟨0, _⟩ => show win0_13.index t (0 : Fin 2) * 512 + 1 * (y 0).val = 512 * t.val + (y 0).val; rw [e0]; omega
  | ⟨1, _⟩ => show win0_13.index t (1 : Fin 2) * 16 + 1 * (y 1).val = (y 1).val; rw [e1]; omega

/-- The body's result on point t's blocks, at entry y of the output block, is G of the arguments at the place of the
    result that entry is written to. -/
theorem flushed_point (c : Dev nD) (t : Fin cfg0.N) (y : S512x16.Idx) :
    block z0 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) y
      = Cert.Kan.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
        (((cfg0.win 13).blk t).view.emb y) :=
  block_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t)
    ((blk1 m c t).trans (HostPrep.V_main_v2 m c))
    ((blk2 m c t).trans (HostPrep.V_main_v4 m c))
    ((blk3 m c t).trans (HostPrep.V_main_v6 m c))
    ((blk4 m c t).trans (HostPrep.V_main_v8 m c))
    ((blk5 m c t).trans (HostPrep.V_main_v11 m c))
    ((blk6 m c t).trans (HostPrep.V_main_v13 m c))
    ((blk7 m c t).trans (HostPrep.V_main_v16 m c))
    ((blk8 m c t).trans (HostPrep.V_main_v18 m c))
    ((blk9 m c t).trans (HostPrep.V_main_v20 m c))
    ((blk10 m c t).trans (HostPrep.V_main_v22 m c))
    ((blk11 m c t).trans (HostPrep.V_main_v25 m c))
    ((blk12 m c t).trans (HostPrep.V_main_v27 m c))
    (y 0) (y 1) ⟨512 * t.val + (y 0).val, row_lt t (y 0)⟩ y (((cfg0.win 13).blk t).view.emb y) (eq_ix2 y) (out_emb t y)
    (fun i => xblk_apply m c t (ix2 (y 0) i) (ix2 ⟨512 * t.val + (y 0).val, row_lt t (y 0)⟩ i) rfl rfl)

/-- WHAT POINT t WRITES BACK is block t of G of the argument arrays. -/
theorem flushed_eq (c : Dev nD) (t : Fin cfg0.N) :
    (dats m 0 c).flushed 13 t = ((cfg0.win 13).blk t).view.read (Elt Ideal)
      (Cert.Kan.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  rw [ValueP.flushed13 m c t, KanBody.out_eq (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (iblk m c 12 t)]
  funext y
  show block z0 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) y
      = Cert.Kan.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
        (((cfg0.win 13).blk t).view.emb y)
  exact flushed_point m c t y

/-! ## The blocks cover the result -/

/-- An index of the result is in point t's block iff each coordinate is in the block's range on its axis. -/
theorem mem_blk (t : Fin cfg0.N) (i : S16384x16.Idx) :
    i ∈ ((cfg0.win 13).blk t).view.set ↔ ∀ a : Fin 2, win0_13.index t a * S512x16.size a ≤ (i a).val ∧ (i a).val < win0_13.index t a * S512x16.size a + S512x16.size a := by
  show i ∈ ((View.whole main_v28).slice (win0_13.rect t)).set ↔ _
  rw [View.set_slice_whole, Rect.mem_set_unit]
  exact Iff.rfl

/-- Row b of the result is in the block of point b / 512, and every point writes back. -/
theorem cover (i : S16384x16.Idx) : ∃ t : Fin cfg0.N, (cfg0.win 13).flush t = true ∧ i ∈ ((cfg0.win 13).blk t).view.set := by
  have hN : cfg0.N = 32 := N_0
  have h0 : (i 0).val < 16384 := (i 0).isLt
  have h1 : (i 1).val < 16 := (i 1).isLt
  refine ⟨⟨(i 0).val / 512, by rw [hN]; omega⟩, flush0_13 _, ?_⟩
  rw [mem_blk]
  obtain ⟨-, -, e0, e1⟩ := idx_rows ⟨(i 0).val / 512, by rw [hN]; omega⟩
  intro a
  match a with
  | ⟨0, _⟩ =>
    show win0_13.index _ (0 : Fin 2) * 512 ≤ (i 0).val ∧ (i 0).val < win0_13.index _ (0 : Fin 2) * 512 + 512
    rw [e0]
    show (i 0).val / 512 * 512 ≤ (i 0).val ∧ (i 0).val < (i 0).val / 512 * 512 + 512
    omega
  | ⟨1, _⟩ =>
    show win0_13.index _ (1 : Fin 2) * 16 ≤ (i 1).val ∧ (i 1).val < win0_13.index _ (1 : Fin 2) * 16 + 16
    rw [e1]
    omega

/-! ## The result array, and the run -/

/-- THE RESULT ARRAY after the run is G of the thirteen argument arrays as launched. -/
theorem final (c : Dev nD) : (dats m 0 c).arrAt 13 cfg0.N = Cert.Kan.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 13
    (Cert.Kan.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
    (fun t _ => flushed_eq m c t) cover

/-- The kernel's run: the result array at G of the arguments, the arguments unchanged. -/
theorem run : θ_run defs (onTc (τ := τ) (main (F := Ideal))) ⟨m, fun _ => 0, ρ⟩ fun r => ∀ c : Dev nD,
      r.2.mem ((c : Thread nD τ).loc main_v28) = Cert.Kan.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Cert.KernelIdeal.ValueP.run_blocks m ρ)

end Cert.KernelIdeal.KanValue

end
-- ==== Proof.RefValue.lean ====
import proofs.«180360_j71794673320509_1_alg».proof.Proof.Gen.ReferenceIdeal.Read
import proofs.«180360_j71794673320509_1_alg».proof.Proof.Spec
import Idealize.ShloMosaic.Lib.ValueIdx
import Mathlib.Algebra.BigOperators.Fin

/-
  The reference program computes the specification `Cert.Kan.G`.

  Per layer the reference lays the batch out along the last axis: it transposes the input to [in, B], repeats it over the
  layer's outputs to [in, out, B] and flattens the first two axes, so that row i * out + o of the flattened array is input
  i of every batch row, fed to edge (i, o). The three batched products contract an axis of size 1, 2 and 2: written out
  they are the two hidden units, the two second-layer units and the edge's output, i.e. `mlp` with the parameters of row
  i * out + o. Unflattening and summing over the first axis from the zero word is `layer`; the closing transpose puts
  the batch first again. Layer 1 reads layer 0's result in the same way.

  Every stage is read at an index given by explicit coordinates; the only arithmetic is the division and remainder by
  16384 (the batch) and by the number of outputs that flattening and unflattening introduce.
-/

noncomputable section

open scoped BigOperators

namespace Cert.ReferenceIdeal.RefValue

open Cert.ReferenceIdeal Cert.ReferenceIdeal.Gen Cert.ReferenceIdeal.Read Cert.Kan
open Idealize.ShloMosaic Idealize.ShloMosaic.ValueIdx Idealize.ShloMosaic.TcCoe Idealize.SL.Sem Idealize.ShloMosaic.StableHlo

/-! ### Indices with equal coordinates are equal -/

theorem ext2 {n0 n1 : Nat} {i j : (⟨2, ![n0, n1]⟩ : Shape).Idx}
    (h0 : (i 0).val = (j 0).val) (h1 : (i 1).val = (j 1).val) : i = j := by
  funext a
  match a with
  | ⟨0, _⟩ => exact Fin.ext h0
  | ⟨1, _⟩ => exact Fin.ext h1

theorem ext3 {n0 n1 n2 : Nat} {i j : (⟨3, ![n0, n1, n2]⟩ : Shape).Idx}
    (h0 : (i 0).val = (j 0).val) (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

variable
  (x0 : (⟨S16384x64, .f32⟩ : BufTy).Contents (Elt Ideal))
  (x1 : (⟨S4096x2x1, .f32⟩ : BufTy).Contents (Elt Ideal))
  (x2 : (⟨S4096x2, .f32⟩ : BufTy).Contents (Elt Ideal))
  (x3 : (⟨S4096x2x2, .f32⟩ : BufTy).Contents (Elt Ideal))
  (x4 : (⟨S4096x2, .f32⟩ : BufTy).Contents (Elt Ideal))
  (x5 : (⟨S4096x1x2, .f32⟩ : BufTy).Contents (Elt Ideal))
  (x6 : (⟨S4096x1, .f32⟩ : BufTy).Contents (Elt Ideal))
  (x7 : (⟨S1024x2x1, .f32⟩ : BufTy).Contents (Elt Ideal))
  (x8 : (⟨S1024x2, .f32⟩ : BufTy).Contents (Elt Ideal))
  (x9 : (⟨S1024x2x2, .f32⟩ : BufTy).Contents (Elt Ideal))
  (x10 : (⟨S1024x2, .f32⟩ : BufTy).Contents (Elt Ideal))
  (x11 : (⟨S1024x1x2, .f32⟩ : BufTy).Contents (Elt Ideal))
  (x12 : (⟨S1024x1, .f32⟩ : BufTy).Contents (Elt Ideal))

/-! ### Layer with 64 outputs (4096 edges): one edge's network at one batch row -/

/-- The zero the first clamp compares with. -/
theorem zeroA0 (i : S4096x16384x2.Idx) : val_main_call0_v0 (F := Ideal) i = z0 := by
  rw [val_main_call0_v0_apply]; rfl

/-- The zero the second clamp compares with. -/
theorem zeroB0 (i : S4096x16384x2.Idx) : val_main_call1_v0 (F := Ideal) i = z0 := by
  rw [val_main_call1_v0_apply]; rfl

/-- The unit axis added before the first product carries the same entry. -/
theorem unit0 (n : Fin 4096) (b : Fin 16384) :
    val_main_v3 (F := Ideal) x0 (ix3 n b (0 : Fin 1)) = val_main_v2 (F := Ideal) x0 (ix2 n b) := by
  rw [val_main_v3_apply]
  exact congrArg (val_main_v2 (F := Ideal) x0) (ext2 rfl rfl)

/-- First product: the entry times the hidden unit's weight. -/
theorem dot10 (n : Fin 4096) (b : Fin 16384) (h : Fin 2) :
    val_main_v4 (F := Ideal) x0 x1 (ix3 n b h) = val_main_v2 (F := Ideal) x0 (ix2 n b) * x1 (ix3 n h (0 : Fin 1)) := by
  rw [val_main_v4_apply, Fin.sum_univ_one,
    show lidx_main_v4 (ix3 n b h) (0 : Fin 1) = ix3 n b (0 : Fin 1) from ext3 rfl rfl rfl,
    show ridx_main_v4 (ix3 n b h) (0 : Fin 1) = ix3 n h (0 : Fin 1) from ext3 rfl rfl rfl, unit0]

/-- First bias, broadcast along the batch. -/
theorem bias10 (n : Fin 4096) (b : Fin 16384) (h : Fin 2) :
    val_main_v6 (F := Ideal) x2 (ix3 n b h) = x2 (ix2 n h) := by
  rw [val_main_v6_apply, val_main_v5_apply]
  exact congrArg x2 (ext2 rfl rfl)

/-- First hidden layer: relu of the affine map. -/
theorem hid10 (n : Fin 4096) (b : Fin 16384) (h : Fin 2) :
    val_main_v8 (F := Ideal) x0 x1 x2 (ix3 n b h) = max (val_main_v2 (F := Ideal) x0 (ix2 n b) * x1 (ix3 n h (0 : Fin 1)) + x2 (ix2 n h)) z0 := by
  rw [val_main_v8_apply, val_main_v7_apply, dot10, bias10, zeroA0]; rfl

/-- Second product: the two hidden units against row h of the second weights. -/
theorem dot20 (n : Fin 4096) (b : Fin 16384) (h : Fin 2) :
    val_main_v9 (F := Ideal) x0 x1 x2 x3 (ix3 n b h)
      = val_main_v8 (F := Ideal) x0 x1 x2 (ix3 n b (0 : Fin 2)) * x3 (ix3 n h (0 : Fin 2))
        + val_main_v8 (F := Ideal) x0 x1 x2 (ix3 n b (1 : Fin 2)) * x3 (ix3 n h (1 : Fin 2)) := by
  rw [val_main_v9_apply, Fin.sum_univ_two,
    show lidx_main_v9 (ix3 n b h) (0 : Fin 2) = ix3 n b (0 : Fin 2) from ext3 rfl rfl rfl,
    show lidx_main_v9 (ix3 n b h) (1 : Fin 2) = ix3 n b (1 : Fin 2) from ext3 rfl rfl rfl,
    show ridx_main_v9 (ix3 n b h) (0 : Fin 2) = ix3 n h (0 : Fin 2) from ext3 rfl rfl rfl,
    show ridx_main_v9 (ix3 n b h) (1 : Fin 2) = ix3 n h (1 : Fin 2) from ext3 rfl rfl rfl]

/-- Second bias, broadcast along the batch. -/
theorem bias20 (n : Fin 4096) (b : Fin 16384) (h : Fin 2) :
    val_main_v11 (F := Ideal) x4 (ix3 n b h) = x4 (ix2 n h) := by
  rw [val_main_v11_apply, val_main_v10_apply]
  exact congrArg x4 (ext2 rfl rfl)

/-- Second hidden layer. -/
theorem hid20 (n : Fin 4096) (b : Fin 16384) (h : Fin 2) :
    val_main_v13 (F := Ideal) x0 x1 x2 x3 x4 (ix3 n b h)
      = max (val_main_v8 (F := Ideal) x0 x1 x2 (ix3 n b (0 : Fin 2)) * x3 (ix3 n h (0 : Fin 2))
          + val_main_v8 (F := Ideal) x0 x1 x2 (ix3 n b (1 : Fin 2)) * x3 (ix3 n h (1 : Fin 2)) + x4 (ix2 n h)) z0 := by
  rw [val_main_v13_apply, val_main_v12_apply, dot20, bias20, zeroB0]; rfl

/-- Third product: the two second-layer units against the output weights. -/
theorem dot30 (n : Fin 4096) (b : Fin 16384) :
    val_main_v14 (F := Ideal) x0 x1 x2 x3 x4 x5 (ix3 n b (0 : Fin 1))
      = val_main_v13 (F := Ideal) x0 x1 x2 x3 x4 (ix3 n b (0 : Fin 2)) * x5 (ix3 n (0 : Fin 1) (0 : Fin 2))
        + val_main_v13 (F := Ideal) x0 x1 x2 x3 x4 (ix3 n b (1 : Fin 2)) * x5 (ix3 n (0 : Fin 1) (1 : Fin 2)) := by
  rw [val_main_v14_apply, Fin.sum_univ_two,
    show lidx_main_v14 (ix3 n b (0 : Fin 1)) (0 : Fin 2) = ix3 n b (0 : Fin 2) from ext3 rfl rfl rfl,
    show lidx_main_v14 (ix3 n b (0 : Fin 1)) (1 : Fin 2) = ix3 n b (1 : Fin 2) from ext3 rfl rfl rfl,
    show ridx_main_v14 (ix3 n b (0 : Fin 1)) (0 : Fin 2) = ix3 n (0 : Fin 1) (0 : Fin 2) from ext3 rfl rfl rfl,
    show ridx_main_v14 (ix3 n b (0 : Fin 1)) (1 : Fin 2) = ix3 n (0 : Fin 1) (1 : Fin 2) from ext3 rfl rfl rfl]

/-- Output bias, broadcast along the batch. -/
theorem bias30 (n : Fin 4096) (b : Fin 16384) :
    val_main_v16 (F := Ideal) x6 (ix3 n b (0 : Fin 1)) = x6 (ix2 n (0 : Fin 1)) := by
  rw [val_main_v16_apply, val_main_v15_apply]
  exact congrArg x6 (ext2 rfl rfl)

/-- Edge n's network at batch row b is `mlp` of the entry it is fed, with the parameters of row n. -/
theorem edgeAt0 (n : Fin 4096) (b : Fin 16384) :
    val_main_v17 (F := Ideal) x0 x1 x2 x3 x4 x5 x6 (ix3 n b (0 : Fin 1))
      = mlp z0 (val_main_v2 (F := Ideal) x0 (ix2 n b)) (x1 (ix3 n 0 0)) (x1 (ix3 n 1 0)) (x2 (ix2 n 0)) (x2 (ix2 n 1))
          (x3 (ix3 n 0 0)) (x3 (ix3 n 0 1)) (x3 (ix3 n 1 0)) (x3 (ix3 n 1 1))
          (x4 (ix2 n 0)) (x4 (ix2 n 1)) (x5 (ix3 n 0 0)) (x5 (ix3 n 0 1)) (x6 (ix2 n 0)) := by
  rw [val_main_v17_apply, dot30, bias30, hid20, hid20, hid10, hid10]; rfl

/-- Dropping the unit axis keeps the entry. -/
theorem flat0 (n : Fin 4096) (b : Fin 16384) :
    val_main_v18 (F := Ideal) x0 x1 x2 x3 x4 x5 x6 (ix2 n b) = val_main_v17 (F := Ideal) x0 x1 x2 x3 x4 x5 x6 (ix3 n b (0 : Fin 1)) := by
  rw [val_main_v18_apply]
  have hn := n.isLt; have hb := b.isLt
  refine congrArg (val_main_v17 (F := Ideal) x0 x1 x2 x3 x4 x5 x6) (ext3 ?_ ?_ rfl)
  · show (n.val * 16384 + b.val) / 16384 = n.val
    omega
  · show (n.val * 16384 + b.val) / 1 % 16384 = b.val
    omega

/-- Splitting the edge axis: entry (i, o, b) is edge i * 64 + o at batch row b. -/
theorem split0 (i : Fin 64) (o : Fin 64) (b : Fin 16384) :
    val_main_v19 (F := Ideal) x0 x1 x2 x3 x4 x5 x6 (ix3 i o b) = val_main_v18 (F := Ideal) x0 x1 x2 x3 x4 x5 x6 (ix2 (edge 64 4096 rfl i o) b) := by
  rw [val_main_v19_apply]
  have ho := o.isLt; have hb := b.isLt
  refine congrArg (val_main_v18 (F := Ideal) x0 x1 x2 x3 x4 x5 x6) (ext2 ?_ ?_)
  · show ((i.val * 64 + o.val) * 16384 + b.val) / 16384 = i.val * 64 + o.val
    omega
  · show ((i.val * 64 + o.val) * 16384 + b.val) % 16384 = b.val
    omega

/-! ### Layer 0 as a whole -/

/-- Row i * 64 + o of the flattened, repeated, transposed input is input i of every batch row. -/
theorem feed0 (i o : Fin 64) (b : Fin 16384) :
    val_main_v2 (F := Ideal) x0 (ix2 (edge 64 4096 rfl i o) b) = x0 (ix2 b i) := by
  rw [val_main_v2_apply, val_main_v1_apply, val_main_v0_apply]
  have ho := o.isLt; have hb := b.isLt
  refine congrArg x0 (ext2 ?_ ?_)
  · show ((i.val * 64 + o.val) * 16384 + b.val) % 16384 = b.val
    omega
  · show ((i.val * 64 + o.val) * 16384 + b.val) / 1048576 = i.val
    omega

/-- Layer 0's result at batch row b, output j. -/
theorem layer0 (b : Fin 16384) (j : Fin 64) :
    val_main_v21 (F := Ideal) x0 x1 x2 x3 x4 x5 x6 (ix2 b j)
      = layer 64 4096 rfl z0 x1 x2 x3 x4 x5 x6 (fun i => x0 (ix2 b i)) j := by
  rw [val_main_v21_apply, show idx_main_v21 (ix2 b j) = ix2 j b from ext2 rfl rfl, val_main_v20_apply]
  show _ = z0 + ∑ i : Fin 64, edgeMlp 64 4096 rfl z0 x1 x2 x3 x4 x5 x6 i j (x0 (ix2 b i))
  refine congrArg₂ (· + ·) rfl (Finset.sum_congr rfl fun i _ => ?_)
  rw [show idx_main_v20 (ix2 j b) i = ix3 i j b from ext3 rfl rfl rfl, split0, flat0, edgeAt0, feed0]
  rfl

/-! ### Layer with 16 outputs (1024 edges): one edge's network at one batch row -/

/-- The zero the first clamp compares with. -/
theorem zeroA1 (i : S1024x16384x2.Idx) : val_main_call2_v0 (F := Ideal) i = z0 := by
  rw [val_main_call2_v0_apply]; rfl

/-- The zero the second clamp compares with. -/
theorem zeroB1 (i : S1024x16384x2.Idx) : val_main_call3_v0 (F := Ideal) i = z0 := by
  rw [val_main_call3_v0_apply]; rfl

/-- The unit axis added before the first product carries the same entry. -/
theorem unit1 (n : Fin 1024) (b : Fin 16384) :
    val_main_v25 (F := Ideal) x0 x1 x2 x3 x4 x5 x6 (ix3 n b (0 : Fin 1)) = val_main_v24 (F := Ideal) x0 x1 x2 x3 x4 x5 x6 (ix2 n b) := by
  rw [val_main_v25_apply]
  exact congrArg (val_main_v24 (F := Ideal) x0 x1 x2 x3 x4 x5 x6) (ext2 rfl rfl)

/-- First product: the entry times the hidden unit's weight. -/
theorem dot11 (n : Fin 1024) (b : Fin 16384) (h : Fin 2) :
    val_main_v26 (F := Ideal) x0 x1 x2 x3 x4 x5 x6 x7 (ix3 n b h) = val_main_v24 (F := Ideal) x0 x1 x2 x3 x4 x5 x6 (ix2 n b) * x7 (ix3 n h (0 : Fin 1)) := by
  rw [val_main_v26_apply, Fin.sum_univ_one,
    show lidx_main_v26 (ix3 n b h) (0 : Fin 1) = ix3 n b (0 : Fin 1) from ext3 rfl rfl rfl,
    show ridx_main_v26 (ix3 n b h) (0 : Fin 1) = ix3 n h (0 : Fin 1) from ext3 rfl rfl rfl, unit1]

/-- First bias, broadcast along the batch. -/
theorem bias11 (n : Fin 1024) (b : Fin 16384) (h : Fin 2) :
    val_main_v28 (F := Ideal) x8 (ix3 n b h) = x8 (ix2 n h) := by
  rw [val_main_v28_apply, val_main_v27_apply]
  exact congrArg x8 (ext2 rfl rfl)

/-- First hidden layer: relu of the affine map. -/
theorem hid11 (n : Fin 1024) (b : Fin 16384) (h : Fin 2) :
    val_main_v30 (F := Ideal) x0 x1 x2 x3 x4 x5 x6 x7 x8 (ix3 n b h) = max (val_main_v24 (F := Ideal) x0 x1 x2 x3 x4 x5 x6 (ix2 n b) * x7 (ix3 n h (0 : Fin 1)) + x8 (ix2 n h)) z0 := by
  rw [val_main_v30_apply, val_main_v29_apply, dot11, bias11, zeroA1]; rfl

/-- Second product: the two hidden units against row h of the second weights. -/
theorem dot21 (n : Fin 1024) (b : Fin 16384) (h : Fin 2) :
    val_main_v31 (F := Ideal) x0 x1 x2 x3 x4 x5 x6 x7 x8 x9 (ix3 n b h)
      = val_main_v30 (F := Ideal) x0 x1 x2 x3 x4 x5 x6 x7 x8 (ix3 n b (0 : Fin 2)) * x9 (ix3 n h (0 : Fin 2))
        + val_main_v30 (F := Ideal) x0 x1 x2 x3 x4 x5 x6 x7 x8 (ix3 n b (1 : Fin 2)) * x9 (ix3 n h (1 : Fin 2)) := by
  rw [val_main_v31_apply, Fin.sum_univ_two,
    show lidx_main_v31 (ix3 n b h) (0 : Fin 2) = ix3 n b (0 : Fin 2) from ext3 rfl rfl rfl,
    show lidx_main_v31 (ix3 n b h) (1 : Fin 2) = ix3 n b (1 : Fin 2) from ext3 rfl rfl rfl,
    show ridx_main_v31 (ix3 n b h) (0 : Fin 2) = ix3 n h (0 : Fin 2) from ext3 rfl rfl rfl,
    show ridx_main_v31 (ix3 n b h) (1 : Fin 2) = ix3 n h (1 : Fin 2) from ext3 rfl rfl rfl]

/-- Second bias, broadcast along the batch. -/
theorem bias21 (n : Fin 1024) (b : Fin 16384) (h : Fin 2) :
    val_main_v33 (F := Ideal) x10 (ix3 n b h) = x10 (ix2 n h) := by
  rw [val_main_v33_apply, val_main_v32_apply]
  exact congrArg x10 (ext2 rfl rfl)

/-- Second hidden layer. -/
theorem hid21 (n : Fin 1024) (b : Fin 16384) (h : Fin 2) :
    val_main_v35 (F := Ideal) x0 x1 x2 x3 x4 x5 x6 x7 x8 x9 x10 (ix3 n b h)
      = max (val_main_v30 (F := Ideal) x0 x1 x2 x3 x4 x5 x6 x7 x8 (ix3 n b (0 : Fin 2)) * x9 (ix3 n h (0 : Fin 2))
          + val_main_v30 (F := Ideal) x0 x1 x2 x3 x4 x5 x6 x7 x8 (ix3 n b (1 : Fin 2)) * x9 (ix3 n h (1 : Fin 2)) + x10 (ix2 n h)) z0 := by
  rw [val_main_v35_apply, val_main_v34_apply, dot21, bias21, zeroB1]; rfl

/-- Third product: the two second-layer units against the output weights. -/
theorem dot31 (n : Fin 1024) (b : Fin 16384) :
    val_main_v36 (F := Ideal) x0 x1 x2 x3 x4 x5 x6 x7 x8 x9 x10 x11 (ix3 n b (0 : Fin 1))
      = val_main_v35 (F := Ideal) x0 x1 x2 x3 x4 x5 x6 x7 x8 x9 x10 (ix3 n b (0 : Fin 2)) * x11 (ix3 n (0 : Fin 1) (0 : Fin 2))
        + val_main_v35 (F := Ideal) x0 x1 x2 x3 x4 x5 x6 x7 x8 x9 x10 (ix3 n b (1 : Fin 2)) * x11 (ix3 n (0 : Fin 1) (1 : Fin 2)) := by
  rw [val_main_v36_apply, Fin.sum_univ_two,
    show lidx_main_v36 (ix3 n b (0 : Fin 1)) (0 : Fin 2) = ix3 n b (0 : Fin 2) from ext3 rfl rfl rfl,
    show lidx_main_v36 (ix3 n b (0 : Fin 1)) (1 : Fin 2) = ix3 n b (1 : Fin 2) from ext3 rfl rfl rfl,
    show ridx_main_v36 (ix3 n b (0 : Fin 1)) (0 : Fin 2) = ix3 n (0 : Fin 1) (0 : Fin 2) from ext3 rfl rfl rfl,
    show ridx_main_v36 (ix3 n b (0 : Fin 1)) (1 : Fin 2) = ix3 n (0 : Fin 1) (1 : Fin 2) from ext3 rfl rfl rfl]

/-- Output bias, broadcast along the batch. -/
theorem bias31 (n : Fin 1024) (b : Fin 16384) :
    val_main_v38 (F := Ideal) x12 (ix3 n b (0 : Fin 1)) = x12 (ix2 n (0 : Fin 1)) := by
  rw [val_main_v38_apply, val_main_v37_apply]
  exact congrArg x12 (ext2 rfl rfl)

/-- Edge n's network at batch row b is `mlp` of the entry it is fed, with the parameters of row n. -/
theorem edgeAt1 (n : Fin 1024) (b : Fin 16384) :
    val_main_v39 (F := Ideal) x0 x1 x2 x3 x4 x5 x6 x7 x8 x9 x10 x11 x12 (ix3 n b (0 : Fin 1))
      = mlp z0 (val_main_v24 (F := Ideal) x0 x1 x2 x3 x4 x5 x6 (ix2 n b)) (x7 (ix3 n 0 0)) (x7 (ix3 n 1 0)) (x8 (ix2 n 0)) (x8 (ix2 n 1))
          (x9 (ix3 n 0 0)) (x9 (ix3 n 0 1)) (x9 (ix3 n 1 0)) (x9 (ix3 n 1 1))
          (x10 (ix2 n 0)) (x10 (ix2 n 1)) (x11 (ix3 n 0 0)) (x11 (ix3 n 0 1)) (x12 (ix2 n 0)) := by
  rw [val_main_v39_apply, dot31, bias31, hid21, hid21, hid11, hid11]; rfl

/-- Dropping the unit axis keeps the entry. -/
theorem flat1 (n : Fin 1024) (b : Fin 16384) :
    val_main_v40 (F := Ideal) x0 x1 x2 x3 x4 x5 x6 x7 x8 x9 x10 x11 x12 (ix2 n b) = val_main_v39 (F := Ideal) x0 x1 x2 x3 x4 x5 x6 x7 x8 x9 x10 x11 x12 (ix3 n b (0 : Fin 1)) := by
  rw [val_main_v40_apply]
  have hn := n.isLt; have hb := b.isLt
  refine congrArg (val_main_v39 (F := Ideal) x0 x1 x2 x3 x4 x5 x6 x7 x8 x9 x10 x11 x12) (ext3 ?_ ?_ rfl)
  · show (n.val * 16384 + b.val) / 16384 = n.val
    omega
  · show (n.val * 16384 + b.val) / 1 % 16384 = b.val
    omega

/-- Splitting the edge axis: entry (i, o, b) is edge i * 16 + o at batch row b. -/
theorem split1 (i : Fin 64) (o : Fin 16) (b : Fin 16384) :
    val_main_v41 (F := Ideal) x0 x1 x2 x3 x4 x5 x6 x7 x8 x9 x10 x11 x12 (ix3 i o b) = val_main_v40 (F := Ideal) x0 x1 x2 x3 x4 x5 x6 x7 x8 x9 x10 x11 x12 (ix2 (edge 16 1024 rfl i o) b) := by
  rw [val_main_v41_apply]
  have ho := o.isLt; have hb := b.isLt
  refine congrArg (val_main_v40 (F := Ideal) x0 x1 x2 x3 x4 x5 x6 x7 x8 x9 x10 x11 x12) (ext2 ?_ ?_)
  · show ((i.val * 16 + o.val) * 16384 + b.val) / 16384 = i.val * 16 + o.val
    omega
  · show ((i.val * 16 + o.val) * 16384 + b.val) % 16384 = b.val
    omega

/-! ### Layer 1 as a whole, and the result -/

/-- Row j * 16 + o of the flattened, repeated layer-0 result (transposed twice in between) is output j of layer 0 at
    every batch row. -/
theorem feed1 (j : Fin 64) (o : Fin 16) (b : Fin 16384) :
    val_main_v24 (F := Ideal) x0 x1 x2 x3 x4 x5 x6 (ix2 (edge 16 1024 rfl j o) b)
      = val_main_v21 (F := Ideal) x0 x1 x2 x3 x4 x5 x6 (ix2 b j) := by
  rw [val_main_v24_apply, val_main_v23_apply, val_main_v22_apply]
  have ho := o.isLt; have hb := b.isLt
  refine congrArg (val_main_v21 (F := Ideal) x0 x1 x2 x3 x4 x5 x6) (ext2 ?_ ?_)
  · show ((j.val * 16 + o.val) * 16384 + b.val) % 16384 = b.val
    omega
  · show ((j.val * 16 + o.val) * 16384 + b.val) / 262144 = j.val
    omega

/-- THE REFERENCE IS THE SPECIFICATION: the last stage of the reference, as a function of the thirteen arguments, is `G`. -/
theorem ref_eq :
    val_main_v43 (F := Ideal) x0 x1 x2 x3 x4 x5 x6 x7 x8 x9 x10 x11 x12 = G x0 x1 x2 x3 x4 x5 x6 x7 x8 x9 x10 x11 x12 := by
  funext q
  obtain ⟨b, o, rfl⟩ : ∃ (b : Fin 16384) (o : Fin 16), q = ix2 b o := ⟨q 0, q 1, eq_ix2 q⟩
  rw [val_main_v43_apply, show idx_main_v43 (ix2 b o) = ix2 o b from ext2 rfl rfl, val_main_v42_apply]
  show _ = z0 + ∑ j : Fin 64, edgeMlp 16 1024 rfl z0 x7 x8 x9 x10 x11 x12 j o
      (layer 64 4096 rfl z0 x1 x2 x3 x4 x5 x6 (fun i => x0 (ix2 b i)) j)
  refine congrArg₂ (· + ·) rfl (Finset.sum_congr rfl fun j _ => ?_)
  rw [show idx_main_v42 (ix2 o b) j = ix3 j o b from ext3 rfl rfl rfl, split1, flat1, edgeAt1, feed1, layer0]
  rfl

/-- Every run of the reference ends with its result at `G` of the arguments' launch contents, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = G (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨by rw [(h c).1, val_main_v43_eq, ref_eq], (h c).2⟩)
    (Cert.ReferenceIdeal.Value.run (F := Ideal) m ρ)

end Cert.ReferenceIdeal.RefValue

end
-- ==== Proof.lean ====
/-
  The proof of `Cert.Claim`: the idealized kernel and the idealized reference compute the same function `Cert.Kan.G` of
  the thirteen argument arrays — two layers of per-edge two-layer ReLU networks, each layer's output the zero word plus the
  sum over its 64 inputs of the edges' values (Proof/Spec.lean).

  Kernel side: one grid point's output block is the block specification of its input blocks (Proof/KanBody.lean); the
  re-laid parameter arrays the region is entered with are the originals read at row i·n+o (Proof/HostPrep.lean); the 32
  blocks tile the result, so the result array is G (Proof/KernelValue.lean). Reference side: its 54 host operations read at
  an entry give the same sums (Proof/RefValue.lean). Only commutativity and associativity of + and · on the extended
  reals are used, so the precondition is never opened. The three frames are the programs' runs with the value dropped;
  the idealization rewrote nothing, so `preserves` is `True`.
-/
import proofs.«180360_j71794673320509_1_alg».proof.Defs
import proofs.«180360_j71794673320509_1_alg».proof.Proof.Gen.Kernel
import proofs.«180360_j71794673320509_1_alg».proof.Proof.Gen.KernelIdeal
import proofs.«180360_j71794673320509_1_alg».proof.Proof.Gen.ReferenceIdeal
import proofs.«180360_j71794673320509_1_alg».proof.Proof.Gen.Pre_finite_inputs
import proofs.«180360_j71794673320509_1_alg».proof.Proof.FrameBits
import proofs.«180360_j71794673320509_1_alg».proof.Proof.FrameIdeal
import proofs.«180360_j71794673320509_1_alg».proof.Proof.KernelValue
import proofs.«180360_j71794673320509_1_alg».proof.Proof.RefValue
import Idealize.ShloMosaic.Adequacy
import Idealize.ShloMosaic.Init

noncomputable section

namespace Cert.Proof

open Idealize.ShloMosaic Idealize.ShloMosaic.TcCoe Idealize.SL.Sem

/-- Both idealized programs, from memories that agree on the arguments, end with the result array at `Cert.Kan.G` of the
    arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Kan.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.KanValue.run m ρ, ?_⟩
  refine (θ_run Cert.ReferenceIdeal.defs _ _).mono (fun _ h c => ⟨(h c).1.trans ?_, (h c).2⟩)
    (Cert.ReferenceIdeal.RefValue.ref_run m' ρ')
  obtain ⟨h0, h1, h2, h3, h4, h5, h6, h7, h8, h9, h10, h11, h12⟩ := hagree c
  rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    fun m ρ _ => Cert.Kernel.GenP.frame m ρ,
    fun m ρ _ => Cert.KernelIdeal.GenP.frame m ρ,
    fun m ρ _ => (θ_run Cert.ReferenceIdeal.defs _ _).mono (fun _ h c => (h c).2)
      (Cert.ReferenceIdeal.Value.run (F := Ideal) m ρ),
    trivial,
    algebraic⟩

end Cert.Proof

end
